-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S4 : Shape := ⟨1, ![4]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_arg6 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024x1024 .f32) (main_arg5 : FVec F S1024x1024 .f32) (main_arg6 : FVec F S1024x1024 .f32) (main_arg7 : IVec S4 32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S4 : Shape := ⟨1, ![4]⟩
abbrev S8192x1024 : Shape := ⟨2, ![8192, 1024]⟩
abbrev S2048x1024 : Shape := ⟨2, ![2048, 1024]⟩
abbrev S1x256x1024 : Shape := ⟨3, ![1, 256, 1024]⟩
abbrev S1x2048x1024 : Shape := ⟨3, ![1, 2048, 1024]⟩
abbrev S1 : Shape := ⟨1, ![1]⟩
abbrev S256x1024 : Shape := ⟨2, ![256, 1024]⟩
abbrev S256x2048 : Shape := ⟨2, ![256, 2048]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S64x2048 : Shape := ⟨2, ![64, 2048]⟩
abbrev S256 : Shape := ⟨1, ![256]⟩
abbrev S256x1 : Shape := ⟨2, ![256, 1]⟩
abbrev S1024x128 : Shape := ⟨2, ![1024, 128]⟩
abbrev S128x1024 : Shape := ⟨2, ![128, 1024]⟩

abbrev nBuf : Space → Nat
  | .hbm => 21
  | .vmem => 24
  | .smem => 1
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S8192x1024, .bf16⟩
  | .hbm, ⟨17, _⟩ => ⟨S4x2048x1024, .bf16⟩
  | .hbm, ⟨18, _⟩ => ⟨S4x2048x1024, .bf16⟩
  | .hbm, ⟨19, _⟩ => ⟨S4x2048x1024, .bf16⟩
  | .hbm, ⟨20, _⟩ => ⟨S4x2048x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | .local _ .vmem, ⟨6, _⟩ => ⟨S2048x1024, .f32⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .f32⟩
  | .local _ .vmem, ⟨11, _⟩ => ⟨S2048x1024, .f32⟩
  | .local _ .vmem, ⟨12, _⟩ => ⟨S1024x1024, .bf16⟩
  | .local _ .vmem, ⟨13, _⟩ => ⟨S2048x1024, .bf16⟩
  | .local _ .vmem, ⟨14, _⟩ => ⟨S2048x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x2048x1024, .bf16⟩
  | .local _ .vmem, ⟨21, _⟩ => ⟨S1024x1024, .bf16⟩
  | .local _ .vmem, ⟨22, _⟩ => ⟨S1x256x1024, .f32⟩
  | .local _ .vmem, ⟨23, _⟩ => ⟨S1x256x1024, .f32⟩
  | .local _ .smem, ⟨0, _⟩ => ⟨S4, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 8], ![false, false]⟩

abbrev pre3 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

class Facts₀ : Prop where
  bitsLt_bf16_f32 : FTy.bits .bf16 < FTy.bits .f32
  shapeCasts_S4x2048x1024_S8192x1024 : S4x2048x1024.ShapeCasts S8192x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  packedbf16_S2048x1024_S2048x1024_0_0 : (Rect.unit (s := S2048x1024) ![0, 0] S2048x1024.size inb_S2048x1024_S2048x1024_0_0).PackedRows (EltTy.packing .bf16)
  shapeCasts_S8192x1024_S4x2048x1024 : S8192x1024.ShapeCasts S4x2048x1024
  numel1_S1 : S1.numel = 1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  iota_S256x2048_d1_w32 : S256x2048.Iotas .tc 32 [1]
  slices_S256x1024_o0_0_S256x128 : S256x1024.Slices ![0, 0] S256x128
  slices_S2048x1024_o0_0_S2048x128 : S2048x1024.Slices ![0, 0] S2048x128
  slices_S256x128_o0_0_S256x64 : S256x128.Slices ![0, 0] S256x64
  slices_S2048x128_o0_0_S2048x64 : S2048x128.Slices ![0, 0] S2048x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  slices_S256x128_o0_64_S256x64 : S256x128.Slices ![0, 64] S256x64
  slices_S2048x128_o0_64_S2048x64 : S2048x128.Slices ![0, 64] S2048x64
  concatenates_S256x64_S256x64_S256x128_d1 : Shape.Concatenates [S256x64, S256x64] S256x128 1
  slices_S1024x1024_o0_0_S1024x128 : S1024x1024.Slices ![0, 0] S1024x128
  transposes_S1024x128_p1_0_S128x1024 : S1024x128.Transposes [1, 0] S128x1024
  slices_S256x1024_o0_128_S256x128 : S256x1024.Slices ![0, 128] S256x128
  slices_S2048x1024_o0_128_S2048x128 : S2048x1024.Slices ![0, 128] S2048x128
  slices_S1024x1024_o0_128_S1024x128 : S1024x1024.Slices ![0, 128] S1024x128
  slices_S256x1024_o0_256_S256x128 : S256x1024.Slices ![0, 256] S256x128
  slices_S2048x1024_o0_256_S2048x128 : S2048x1024.Slices ![0, 256] S2048x128
  slices_S1024x1024_o0_256_S1024x128 : S1024x1024.Slices ![0, 256] S1024x128
  slices_S256x1024_o0_384_S256x128 : S256x1024.Slices ![0, 384] S256x128
  slices_S2048x1024_o0_384_S2048x128 : S2048x1024.Slices ![0, 384] S2048x128
  slices_S1024x1024_o0_384_S1024x128 : S1024x1024.Slices ![0, 384] S1024x128
  slices_S256x1024_o0_512_S256x128 : S256x1024.Slices ![0, 512] S256x128
  slices_S2048x1024_o0_512_S2048x128 : S2048x1024.Slices ![0, 512] S2048x128
  slices_S1024x1024_o0_512_S1024x128 : S1024x1024.Slices ![0, 512] S1024x128
  slices_S256x1024_o0_640_S256x128 : S256x1024.Slices ![0, 640] S256x128
  slices_S2048x1024_o0_640_S2048x128 : S2048x1024.Slices ![0, 640] S2048x128
  slices_S1024x1024_o0_640_S1024x128 : S1024x1024.Slices ![0, 640] S1024x128
  slices_S256x1024_o0_768_S256x128 : S256x1024.Slices ![0, 768] S256x128
  slices_S2048x1024_o0_768_S2048x128 : S2048x1024.Slices ![0, 768] S2048x128
  slices_S1024x1024_o0_768_S1024x128 : S1024x1024.Slices ![0, 768] S1024x128
  slices_S256x1024_o0_896_S256x128 : S256x1024.Slices ![0, 896] S256x128
  slices_S2048x1024_o0_896_S2048x128 : S2048x1024.Slices ![0, 896] S2048x128
  slices_S1024x1024_o0_896_S1024x128 : S1024x1024.Slices ![0, 896] S1024x128
  shapeCasts_S256x1024_S1x256x1024 : S256x1024.ShapeCasts S1x256x1024
  dot_S2048x1024_S1024x1024_S2048x1024_1_0_0_1_n_n_wf : DotDims.WF S2048x1024 S1024x1024 S2048x1024 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  dot_S256x128_S128x1024_S256x1024_1_0_0_1_n_n_wf : DotDims.WF S256x128 S128x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x1024.size a
  hwx0_2 : ∀ i : grid0.Coords, EltTy.bits .bf16 = 32 ∨ (Rect.block (s := S8192x1024) S2048x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x1024.size a
  hwx1_0 : ∀ i : grid1.Coords, EltTy.bits .f32 = 32 ∨ (Rect.block (s := S8192x1024) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S8192x1024.size a
  hwx1_2 : ∀ i : grid1.Coords, EltTy.bits .bf16 = 32 ∨ (Rect.block (s := S8192x1024) S2048x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x1024.size a
  hwx2_0 : ∀ i : grid2.Coords, EltTy.bits .f32 = 32 ∨ (Rect.block (s := S8192x1024) S2048x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S8192x1024.size a
  hwx2_2 : ∀ i : grid2.Coords, EltTy.bits .bf16 = 32 ∨ (Rect.block (s := S8192x1024) S2048x1024.size (cc2_transform_2 i) (hinb2_2 i)).WholeWords (EltTy.packing .bf16)
  hrank3 : 0 < grid3.rank
  k3_off1_inb : ∀ i : grid3.Coords, ∀ a, (k3_off1 i) a + S1.size a ≤ S4.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S4x2048x1024.size a
  hwx3_0 : ∀ i : grid3.Coords, EltTy.bits .bf16 = 32 ∨ (Rect.block (s := S4x2048x1024) S1x256x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S4x2048x1024.size a
  hwx3_1 : ∀ i : grid3.Coords, EltTy.bits .bf16 = 32 ∨ (Rect.block (s := S4x2048x1024) S1x2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S4x2048x1024.size a
  hwx3_2 : ∀ i : grid3.Coords, EltTy.bits .bf16 = 32 ∨ (Rect.block (s := S4x2048x1024) S1x2048x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .bf16 = 32 ∨ (Rect.block (s := S1024x1024) S1024x1024.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x256x1024.size a ≤ S4x2048x1024.size a
  hwx3_4 : ∀ i : grid3.Coords, EltTy.bits .f32 = 32 ∨ (Rect.block (s := S4x2048x1024) S1x256x1024.size (cc3_transform_4 i) (hinb3_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf

abbrev win0_0 : Pipeline.Window sig grid0 :=
  Pipeline.Window.ofSpec (Memref.whole main_v4) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v8) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev spec3_0 : Pipeline.WinSpec sig grid3.rank :=
  Pipeline.WinSpec.ofSpec (Memref.whole main_v10) S1x256x1024.size reads3_0 false false 2 stage3_0 sem3_0 nbuf3_0 hstage3_0

abbrev spec3_1 : Pipeline.WinSpec sig grid3.rank :=
  Pipeline.WinSpec.ofSpec (Memref.whole main_v11) S1x2048x1024.size reads3_1 false false 2 stage3_1 sem3_1 nbuf3_1 hstage3_1

abbrev spec3_2 : Pipeline.WinSpec sig grid3.rank :=
  Pipeline.WinSpec.ofSpec (Memref.whole main_v12) S1x2048x1024.size reads3_2 false false 2 stage3_2 sem3_2 nbuf3_2 hstage3_2

abbrev spec3_3 : Pipeline.WinSpec sig grid3.rank :=
  Pipeline.WinSpec.ofSpec (Memref.whole main_v3) S1024x1024.size reads3_3 false true 1 stage3_3 sem3_3 nbuf3_3 hstage3_3

abbrev spec3_4 : Pipeline.WinSpec sig grid3.rank :=
  Pipeline.WinSpec.ofSpec (Memref.whole main_v13) S1x256x1024.size reads3_4 true false 2 stage3_4 sem3_4 nbuf3_4 hstage3_4

abbrev spec3 : Fin 5 → Pipeline.WinSpec sig grid3.rank := fun | 0 => spec3_0 | 1 => spec3_1 | 2 => spec3_2 | 3 => spec3_3 | 4 => spec3_4 | ⟨_ + 5, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | 4 => nbuf3_4 | ⟨_ + 5, h⟩ => absurd h (Nat.not_lt.2 (Nat.le_add_left _ _))
abbrev ix3 (pf : pre3.Contents (Elt F)) : (w : Fin 5) → grid3.Coords → Fin (spec3 w).shape.rank → Nat := fun | 0 => cc3_transform_0 | 1 => cc3_transform_1 | 2 => cc3_transform_2 | 3 => cc3_transform_3 | 4 => cc3_transform_4 | ⟨_ + 5, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | 2 => hreads3_2 | 3 => hreads3_3 | 4 => hreads3_4 | ⟨_ + 5, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | 2 => hinb3_2 | 3 => hinb3_3 | 4 => hinb3_4 | ⟨_ + 5, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | 2 => hwx3_2 | 3 => hwx3_3 | 4 => hwx3_4 | ⟨_ + 5, h⟩ => absurd h (Nat.not_lt.2 (Nat.le_add_left _ _))

class Facts : Prop extends Facts₀ where
  harr3 : ∀ w, (spec3 w).arr.IsWhole

variable [Facts]
-- ==== ReferenceIdeal.lean ====
abbrev S4x2048x1024 : Shape := ⟨3, ![4, 2048, 1024]⟩
abbrev S1024x1024 : Shape := ⟨2, ![1024, 1024]⟩
abbrev S4 : Shape := ⟨1, ![4]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048 : Shape := ⟨1, ![2048]⟩
abbrev S1x1x1x2048 : Shape := ⟨4, ![1, 1, 1, 2048]⟩
abbrev S4x1x1x1 : Shape := ⟨4, ![4, 1, 1, 1]⟩
abbrev S4x1x1x2048 : Shape := ⟨4, ![4, 1, 1, 2048]⟩
abbrev S4x16x2048 : Shape := ⟨3, ![4, 16, 2048]⟩
abbrev S4x16x2048x1 : Shape := ⟨4, ![4, 16, 2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4, .i32⟩
  | .hbm, ⟨8, _⟩ => ⟨S4x2048x1024, .f32⟩
  | .hbm, ⟨9, _⟩ => ⟨S4x2048x16x64, .f32⟩
  | .hbm, ⟨10, _⟩ => ⟨S4x16x2048x64, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x16x2048x2048, .f32⟩
  | .hbm, ⟨18, _⟩ => ⟨S_, .f32⟩
  | .hbm, ⟨19, _⟩ => ⟨S4x16x2048x2048, .f32⟩
  | .hbm, ⟨20, _⟩ => ⟨S4x16x2048x2048, .f32⟩
  | .hbm, ⟨21, _⟩ => ⟨S2048, .i32⟩
  | .hbm, ⟨22, _⟩ => ⟨S1x1x1x2048, .i32⟩
  | .hbm, ⟨23, _⟩ => ⟨S4x1x1x1, .i32⟩
  | .hbm, ⟨24, _⟩ => ⟨S4x1x1x2048, .i32⟩
  | .hbm, ⟨25, _⟩ => ⟨S4x1x1x2048, .i32⟩
  | .hbm, ⟨26, _⟩ => ⟨S4x1x1x2048, .i1⟩
  | .hbm, ⟨27, _⟩ => ⟨S_, .f32⟩
  | .hbm, ⟨28, _⟩ => ⟨S_, .f32⟩
  | .hbm, ⟨29, _⟩ => ⟨S4x16x2048x2048, .i1⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S_, .f32⟩
  | .hbm, ⟨35, _⟩ => ⟨S4x16x2048, .f32⟩
  | .hbm, ⟨36, _⟩ => ⟨S4x16x2048, .f32⟩
  | .hbm, ⟨37, _⟩ => ⟨S4x16x2048x1, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S4x16x2048, .f32⟩
  | .hbm, ⟨43, _⟩ => ⟨S4x16x2048x1, .f32⟩
  | .hbm, ⟨44, _⟩ => ⟨S4x16x2048x2048, .f32⟩
  | .hbm, ⟨45, _⟩ => ⟨S4x16x2048x2048, .f32⟩
  | .hbm, ⟨46, _⟩ => ⟨S4x16x2048x64, .f32⟩
  | .hbm, ⟨47, _⟩ => ⟨S4x2048x16x64, .f32⟩
  | .hbm, ⟨48, _⟩ => ⟨S4x2048x1024, .f32⟩
  | .hbm, ⟨49, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S2048_S1x1x1x2048_3 : S2048.BroadcastsInDim S1x1x1x2048 (![3] : Fin 1 → Fin S1x1x1x2048.rank)
  bcast_S4_S4x1x1x1_0 : S4.BroadcastsInDim S4x1x1x1 (![0] : Fin 1 → Fin S4x1x1x1.rank)
  bcast_S1x1x1x2048_S4x1x1x2048_0_1_2_3 : S1x1x1x2048.BroadcastsInDim S4x1x1x2048 (![0, 1, 2, 3] : Fin 4 → Fin S4x1x1x2048.rank)
  bcast_S4x1x1x1_S4x1x1x2048_0_1_2_3 : S4x1x1x1.BroadcastsInDim S4x1x1x2048 (![0, 1, 2, 3] : Fin 4 → Fin S4x1x1x2048.rank)
  bcast_S4x1x1x2048_S4x16x2048x2048_0_1_2_3 : S4x1x1x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.K.Lin0.lean ====
/-
  Region 0 of @main: the linear-projection kernel's pipeline (grid of 4 row blocks), at the buffer
  contents `V` the region is entered from.

  The body loads the 2048 × 1024 row block of the activations and the whole weight, and stores
  the block of their product (the weight transposed); the value stored is the generated payload of
  the two loads.  Window 0 (activations) moves with the point, window 1 (weight) is fetched once and
  stays, window 2 (result) is written back at every point.
-/
import proofs.«413729_j14688788152931_2_alg».proof.Proof.Gen.Kernel.Launch
import proofs.«413729_j14688788152931_2_alg».proof.Proof.Gen.Kernel.Skeleton
import proofs.«413729_j14688788152931_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's two whole-buffer rectangles. -/
abbrev rA : Rect S2048x1024 := Rect.unit (s := S2048x1024) ![0, 0] S2048x1024.size inb_S2048x1024_S2048x1024_0_0
abbrev rW : Rect S1024x1024 := Rect.unit (s := S1024x1024) ![0, 0] S1024x1024.size inb_S1024x1024_S1024x1024_0_0

/-- The result window's staging buffer after the body: its one store, of the payload of the two loads. -/
def out2 (x0 : Vec F S2048x1024 .f32) (x1 : Vec F S1024x1024 .bf16) : Vec F S2048x1024 .bf16 :=
  View.canon [⟨rA, k0_pay1 (View.ld x0 rA) (View.ld x1 rW)⟩]

/-- The one store covers the buffer. -/
theorem cover2 (p0 : Vec F S2048x1024 .bf16) (y : S2048x1024.Idx) :
    ∃ pc ∈ ([⟨rA, p0⟩] : List (View.Piece (Elt F) S2048x1024 .bf16)), y ∈ pc.1.set :=
  View.cover_of_tiled [⟨rA, p0⟩] S2048x1024.size (by rfl) y

set_option maxHeartbeats 1000000 in
/-- The body on whole staging memrefs, the inputs at contents `x0`, `x1` and the result's at anything, runs to the
    continuation with the inputs as they were and the result's at `out2 x0 x1`. -/
theorem sound_kernel (c : Dev nD) (E : Set ℕ) (i : grid0.Coords)
    (arg1 : Memref sig .tc .vmem S2048x1024 .f32) (harg1 : arg1.IsWhole) (arg2 : Memref sig .tc .vmem S1024x1024 .bf16) (harg2 : arg2.IsWhole)
    (arg3 : Memref sig .tc .vmem S2048x1024 .bf16) (harg3 : arg3.IsWhole)
    (x0 : Vec F S2048x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The pipeline's proof data on core `c`: the arrays as the region finds them; after the body each input's buffer at
    its block, the result's at `out2` of the two input blocks; the invariant is the scoped rest and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point `t`, the windows one by one, and what it returns. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Lin0

end
-- ==== Proof.K.Lin1.lean ====
/-
  Region 1 of @main: the linear-projection kernel's pipeline (grid of 4 row blocks), at the buffer
  contents `V` the region is entered from.

  The body loads the 2048 × 1024 row block of the activations and the whole weight, and stores
  the block of their product (the weight transposed); the value stored is the generated payload of
  the two loads.  Window 0 (activations) moves with the point, window 1 (weight) is fetched once and
  stays, window 2 (result) is written back at every point.
-/
import proofs.«413729_j14688788152931_2_alg».proof.Proof.Gen.Kernel.Launch
import proofs.«413729_j14688788152931_2_alg».proof.Proof.Gen.Kernel.Skeleton
import proofs.«413729_j14688788152931_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's two whole-buffer rectangles. -/
abbrev rA : Rect S2048x1024 := Rect.unit (s := S2048x1024) ![0, 0] S2048x1024.size inb_S2048x1024_S2048x1024_0_0
abbrev rW : Rect S1024x1024 := Rect.unit (s := S1024x1024) ![0, 0] S1024x1024.size inb_S1024x1024_S1024x1024_0_0

/-- The result window's staging buffer after the body: its one store, of the payload of the two loads. -/
def out2 (x0 : Vec F S2048x1024 .f32) (x1 : Vec F S1024x1024 .bf16) : Vec F S2048x1024 .bf16 :=
  View.canon [⟨rA, k1_pay1 (View.ld x0 rA) (View.ld x1 rW)⟩]

/-- The one store covers the buffer. -/
theorem cover2 (p0 : Vec F S2048x1024 .bf16) (y : S2048x1024.Idx) :
    ∃ pc ∈ ([⟨rA, p0⟩] : List (View.Piece (Elt F) S2048x1024 .bf16)), y ∈ pc.1.set :=
  View.cover_of_tiled [⟨rA, p0⟩] S2048x1024.size (by rfl) y

set_option maxHeartbeats 1000000 in
/-- The body on whole staging memrefs, the inputs at contents `x0`, `x1` and the result's at anything, runs to the
    continuation with the inputs as they were and the result's at `out2 x0 x1`. -/
theorem sound_kernel (c : Dev nD) (E : Set ℕ) (i : grid1.Coords)
    (arg1 : Memref sig .tc .vmem S2048x1024 .f32) (harg1 : arg1.IsWhole) (arg2 : Memref sig .tc .vmem S1024x1024 .bf16) (harg2 : arg2.IsWhole)
    (arg3 : Memref sig .tc .vmem S2048x1024 .bf16) (harg3 : arg3.IsWhole)
    (x0 : Vec F S2048x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The pipeline's proof data on core `c`: the arrays as the region finds them; after the body each input's buffer at
    its block, the result's at `out2` of the two input blocks; the invariant is the scoped rest and the generator
    register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out2 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = out2 (iblk V c 0 t) (iblk V c 1 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-- What the body is called with at point `t`, the windows one by one, and what it returns. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks, so `sound_kernel` applies; the invariant and the
    core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Lin1

end
-- ==== Proof.K.Lin2.lean ====
/-
  Region 2 of @main: the linear-projection kernel's pipeline (grid of 4 row blocks), at the buffer
  contents `V` the region is entered from.

  The body loads the 2048 × 1024 row block of the activations and the whole weight, and stores
  the block of their product (the weight transposed); the value stored is the generated payload of
  the two loads.  Window 0 (activations) moves with the point, window 1 (weight) is fetched once and
  stays, window 2 (result) is written back at every point.
-/
import proofs.«413729_j14688788152931_2_alg».proof.Proof.Gen.Kernel.Launch
import proofs.«413729_j14688788152931_2_alg».proof.Proof.Gen.Kernel.Skeleton
import proofs.«413729_j14688788152931_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's two whole-buffer rectangles. -/
abbrev rA : Rect S2048x1024 := Rect.unit (s := S2048x1024) ![0, 0] S2048x1024.size inb_S2048x1024_S2048x1024_0_0
abbrev rW : Rect S1024x1024 := Rect.unit (s := S1024x1024) ![0, 0] S1024x1024.size inb_S1024x1024_S1024x1024_0_0

/-- The result window's staging buffer after the body: its one store, of the payload of the two loads. -/
def out2 (x0 : Vec F S2048x1024 .f32) (x1 : Vec F S1024x1024 .bf16) : Vec F S2048x1024 .bf16 :=
  View.canon [⟨rA, k2_pay1 (View.ld x0 rA) (View.ld x1 rW)⟩]

/-- The one store covers the buffer. -/
theorem cover2 (p0 : Vec F S2048x1024 .bf16) (y : S2048x1024.Idx) :
    ∃ pc ∈ ([⟨rA, p0⟩] : List (View.Piece (Elt F) S2048x1024 .bf16)), y ∈ pc.1.set :=
  View.cover_of_tiled [⟨rA, p0⟩] S2048x1024.size (by rfl) y

set_option maxHeartbeats 1000000 in
/-- The body on whole staging memrefs, the inputs at contents `x0`, `x1` and the result's at anything, runs to the
    continuation with the inputs as they were and the result's at `out2 x0 x1`. -/
theorem sound_kernel (c : Dev nD) (E : Set ℕ) (i : grid2.Coords)
    (arg1 : Memref sig .tc .vmem S2048x1024 .f32) (harg1 : arg1.IsWhole) (arg2 : Memref sig .tc .vmem S1024x1024 .bf16) (harg2 : arg2.IsWhole)
    (arg3 : Memref sig .tc .vmem S2048x1024 .bf16) (harg3 : arg3.IsWhole)
    (x0 : Vec F S2048x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The pipeline's proof data on core `c`: the arrays as the region finds them; after the body each input's buffer at
    its block, the result's at `out2` of the two input blocks; the invariant is the scoped rest and the generator
    register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out2 (iblk V c 0 t) (iblk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = out2 (iblk V c 0 t) (iblk V c 1 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-- What the body is called with at point `t`, the windows one by one, and what it returns. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' memrefs hold their blocks, so `sound_kernel` applies; the invariant and the
    core's `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Lin2

end
-- ==== Proof.K.AttnDef.lean ====
/-
  The attention kernel's body as mathematics-shaped functions, for either instance.

  `pay` is what the body stores into its output block, as a function of the five things it loads
  (the batch's valid length word and the four input blocks): the generated payload names composed
  in the order the body computes them.

  `headBlk` is one head on a query block: the 256 × 2048 scores (query slice times transposed key
  slice, times 1/8, masked positions replaced by the large negative constant), the shifted softmax
  along a row, and the product with the value slice.  `packBlk` is one pair of neighbouring heads
  (128 feature columns from column `off`): the two head outputs side by side, times the matching
  128 columns of the output weight, transposed.  `attnBlk` adds the eight pairs' contributions,
  in order, onto a zero block.
-/
import proofs.«413729_j14688788152931_2_alg».proof.Proof.Gen.Kernel.Skeleton

noncomputable section

namespace Cert.Kernel.AttnDef

open Cert.Kernel Cert.Kernel.Gen
open Idealize.ShloMosaic Idealize.SL.Sem

variable {F : FTy → Type} [FloatOps F]

/-- What the body stores, from what it loads: the generated payloads composed. -/
def pay (v1 : Elt F .i32) (v2 : Vec F S1x256x1024 .bf16) (v4 v6 : Vec F S1x2048x1024 .bf16) (v8 : Vec F S1024x1024 .bf16) :
    FVec F S1x256x1024 .f32 :=
  have v3 := k3_pay2 v2
  have v5 := k3_pay3 v4
  have v7 := k3_pay4 v6
  have v9 := k3_pay5 v8
  have v12 := k3_pay6 (F := F) v1
  have v13 := k3_pay7 (F := F)
  have v36 := k3_pay11 v1 v2 v4 v6
  have v37 := k3_pay12 v2
  have v38 := k3_pay13 v4
  have v39 := k3_pay14 v6
  have v62 := k3_pay15 v9 v12 v13 v36 v37 v38 v39
  have v64 := k3_pay17 v5
  have v65 := k3_pay18 v7
  have v85 := k3_pay19 v3 v5 v7 v12
  have v86 := k3_pay20 v3
  have v111 := k3_pay21 v9 v12 v62 v64 v65 v85 v86
  have v112 := k3_pay22 v3
  have v113 := k3_pay23 v5
  have v114 := k3_pay24 v7
  have v117 := k3_pay25 v7
  have v133 := k3_pay26 v3 v5 v12
  have cst_41 : FVec F S256x64 .f32 := constant S256x64 .f32 0x00000000#32
  have v160 := k3_pay27 v9 v12 v111 v112 v113 v114 v117 v133 cst_41
  have v161 := k3_pay28 v3
  have v162 := k3_pay29 v5
  have v163 := k3_pay30 v7
  have v166 := k3_pay31 v7
  have v181 := k3_pay32 v3 v5 v12
  have v209 := k3_pay33 v9 v12 v160 v161 v162 v163 v166 v181
  have v210 := k3_pay34 v3
  have v211 := k3_pay35 v5
  have v212 := k3_pay36 v7
  have v215 := k3_pay37 v7
  have v226 := k3_pay38 v3 v5 v12
  have v228 := k3_pay39 v3 v5 v12
  have v258 := k3_pay40 v9 v12 v209 v210 v211 v212 v215 v226 v228
  have v259 := k3_pay41 v3
  have v260 := k3_pay42 v5
  have v261 := k3_pay43 v7
  have v264 := k3_pay44 v7
  have v275 := k3_pay45 v3 v5 v12
  have v307 := k3_pay46 v9 v12 v258 v259 v260 v261 v264 v275
  have v308 := k3_pay47 v3
  have v309 := k3_pay48 v5
  have v310 := k3_pay49 v7
  have v313 := k3_pay50 v7
  have v323 := k3_pay51 v3 v5 v12
  have v356 := k3_pay52 v9 v12 v307 v308 v309 v310 v313 v323
  have v357 := k3_pay53 v3
  have v358 := k3_pay54 v5
  have v359 := k3_pay55 v7
  have v362 := k3_pay56 v7
  have v368 := k3_pay57 v3 v5 v12
  have v370 := k3_pay58 v3 v5 v12
  k3_pay1 v9 v12 v356 v357 v358 v359 v362 v368 v370

/-- One head on a query block: scores, shifted softmax, times the value slice. -/
def headBlk (qs : FVec F S256x64 .bf16) (ks vs : FVec F S2048x64 .bf16) (v12 : IVec S256x2048 1) : FVec F S256x64 .f32 :=
  have kt : FVec F S64x2048 .bf16 := transpose S64x2048 [1, 0] ks transposes_S2048x64_p1_0_S64x2048
  have z0 : FVec F S256x2048 .f32 := constant S256x2048 .f32 0x00000000#32
  have qk : FVec F S256x2048 .f32 := matmul dot_S256x64_S64x2048_S256x2048_1_0_0_1_n_n none qs kt z0
  have c8 : F .f32 := Scalar.ofBits .f32 0x3E000000#32
  have b8 : FVec F S256x2048 .f32 := broadcast S256x2048 c8
  have sc : FVec F S256x2048 .f32 := mulf qk b8
  have cn : F .f32 := Scalar.ofBits .f32 0xCE6E6B28#32
  have bn : FVec F S256x2048 .f32 := broadcast S256x2048 cn
  have ms : FVec F S256x2048 .f32 := select v12 bn sc
  have mx : FVec F S256 .f32 := multiReduction .maximumf [1] S256 ms 0xFF800000#32 reduces_S256x2048_S256 (.inl rfl) rfl
  have mx1 : FVec F S256x1 .f32 := shapeCast S256x1 mx shapeCasts_S256_S256x1
  have mxb : FVec F S256x2048 .f32 := broadcastTo S256x2048 mx1 broadcasts_S256x1_S256x2048
  have sh : FVec F S256x2048 .f32 := subf ms mxb
  have ex : FVec F S256x2048 .f32 := exp sh
  have sm : FVec F S256 .f32 := multiReduction .add [1] S256 ex 0x00000000#32 reduces_S256x2048_S256 (.inl rfl) rfl
  have sm1 : FVec F S256x1 .f32 := shapeCast S256x1 sm shapeCasts_S256_S256x1
  have smb : FVec F S256x2048 .f32 := broadcastTo S256x2048 sm1 broadcasts_S256x1_S256x2048
  have pr : FVec F S256x2048 .f32 := divf ex smb
  have prb : FVec F S256x2048 .bf16 := truncf .bf16 pr bitsLt_bf16_f32
  have z1 : FVec F S256x64 .f32 := constant S256x64 .f32 0x00000000#32
  matmul dot_S256x2048_S2048x64_S256x64_1_0_0_1_n_n none prb vs z1

/-- One pair of neighbouring heads (the 128 feature columns from `off`) through the matching columns of the output weight. -/
def packBlk (off : Nat) (hq : S256x1024.Slices ![0, off] S256x128) (hk : S2048x1024.Slices ![0, off] S2048x128)
    (hw : S1024x1024.Slices ![0, off] S1024x128)
    (v3 : FVec F S256x1024 .bf16) (v5 v7 : FVec F S2048x1024 .bf16) (v9 : FVec F S1024x1024 .bf16) (v12 : IVec S256x2048 1) :
    FVec F S256x1024 .f32 :=
  have qp : FVec F S256x128 .bf16 := extractStridedSlice S256x128 ![0, off] v3 hq
  have kp : FVec F S2048x128 .bf16 := extractStridedSlice S2048x128 ![0, off] v5 hk
  have vp : FVec F S2048x128 .bf16 := extractStridedSlice S2048x128 ![0, off] v7 hk
  have o0 : FVec F S256x64 .f32 := headBlk
    (extractStridedSlice S256x64 ![0, 0] qp slices_S256x128_o0_0_S256x64)
    (extractStridedSlice S2048x64 ![0, 0] kp slices_S2048x128_o0_0_S2048x64)
    (extractStridedSlice S2048x64 ![0, 0] vp slices_S2048x128_o0_0_S2048x64) v12
  have o1 : FVec F S256x64 .f32 := headBlk
    (extractStridedSlice S256x64 ![0, 64] qp slices_S256x128_o0_64_S256x64)
    (extractStridedSlice S2048x64 ![0, 64] kp slices_S2048x128_o0_64_S2048x64)
    (extractStridedSlice S2048x64 ![0, 64] vp slices_S2048x128_o0_64_S2048x64) v12
  have cat : FVec F S256x128 .f32 := concatenate S256x128 1 [⟨S256x64, o0⟩, ⟨S256x64, o1⟩] concatenates_S256x64_S256x64_S256x128_d1
  have catb : FVec F S256x128 .bf16 := truncf .bf16 cat bitsLt_bf16_f32
  have ws : FVec F S1024x128 .bf16 := extractStridedSlice S1024x128 ![0, off] v9 hw
  have wt : FVec F S128x1024 .bf16 := transpose S128x1024 [1, 0] ws transposes_S1024x128_p1_0_S128x1024
  have z : FVec F S256x1024 .f32 := constant S256x1024 .f32 0x00000000#32
  matmul dot_S256x128_S128x1024_S256x1024_1_0_0_1_n_n none catb wt z

/-- The mask of a block: key position (lane coordinate) ≥ the valid length word, signed. -/
def maskBlk (v1 : Elt F .i32) : IVec S256x2048 1 :=
  have io : IVec S256x2048 32 := iota .tc S256x2048 32 [1] iota_S256x2048_d1_w32
  have bv : IVec S256x2048 32 := broadcast S256x2048 v1
  cmpi .sge io bv

/-- The eight pairs' contributions added in order onto a zero block, from the 2-D readings of the loaded blocks. -/
def accBlk (v3 : FVec F S256x1024 .bf16) (v5 v7 : FVec F S2048x1024 .bf16) (v9 : FVec F S1024x1024 .bf16) (v12 : IVec S256x2048 1) :
    FVec F S256x1024 .f32 :=
  have c0 : F .f32 := Scalar.ofBits .f32 0x00000000#32
  have a : FVec F S256x1024 .f32 := broadcast S256x1024 c0
  have a0 : FVec F S256x1024 .f32 := addf a (packBlk 0 slices_S256x1024_o0_0_S256x128 slices_S2048x1024_o0_0_S2048x128 slices_S1024x1024_o0_0_S1024x128 v3 v5 v7 v9 v12)
  have a1 : FVec F S256x1024 .f32 := addf a0 (packBlk 128 slices_S256x1024_o0_128_S256x128 slices_S2048x1024_o0_128_S2048x128 slices_S1024x1024_o0_128_S1024x128 v3 v5 v7 v9 v12)
  have a2 : FVec F S256x1024 .f32 := addf a1 (packBlk 256 slices_S256x1024_o0_256_S256x128 slices_S2048x1024_o0_256_S2048x128 slices_S1024x1024_o0_256_S1024x128 v3 v5 v7 v9 v12)
  have a3 : FVec F S256x1024 .f32 := addf a2 (packBlk 384 slices_S256x1024_o0_384_S256x128 slices_S2048x1024_o0_384_S2048x128 slices_S1024x1024_o0_384_S1024x128 v3 v5 v7 v9 v12)
  have a4 : FVec F S256x1024 .f32 := addf a3 (packBlk 512 slices_S256x1024_o0_512_S256x128 slices_S2048x1024_o0_512_S2048x128 slices_S1024x1024_o0_512_S1024x128 v3 v5 v7 v9 v12)
  have a5 : FVec F S256x1024 .f32 := addf a4 (packBlk 640 slices_S256x1024_o0_640_S256x128 slices_S2048x1024_o0_640_S2048x128 slices_S1024x1024_o0_640_S1024x128 v3 v5 v7 v9 v12)
  have a6 : FVec F S256x1024 .f32 := addf a5 (packBlk 768 slices_S256x1024_o0_768_S256x128 slices_S2048x1024_o0_768_S2048x128 slices_S1024x1024_o0_768_S1024x128 v3 v5 v7 v9 v12)
  have a7 : FVec F S256x1024 .f32 := addf a6 (packBlk 896 slices_S256x1024_o0_896_S256x128 slices_S2048x1024_o0_896_S2048x128 slices_S1024x1024_o0_896_S1024x128 v3 v5 v7 v9 v12)
  a7

/-- The body's stored block, restated: the loaded blocks read as 2-D arrays, the mask, the eight pairs, and the block's leading unit axis put back. -/
def attnBlk (v1 : Elt F .i32) (v2 : Vec F S1x256x1024 .bf16) (v4 v6 : Vec F S1x2048x1024 .bf16) (v8 : Vec F S1024x1024 .bf16) :
    FVec F S1x256x1024 .f32 :=
  have v3 : FVec F S256x1024 .bf16 := shapeCast S256x1024 v2 shapeCasts_S1x256x1024_S256x1024
  have v5 : FVec F S2048x1024 .bf16 := shapeCast S2048x1024 v4 shapeCasts_S1x2048x1024_S2048x1024
  have v7 : FVec F S2048x1024 .bf16 := shapeCast S2048x1024 v6 shapeCasts_S1x2048x1024_S2048x1024
  have v9 : FVec F S1024x1024 .bf16 := shapeCast S1024x1024 v8 shapeCasts_S1024x1024_S1024x1024
  shapeCast S1x256x1024 (accBlk v3 v5 v7 v9 (maskBlk v1)) shapeCasts_S256x1024_S1x256x1024

end Cert.Kernel.AttnDef

end
-- ==== Proof.K.Attn.lean ====
/-
  Region 3 of @main: the attention kernel's pipeline (grid 4 batches × 8 query blocks) with the
  valid-length table prefetched into scalar memory, at the buffer contents `V` the region is entered from.

  At a point (b, qi) the body reads the table's word b, loads the query block (256 rows of batch b),
  the whole keys and values of batch b and the whole output weight, and stores one 256 × 1024 result
  block: the composed payload `AttnDef.pay` of the word and the four loaded blocks.  The table is
  held whole by the region's invariant (the body only reads it); the other four windows are inputs,
  the fifth is written back at every point.
-/
import proofs.«413729_j14688788152931_2_alg».proof.Proof.Gen.Kernel.Launch
import proofs.«413729_j14688788152931_2_alg».proof.Proof.Gen.Kernel.Skeleton
import proofs.«413729_j14688788152931_2_alg».proof.Proof.K.AttnDef
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen Cert.Kernel.AttnDef
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The table -/

/-- The table's contents when the region is entered (one device: device 0's), and the same on every device. -/
def tbl : pre3.Contents (Elt F) := fun j => V (0 : Dev nD) (pre3.ref j)
theorem V_pre (c : Dev nD) (j : Fin 1) : V c (pre3.ref j) = tbl V j := by
  obtain rfl : c = 0 := Subsingleton.elim _ _; rfl
/-- The contents as admissible contents (the side condition is empty: no index map reads the table), and the pipeline at them. -/
abbrev adm : (pcfg3 (F := F)).Adm := ⟨tbl V, trivial⟩
abbrev cfgM : Pipeline.Cfg sig Λ₀ := cfg3 (adm V)

/-- The table as the body is handed it, its buffer's contents type on core `c`, and the buffer held whole at `f`. -/
abbrev tbM : Memref sig .tc .smem S4 .i32 := Memref.whole main_arg7
abbrev htbM : (tbM).IsWhole := Memref.isWhole_whole _
abbrev TbBuf (c : Dev nD) : Type := Buf (Elt F) (tbM.view.loc (c : Thread nD τ))
abbrev tbPt (c : Dev nD) (f : TbBuf (F := F) c) : sProp 𝕄 :=
  tbM.view.loc (c : Thread nD τ) ↦{fullShare} f

/-- The tables held whole are the one table's buffer. -/
theorem prefHeld_eq (c : Dev nD) (v : pre3.Contents (Elt F)) :
    (Pipeline.prefHeld (Ix := Unit) (Name := ℕ) (U := UR sig nD τ) (Lvl := ℕ) pre3 c (fun _ => fullShare) v : sProp 𝕄) = tbPt c (v 0) := by
  unfold Pipeline.prefHeld
  rw [show (Finset.univ : Finset (Fin 1)) = {(0 : Fin 1)} from by decide, bigSep_singleton]
  rfl

/-- The word of the table the body reads at grid coordinates `i`: the one at the batch coordinate. -/
def word (c : Dev nD) (i : grid3.Coords) (xt : TbBuf (F := F) c) : Elt F .i32 :=
  tbM.view.readAt (Elt F) (Rect.unit (s := S4) (k3_off1 i) S1.size (k3_off1_inb i)).toLoadRect xt (Shape.Idx.first (numel1_S1.symm ▸ Nat.one_pos))

/-! ## The windows' blocks -/

/-- Window `w`'s block at point `t`, read off its array as the region finds it. -/
def iblk (c : Dev nD) (w : Fin (cfgM V).W) (t : Fin (cfgM V).N) : (((cfgM V).win w).xblock ((cfgM V).grid.coords t)).Idx → Elt F ((cfgM V).win w).elt :=
  (((cfgM V).win w).blk t).view.read (Elt F) (V c (Pipeline.arrRef spec3 w))

/-- An input window's current staging buffer holds its block at every point, fetched there or not. -/
theorem before_0_of {c : Dev nD} (dat : Dat τ (Elt F) Unit ℕ (UR sig nD τ) ℕ (cfgM V) c) (hA : dat.A 0 = V c (Pipeline.arrRef spec3 0))
    (hafter : ∀ t, dat.after 0 t = iblk V c 0 t) (t : Fin (cfgM V).N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfgM V) c) (hA : dat.A 1 = V c (Pipeline.arrRef spec3 1))
    (hafter : ∀ t, dat.after 1 t = iblk V c 1 t) (t : Fin (cfgM V).N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfgM V) c) (hA : dat.A 2 = V c (Pipeline.arrRef spec3 2))
    (hafter : ∀ t, dat.after 2 t = iblk V c 2 t) (t : Fin (cfgM V).N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfgM V) c) (hA : dat.A 3 = V c (Pipeline.arrRef spec3 3))
    (hafter : ∀ t, dat.after 3 t = iblk V c 3 t) (t : Fin (cfgM V).N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The body's whole-buffer rectangles. -/
abbrev rQ : Rect S1x256x1024 := Rect.unit (s := S1x256x1024) ![0, 0, 0] S1x256x1024.size inb_S1x256x1024_S1x256x1024_0_0_0
abbrev rK : Rect S1x2048x1024 := Rect.unit (s := S1x2048x1024) ![0, 0, 0] S1x2048x1024.size inb_S1x2048x1024_S1x2048x1024_0_0_0
abbrev rW : Rect S1024x1024 := Rect.unit (s := S1024x1024) ![0, 0] S1024x1024.size inb_S1024x1024_S1024x1024_0_0

/-- The result window's staging buffer after the body: its one store, of the composed payload of the word and the four loads. -/
def out4 (c : Dev nD) (i : grid3.Coords) (xt : TbBuf (F := F) c) (x0 : Vec F S1x256x1024 .bf16) (x1 x2 : Vec F S1x2048x1024 .bf16)
    (x3 : Vec F S1024x1024 .bf16) : Vec F S1x256x1024 .f32 :=
  View.canon [⟨rQ, pay (word c i xt) (View.ld x0 rQ) (View.ld x1 rK) (View.ld x2 rK) (View.ld x3 rW)⟩]

theorem cover4 (p0 : Vec F S1x256x1024 .f32) (y : S1x256x1024.Idx) :
    ∃ pc ∈ ([⟨rQ, p0⟩] : List (View.Piece (Elt F) S1x256x1024 .f32)), y ∈ pc.1.set :=
  View.cover_of_tiled [⟨rQ, p0⟩] S1x256x1024.size (by rfl) y

set_option maxHeartbeats 4000000 in
/-- The body on whole staging memrefs, the four inputs at their contents, the result's at anything, the table held at `xt`,
    runs to the continuation with the inputs and the table as they were and the result's at `out4`. -/
theorem sound_kernel (c : Dev nD) (E : Set ℕ) (i : grid3.Coords)
    (arg3 : Memref sig .tc .vmem S1x256x1024 .bf16) (harg3 : arg3.IsWhole) (arg4 : Memref sig .tc .vmem S1x2048x1024 .bf16) (harg4 : arg4.IsWhole)
    (arg5 : Memref sig .tc .vmem S1x2048x1024 .bf16) (harg5 : arg5.IsWhole) (arg6 : Memref sig .tc .vmem S1024x1024 .bf16) (harg6 : arg6.IsWhole)
    (arg7 : Memref sig .tc .vmem S1x256x1024 .f32) (harg7 : arg7.IsWhole)
    (x0 : Vec F S1x256x1024 .bf16) (x1 x2 : Vec F S1x2048x1024 .bf16) (x3 : Vec F S1024x1024 .bf16) (xt : TbBuf (F := F) c)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ tbPt c xt
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out4 c i xt x0 x1 x2 x3) ∗ tbPt c xt) -∗ K ⟨⟩))
      ⊢ wp frame (wpE (defs₀ (F := F)) Variants.none c none) E
          (cc3__attn_wo_kernel i tbM htbM arg3 harg3 arg4 harg4 arg5 harg5 arg6 harg6 arg7 harg7) K := by
  simp only [cc3__attn_wo_kernel_eq_skeleton]; unfold cc3__attn_wo_kernel_skel
  simp only [k3_part1_eq_skeleton, k3_part2_eq_skeleton, k3_part3_eq_skeleton, k3_part4_eq_skeleton, k3_part5_eq_skeleton,
    k3_part6_eq_skeleton, k3_part7_eq_skeleton, k3_part8_eq_skeleton]
  unfold owns
  iintro ⟨⟨%f0, %hf0, H0⟩, ⟨%f1, %hf1, H1⟩, ⟨%f2, %hf2, H2⟩, ⟨%f3, %hf3, H3⟩, ⟨%d4, %f4, -, H4⟩, HT, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 _)
  iexact HT

/-! ## The pipeline's proof data -/

/-- The proof data on core `c`: the arrays as the region finds them; after the body each input's buffer at its block, the
    result's at `out4` of the table and the four input blocks; the invariant is the scoped rest, the generator
    register and the table held whole; nothing owed; full shares. -/
def dat (c : Dev nD) : Dat τ (Elt F) Unit ℕ (UR sig nD τ) ℕ (cfgM V) c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 c (grid3.coords t) (tbl V 0) (iblk V c 0 t) (iblk V c 1 t) (iblk V c 2 t) (iblk V c 3 t)
  Φ _ := iprop(Pipeline.ΦA spec3 c ∗ tbPt c (tbl V 0))
  q _ := fullShare
  owed _ := 0

theorem A_eq (c : Dev nD) (w : Fin (cfgM V).W) : (dat V c).A w = V c (Pipeline.arrRef spec3 w) := by
  dsimp only [dat]

theorem after_0 (c : Dev nD) (t : Fin (cfgM V).N) : (dat V c).after 0 t = iblk V c 0 t := by dsimp only [dat]; try rfl
theorem after_1 (c : Dev nD) (t : Fin (cfgM V).N) : (dat V c).after 1 t = iblk V c 1 t := by dsimp only [dat]; try rfl
theorem after_2 (c : Dev nD) (t : Fin (cfgM V).N) : (dat V c).after 2 t = iblk V c 2 t := by dsimp only [dat]; try rfl
theorem after_3 (c : Dev nD) (t : Fin (cfgM V).N) : (dat V c).after 3 t = iblk V c 3 t := by dsimp only [dat]; try rfl
theorem after_4 (c : Dev nD) (t : Fin (cfgM V).N) :
    (dat V c).after 4 t = out4 c (grid3.coords t) (tbl V 0) (iblk V c 0 t) (iblk V c 1 t) (iblk V c 2 t) (iblk V c 3 t) := by
  dsimp only [dat]; try rfl

theorem before_0 (c : Dev nD) (t : Fin (cfgM V).N) (d) : (dat V c).before 0 t d = iblk V c 0 t :=
  before_0_of V (dat V c) (A_eq V c 0) (after_0 V c) t d
theorem before_1 (c : Dev nD) (t : Fin (cfgM V).N) (d) : (dat V c).before 1 t d = iblk V c 1 t :=
  before_1_of V (dat V c) (A_eq V c 1) (after_1 V c) t d
theorem before_2 (c : Dev nD) (t : Fin (cfgM V).N) (d) : (dat V c).before 2 t d = iblk V c 2 t :=
  before_2_of V (dat V c) (A_eq V c 2) (after_2 V c) t d
theorem before_3 (c : Dev nD) (t : Fin (cfgM V).N) (d) : (dat V c).before 3 t d = iblk V c 3 t :=
  before_3_of V (dat V c) (A_eq V c 3) (after_3 V c) t d

/-! ## The body obligation, at a generic point -/

/-- Each window's current staging memref at point `t`, spelled as the pipeline passes it, and the body as the pipeline calls it there. -/
abbrev ms0 (t : Fin (cfgM V).N) : Memref sig .tc .vmem S1x256x1024 .bf16 := spec3_0.stage ((cfgM V).slots t 0)
abbrev hs0 (t : Fin (cfgM V).N) : (ms0 V t).IsWhole := hstage3_0 (((cfgM V).slots t 0).cast nbuf3_0)
abbrev ms1 (t : Fin (cfgM V).N) : Memref sig .tc .vmem S1x2048x1024 .bf16 := spec3_1.stage ((cfgM V).slots t 1)
abbrev hs1 (t : Fin (cfgM V).N) : (ms1 V t).IsWhole := hstage3_1 (((cfgM V).slots t 1).cast nbuf3_1)
abbrev ms2 (t : Fin (cfgM V).N) : Memref sig .tc .vmem S1x2048x1024 .bf16 := spec3_2.stage ((cfgM V).slots t 2)
abbrev hs2 (t : Fin (cfgM V).N) : (ms2 V t).IsWhole := hstage3_2 (((cfgM V).slots t 2).cast nbuf3_2)
abbrev ms3 (t : Fin (cfgM V).N) : Memref sig .tc .vmem S1024x1024 .bf16 := spec3_3.stage ((cfgM V).slots t 3)
abbrev hs3 (t : Fin (cfgM V).N) : (ms3 V t).IsWhole := hstage3_3 (((cfgM V).slots t 3).cast nbuf3_3)
abbrev ms4 (t : Fin (cfgM V).N) : Memref sig .tc .vmem S1x256x1024 .f32 := spec3_4.stage ((cfgM V).slots t 4)
abbrev hs4 (t : Fin (cfgM V).N) : (ms4 V t).IsWhole := hstage3_4 (((cfgM V).slots t 4).cast nbuf3_4)
abbrev bodyAt (t : Fin (cfgM V).N) : Prog (TpuEff nD τ sig (Elt F) Λ₀ .tc) PUnit :=
  cc3__attn_wo_kernel (grid3.coords t) (Memref.whole main_arg7) (Memref.isWhole_whole _) (ms0 V t) (hs0 V t) (ms1 V t) (hs1 V t)
    (ms2 V t) (hs2 V t) (ms3 V t) (hs3 V t) (ms4 V t) (hs4 V t)

def bodyPre (c : Dev nD) (t : Fin (cfgM V).N) : sProp 𝕄 :=
  iprop((dat V c).Φ t.castSucc ∗ (dat V c).owesAt () t.castSucc
    ∗ (∃ d, owns (c : Thread nD τ) (ms0 V t) fullShare ((dat V c).before 0 t d))
    ∗ (∃ d, owns (c : Thread nD τ) (ms1 V t) fullShare ((dat V c).before 1 t d))
    ∗ (∃ d, owns (c : Thread nD τ) (ms2 V t) fullShare ((dat V c).before 2 t d))
    ∗ (∃ d, owns (c : Thread nD τ) (ms3 V t) fullShare ((dat V c).before 3 t d))
    ∗ (∃ d, owns (c : Thread nD τ) (ms4 V t) fullShare ((dat V c).before 4 t d)))
def bodyPost (c : Dev nD) (t : Fin (cfgM V).N) : sProp 𝕄 :=
  iprop((dat V c).Φ t.succ ∗ (dat V c).owesAt () t.succ
    ∗ owns (c : Thread nD τ) (ms0 V t) fullShare ((dat V c).after 0 t)
    ∗ owns (c : Thread nD τ) (ms1 V t) fullShare ((dat V c).after 1 t)
    ∗ owns (c : Thread nD τ) (ms2 V t) fullShare ((dat V c).after 2 t)
    ∗ owns (c : Thread nD τ) (ms3 V t) fullShare ((dat V c).after 3 t)
    ∗ owns (c : Thread nD τ) (ms4 V t) fullShare ((dat V c).after 4 t))

/-- The body at any point: the inputs' memrefs hold their blocks and the invariant holds the table, so `sound_kernel` applies;
    the rest of the invariant and the core's `owes` pass through unread. -/
theorem sound_body (c : Dev nD) (t : Fin (cfgM V).N) :
    bodyPre V c t ⊢ wp frame (wpE (defs₀ (F := F)) Variants.none c none) Set.univ (bodyAt V t) (fun _ => bodyPost V c t) := by
  unfold bodyPre bodyPost bodyAt
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  rw [show (dat V c).Φ t.castSucc = iprop(Pipeline.ΦA spec3 c ∗ tbPt c (tbl V 0)) from rfl]
  iintro ⟨⟨HΦ, HT⟩, Ho, ⟨%d0, H0⟩, ⟨%d1, H1⟩, ⟨%d2, H2⟩, ⟨%d3, H3⟩, ⟨%d4, H4⟩⟩
  iapply (sound_kernel c Set.univ (grid3.coords t) _ _ _ _ _ _ _ _ _ _ (iblk V c 0 t) (iblk V c 1 t) (iblk V c 2 t) (iblk V c 3 t) (tbl V 0) _)
  isplitl [H0]; · iexact H0
  isplitl [H1]; · iexact H1
  isplitl [H2]; · iexact H2
  isplitl [H3]; · iexact H3
  isplitl [H4]; · iexists _; iexact H4
  isplitl [HT]; · iexact HT
  iintro ⟨H0, H1, H2, H3, H4, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W3, bigSep_W3]
  exact sound_body V c t

end Cert.Kernel.Attn

end
-- ==== Proof.K.Run.lean ====
/-
  The launch of @main as eight segments — four stretches of host operations and four kernel regions — and
  what the run leaves in memory.

  The buffer contents at each boundary are a fold from the launch memory: a host stretch replaces the
  contents by those after its operations; a region replaces each of its windows' arrays by what its
  pipeline leaves there (an input as entered, the result with every grid point's write-back folded in) and
  leaves every other buffer alone.  Each region is entered with every unscoped buffer at the boundary's
  contents beside the generator register at some state and nothing owed, and is left the same way at the
  next boundary's contents.  The last region also prefetches the valid-length table: the table's buffer is
  taken out of the buffers that bypass the region, held by the region's invariant while it runs, and put
  back unchanged at the exit.

  Read against a final state, the last boundary's contents give: the result buffer holds what the last
  region's write-backs leave, and every argument holds what it held at launch (no host operation writes an
  argument and no region has one as a window's array).
-/
import proofs.«413729_j14688788152931_2_alg».proof.Proof.K.Lin0
import proofs.«413729_j14688788152931_2_alg».proof.Proof.K.Lin1
import proofs.«413729_j14688788152931_2_alg».proof.Proof.K.Lin2
import proofs.«413729_j14688788152931_2_alg».proof.Proof.K.Attn
import proofs.«413729_j14688788152931_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After `hostOps0`: what region 0 is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit: its windows' arrays at what the pipeline leaves (an input as entered, the result with every
    point's write-back folded in), every other buffer as entered. -/
def W2 (c : Dev nD) : Valuation τ sig (Elt F) :=
  Pipeline.withArrays spec0 c (W1 m ρ c) fun w => (Lin0.dat (V1 m ρ) c).arrAt w cfg0.N
theorem W2_arr (c : Dev nD) (w : Fin cfg0.W) :
    W2 m ρ c (Proc.devRef .tc (Pipeline.arrRef spec0 w)) = (Lin0.dat (V1 m ρ) c).arrAt w cfg0.N := by
  unfold W2; exact Pipeline.withArrays_arr spec0 winFacts0.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (Lin0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`: what region 1 is entered from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At region 1's exit: its windows' arrays at what the pipeline leaves (an input as entered, the result with every
    point's write-back folded in), every other buffer as entered. -/
def W4 (c : Dev nD) : Valuation τ sig (Elt F) :=
  Pipeline.withArrays spec1 c (W3 m ρ c) fun w => (Lin1.dat (V3 m ρ) c).arrAt w cfg1.N
theorem W4_arr (c : Dev nD) (w : Fin cfg1.W) :
    W4 m ρ c (Proc.devRef .tc (Pipeline.arrRef spec1 w)) = (Lin1.dat (V3 m ρ) c).arrAt w cfg1.N := by
  unfold W4; exact Pipeline.withArrays_arr spec1 winFacts1.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (Lin1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`: what region 2 is entered from. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- At region 2's exit: its windows' arrays at what the pipeline leaves (an input as entered, the result with every
    point's write-back folded in), every other buffer as entered. -/
def W6 (c : Dev nD) : Valuation τ sig (Elt F) :=
  Pipeline.withArrays spec2 c (W5 m ρ c) fun w => (Lin2.dat (V5 m ρ) c).arrAt w cfg2.N
theorem W6_arr (c : Dev nD) (w : Fin cfg2.W) :
    W6 m ρ c (Proc.devRef .tc (Pipeline.arrRef spec2 w)) = (Lin2.dat (V5 m ρ) c).arrAt w cfg2.N := by
  unfold W6; exact Pipeline.withArrays_arr spec2 winFacts2.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
theorem hF2 (c : Dev nD) (w : Fin cfg2.W) : (Lin2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`: what region 3 is entered from. -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- At region 3's exit: its windows' arrays at what the pipeline leaves, every other buffer as entered. -/
def W8 (c : Dev nD) : Valuation τ sig (Elt F) :=
  Pipeline.withArrays spec3 c (W7 m ρ c) fun w => (Attn.dat (V7 m ρ) c).arrAt w (Attn.cfgM (V7 m ρ)).N
theorem W8_arr (c : Dev nD) (w : Fin (Attn.cfgM (V7 m ρ)).W) :
    W8 m ρ c (Proc.devRef .tc (Pipeline.arrRef spec3 w)) = (Attn.dat (V7 m ρ) c).arrAt w (Attn.cfgM (V7 m ρ)).N := by
  unfold W8; exact Pipeline.withArrays_arr spec3 winFacts3.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references. -/
abbrev V8 : (c : Dev nD) → (b : Ref sig .tc) → Buf (Elt F) ((c : Thread nD τ).loc b) := fun c b => W8 m ρ c b
theorem hF3 (c : Dev nD) (w : Fin (Attn.cfgM (V7 m ρ)).W) :
    (Attn.dat (V7 m ρ) c).arrAt w (Attn.cfgM (V7 m ρ)).N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- What region 3's write-backs leave in the result buffer. -/
def res (c : Dev nD) := (Attn.dat (V7 m ρ) c).arrAt 4 (Attn.cfgM (V7 m ρ)).N

/-- The last boundary's contents at the result buffer: window 4's array. -/
theorem W8_res (c : Dev nD) : W8 m ρ c (Proc.devRef .tc main_v13) = res m ρ c := W8_arr m ρ c 4

/-! ## The arguments end as launched -/

/-- A buffer that no host operation writes and that is no window's array of any region holds at the last
    boundary what it held at launch. -/
theorem W8_bypass (c : Dev nD) (b : Ref sig .tc)
    (h0 : b ∉ hostOps0_W) (a0 : ∀ w, Pipeline.arrRef spec0 w ≠ b)
    (h1 : b ∉ hostOps1_W) (a1 : ∀ w, Pipeline.arrRef spec1 w ≠ b)
    (h2 : b ∉ hostOps2_W) (a2 : ∀ w, Pipeline.arrRef spec2 w ≠ b)
    (h3 : b ∉ hostOps3_W) (a3 : ∀ w, Pipeline.arrRef spec3 w ≠ b) :
    W8 m ρ c (Proc.devRef .tc b) = m ((c : Thread nD τ).loc b) :=
  calc W8 m ρ c (Proc.devRef .tc b)
    _ = W7 m ρ c (Proc.devRef .tc b) := W8_of_ne m ρ c b a3
    _ = W6 m ρ c (Proc.devRef .tc b) := StableHlo.after_of_writes_sub hostOps3 _ hostOps3_writes h3
    _ = W5 m ρ c (Proc.devRef .tc b) := W6_of_ne m ρ c b a2
    _ = W4 m ρ c (Proc.devRef .tc b) := StableHlo.after_of_writes_sub hostOps2 _ hostOps2_writes h2
    _ = W3 m ρ c (Proc.devRef .tc b) := W4_of_ne m ρ c b a1
    _ = W2 m ρ c (Proc.devRef .tc b) := StableHlo.after_of_writes_sub hostOps1 _ hostOps1_writes h1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl
theorem W8_main_arg0 (c : Dev nD) : W8 m ρ c (Proc.devRef .tc main_arg0) = m ((c : Thread nD τ).loc main_arg0) :=
  W8_bypass m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_bypass m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_bypass m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_bypass m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_bypass m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_bypass m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_bypass m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_bypass m ρ c main_arg7 (by decide) (by decide) (by decide) (by decide) (by decide) (by decide) (by decide) (by decide)

/-! ## The proof data family and the thread state -/

/-- The prefetched tables' admissible contents: the three linear regions have no table; the last region's table is
    what its buffer holds when that region is entered. -/
abbrev adm : (p : Fin 4) → (pcfgs (F := F) p).Adm
  | ⟨0, _⟩ => cfg0.toPCfg_adm
  | ⟨1, _⟩ => cfg1.toPCfg_adm
  | ⟨2, _⟩ => cfg2.toPCfg_adm
  | ⟨3, _⟩ => Attn.adm (V7 m ρ)
  | ⟨_ + 4, h⟩ => absurd h (Nat.not_lt.2 (Nat.le_add_left _ _))
/-- Every pipeline's proof data, each at its region's entry contents. -/
def pdats : (p : Fin 4) → (c : Dev nD) → Dat τ (Elt F) Unit ℕ (UR sig nD τ) ℕ (Pipeline.pin (pcfgs (F := F)) (adm m ρ) p) c
  | ⟨0, _⟩ => fun c => Lin0.dat (V1 m ρ) c
  | ⟨1, _⟩ => fun c => Lin1.dat (V3 m ρ) c
  | ⟨2, _⟩ => fun c => Lin2.dat (V5 m ρ) c
  | ⟨3, _⟩ => fun c => Attn.dat (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 (a linear projection) over the thread state: entered with every unscoped buffer at `W1`, left with
    them at `W2`.  Its windows' arrays are split out of the unscoped buffers and put back at their exit contents; the
    generator register goes into the region's invariant and comes back; nothing is owed. -/
def reg0 : Pipeline.RegionSeg (pcfgs (F := F)) (adm m ρ) (pdats m ρ) () defs₀ 𝒱₀ L lv 0 where
  win := winFacts0.to₀
  block_pos := block_pos0
  stage_whole := stage_whole0
  K := PEmpty
  osem k := k.elim
  ho := Pipeline.OwnSemFacts.none _
  hbody c := (Lin0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) (adm m ρ) (pdats m ρ) winFacts0 arr_whole0 c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m ρ) (Ix := Unit) (Name := ℕ) (U := UR sig nD τ) (Lvl := ℕ)
      winFacts0 arr_whole0 c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (a linear projection) over the thread state: entered with every unscoped buffer at `W3`, left with
    them at `W4`.  Its windows' arrays are split out of the unscoped buffers and put back at their exit contents; the
    generator register goes into the region's invariant and comes back; nothing is owed. -/
def reg1 : Pipeline.RegionSeg (pcfgs (F := F)) (adm m ρ) (pdats m ρ) () defs₀ 𝒱₀ L lv 1 where
  win := winFacts1.to₀
  block_pos := block_pos1
  stage_whole := stage_whole1
  K := PEmpty
  osem k := k.elim
  ho := Pipeline.OwnSemFacts.none _
  hbody c := (Lin1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) (adm m ρ) (pdats m ρ) winFacts1 arr_whole1 c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ) (Ix := Unit) (Name := ℕ) (U := UR sig nD τ) (Lvl := ℕ)
      winFacts1 arr_whole1 c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (a linear projection) over the thread state: entered with every unscoped buffer at `W5`, left with
    them at `W6`.  Its windows' arrays are split out of the unscoped buffers and put back at their exit contents; the
    generator register goes into the region's invariant and comes back; nothing is owed. -/
def reg2 : Pipeline.RegionSeg (pcfgs (F := F)) (adm m ρ) (pdats m ρ) () defs₀ 𝒱₀ L lv 2 where
  win := winFacts2.to₀
  block_pos := block_pos2
  stage_whole := stage_whole2
  K := PEmpty
  osem k := k.elim
  ho := Pipeline.OwnSemFacts.none _
  hbody c := (Lin2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) (adm m ρ) (pdats m ρ) winFacts2 arr_whole2 c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m ρ) (Ix := Unit) (Name := ℕ) (U := UR sig nD τ) (Lvl := ℕ)
      winFacts2 arr_whole2 c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The table's words read off region 3's entry contents on core `c` are the table the region's proof data name. -/
theorem tbl_eq (c : Dev nD) : (fun k => V7 m ρ c (pre3.ref k)) = Attn.tbl (V7 m ρ) := funext (Attn.V_pre (V7 m ρ) c)

set_option backward.isDefEq.respectTransparency.types false in
/-- Region 3 (attention and output projection) over the thread state: entered with every unscoped buffer at `W7`,
    left with them at `W8`.  Besides the windows' arrays, the table's buffer is split out of the unscoped buffers: it is
    held by the region's invariant and handed back at the exit, where it rejoins the buffers that bypassed the region. -/
def reg3 : Pipeline.RegionSeg (pcfgs (F := F)) (adm m ρ) (pdats m ρ) () defs₀ 𝒱₀ L lv 3 where
  win := winFacts3.to₀
  block_pos := block_pos3
  stage_whole := stage_whole3
  K := PEmpty
  osem k := k.elim
  ho := Pipeline.OwnSemFacts.none _
  hbody c := (Attn.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre3 c (fun _ => fullShare) (Attn.tbl (V7 m ρ)))
  Z c := Pipeline.unscopedRestP (Ix := Unit) (Name := ℕ) (U := UR sig nD τ) (Lvl := ℕ) pre3 spec3 c (V7 m ρ c)
  hentry c := by
    rw [Pipeline.ownSems0_none]
    have hsplit : (unscopedBufs c (V7 m ρ c) : sProp 𝕄)
        ⊢ iprop((pdats m ρ 3 c).arrays ((pdats m ρ 3 c).arrAt · 0)
            ∗ Pipeline.unscopedRest (Ix := Unit) (Name := ℕ) (U := UR sig nD τ) (Lvl := ℕ) spec3 c (V7 m ρ c)) :=
      Pipeline.arrays_of_unscopedBufs (p := 3) (pcfgs (F := F)) (adm m ρ) (pdats m ρ) winFacts3 arr_whole3 c
        ((pdats m ρ 3 c).share_full fun _ => rfl) (V7 m ρ c) fun _ => rfl
    rw [Pipeline.unscopedBufs_held, Pipeline.unscopedRest_split preFacts3 c (V7 m ρ c), tbl_eq m ρ c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = iprop(Pipeline.ΦA spec3 c ∗ Attn.tbPt c (Attn.tbl (V7 m ρ) 0)) from rfl,
      ← Attn.prefHeld_eq c (Attn.tbl (V7 m ρ))]; unfold Pipeline.ΦA
    iintro ⟨Hp, Ht, Hr⟩
    isplitl [Hr Hp]
    · isplitl [Hr]; · iexact Hr
      iexact Hp
    iexact Ht
  hout c := by
    rw [Pipeline.ownSems0_none, show (pdats m ρ 3 c).Φ (Fin.last _) = iprop(Pipeline.ΦA spec3 c ∗ Attn.tbPt c (Attn.tbl (V7 m ρ) 0)) from rfl,
      ← Attn.prefHeld_eq c (Attn.tbl (V7 m ρ))]; unfold Pipeline.ΦA
    iintro ⟨⟨Hr, Hp⟩, Ht⟩
    isplitl [Hp Ht]
    · isplitl [Hp]; · iexact Hp
      iexact Ht
    isplitr; · iempintro
    iexact Hr
  hexit c := by
    have hjoin : iprop((pdats m ρ 3 c).arrays ((pdats m ρ 3 c).arrAt · (Attn.cfgM (V7 m ρ)).N)
          ∗ Pipeline.unscopedRest (Ix := Unit) (Name := ℕ) (U := UR sig nD τ) (Lvl := ℕ) spec3 c (V7 m ρ c))
        ⊢ (unscopedBufs c (V8 m ρ c) : sProp 𝕄) :=
      Pipeline.unscopedBufs_of_arrays (p := 3) (pcfgs (F := F)) (adm m ρ) (Ix := Unit) (Name := ℕ) (U := UR sig nD τ) (Lvl := ℕ)
        winFacts3 arr_whole3 c (pdats m ρ) ((pdats m ρ 3 c).share_full fun _ => rfl)
        (V7 m ρ c) (V8 m ρ c) ((pdats m ρ 3 c).arrAt · (Attn.cfgM (V7 m ρ)).N) (hF3 m ρ c) (hrest3 m ρ c)
    rw [Pipeline.unscopedBufs_held, Pipeline.unscopedRest_split preFacts3 c (V7 m ρ c), tbl_eq m ρ c] at hjoin
    iintro ⟨Ha, HO, ⟨Hp, Ht⟩, Hrest⟩
    imodintro
    isplitl [Ha Hrest Hp Ht]
    · isplitl [Ha Hrest Ht]
      · iapply hjoin
        isplitl [Ha]; · iexact Ha
        isplitl [Ht]; · iexact Ht
        iexact Hrest
      iexact Hp
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) (adm m ρ) (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCores terminates without a
    fault, and in every final state the result buffer holds the last boundary's contents and every argument holds what
    it held at launch. -/
theorem run_main : θ_run defs (onTc (τ := τ) (main (F := F))) ⟨m, fun _ => 0, ρ⟩ (fun r => ∀ c : Dev nD,
      r.2.mem ((c.tc : Thread nD τ).loc main_v13) = W8 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v13 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

/-- info: 'Cert.Kernel.Run.run_main' depends on axioms: [propext, Classical.choice, Quot.sound] -/
#guard_msgs in #print axioms run_main

end Cert.Kernel.Run

end
-- ==== Proof.KI.Lin0.lean ====
/-
  Region 0 of @main: the linear-projection kernel's pipeline (grid of 4 row blocks), at the buffer
  contents `V` the region is entered from.

  The body loads the 2048 × 1024 row block of the activations and the whole weight, and stores
  the block of their product (the weight transposed); the value stored is the generated payload of
  the two loads.  Window 0 (activations) moves with the point, window 1 (weight) is fetched once and
  stays, window 2 (result) is written back at every point.
-/
import proofs.«413729_j14688788152931_2_alg».proof.Proof.Gen.KernelIdeal.Launch
import proofs.«413729_j14688788152931_2_alg».proof.Proof.Gen.KernelIdeal.Skeleton
import proofs.«413729_j14688788152931_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's two whole-buffer rectangles. -/
abbrev rA : Rect S2048x1024 := Rect.unit (s := S2048x1024) ![0, 0] S2048x1024.size inb_S2048x1024_S2048x1024_0_0
abbrev rW : Rect S1024x1024 := Rect.unit (s := S1024x1024) ![0, 0] S1024x1024.size inb_S1024x1024_S1024x1024_0_0

/-- The result window's staging buffer after the body: its one store, of the payload of the two loads. -/
def out2 (x0 : Vec F S2048x1024 .f32) (x1 : Vec F S1024x1024 .bf16) : Vec F S2048x1024 .bf16 :=
  View.canon [⟨rA, k0_pay1 (View.ld x0 rA) (View.ld x1 rW)⟩]

/-- The one store covers the buffer. -/
theorem cover2 (p0 : Vec F S2048x1024 .bf16) (y : S2048x1024.Idx) :
    ∃ pc ∈ ([⟨rA, p0⟩] : List (View.Piece (Elt F) S2048x1024 .bf16)), y ∈ pc.1.set :=
  View.cover_of_tiled [⟨rA, p0⟩] S2048x1024.size (by rfl) y

set_option maxHeartbeats 1000000 in
/-- The body on whole staging memrefs, the inputs at contents `x0`, `x1` and the result's at anything, runs to the
    continuation with the inputs as they were and the result's at `out2 x0 x1`. -/
theorem sound_kernel (c : Dev nD) (E : Set ℕ) (i : grid0.Coords)
    (arg1 : Memref sig .tc .vmem S2048x1024 .f32) (harg1 : arg1.IsWhole) (arg2 : Memref sig .tc .vmem S1024x1024 .bf16) (harg2 : arg2.IsWhole)
    (arg3 : Memref sig .tc .vmem S2048x1024 .bf16) (harg3 : arg3.IsWhole)
    (x0 : Vec F S2048x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The pipeline's proof data on core `c`: the arrays as the region finds them; after the body each input's buffer at
    its block, the result's at `out2` of the two input blocks; the invariant is the scoped rest and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point `t`, the windows one by one, and what it returns. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Lin0

end
-- ==== Proof.KI.Lin1.lean ====
/-
  Region 1 of @main: the linear-projection kernel's pipeline (grid of 4 row blocks), at the buffer
  contents `V` the region is entered from.

  The body loads the 2048 × 1024 row block of the activations and the whole weight, and stores
  the block of their product (the weight transposed); the value stored is the generated payload of
  the two loads.  Window 0 (activations) moves with the point, window 1 (weight) is fetched once and
  stays, window 2 (result) is written back at every point.
-/
import proofs.«413729_j14688788152931_2_alg».proof.Proof.Gen.KernelIdeal.Launch
import proofs.«413729_j14688788152931_2_alg».proof.Proof.Gen.KernelIdeal.Skeleton
import proofs.«413729_j14688788152931_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's two whole-buffer rectangles. -/
abbrev rA : Rect S2048x1024 := Rect.unit (s := S2048x1024) ![0, 0] S2048x1024.size inb_S2048x1024_S2048x1024_0_0
abbrev rW : Rect S1024x1024 := Rect.unit (s := S1024x1024) ![0, 0] S1024x1024.size inb_S1024x1024_S1024x1024_0_0

/-- The result window's staging buffer after the body: its one store, of the payload of the two loads. -/
def out2 (x0 : Vec F S2048x1024 .f32) (x1 : Vec F S1024x1024 .bf16) : Vec F S2048x1024 .bf16 :=
  View.canon [⟨rA, k1_pay1 (View.ld x0 rA) (View.ld x1 rW)⟩]

/-- The one store covers the buffer. -/
theorem cover2 (p0 : Vec F S2048x1024 .bf16) (y : S2048x1024.Idx) :
    ∃ pc ∈ ([⟨rA, p0⟩] : List (View.Piece (Elt F) S2048x1024 .bf16)), y ∈ pc.1.set :=
  View.cover_of_tiled [⟨rA, p0⟩] S2048x1024.size (by rfl) y

set_option maxHeartbeats 1000000 in
/-- The body on whole staging memrefs, the inputs at contents `x0`, `x1` and the result's at anything, runs to the
    continuation with the inputs as they were and the result's at `out2 x0 x1`. -/
theorem sound_kernel (c : Dev nD) (E : Set ℕ) (i : grid1.Coords)
    (arg1 : Memref sig .tc .vmem S2048x1024 .f32) (harg1 : arg1.IsWhole) (arg2 : Memref sig .tc .vmem S1024x1024 .bf16) (harg2 : arg2.IsWhole)
    (arg3 : Memref sig .tc .vmem S2048x1024 .bf16) (harg3 : arg3.IsWhole)
    (x0 : Vec F S2048x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The pipeline's proof data on core `c`: the arrays as the region finds them; after the body each input's buffer at
    its block, the result's at `out2` of the two input blocks; the invariant is the scoped rest and the generator
    register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out2 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = out2 (iblk V c 0 t) (iblk V c 1 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-- What the body is called with at point `t`, the windows one by one, and what it returns. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks, so `sound_kernel` applies; the invariant and the
    core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Lin1

end
-- ==== Proof.KI.Lin2.lean ====
/-
  Region 2 of @main: the linear-projection kernel's pipeline (grid of 4 row blocks), at the buffer
  contents `V` the region is entered from.

  The body loads the 2048 × 1024 row block of the activations and the whole weight, and stores
  the block of their product (the weight transposed); the value stored is the generated payload of
  the two loads.  Window 0 (activations) moves with the point, window 1 (weight) is fetched once and
  stays, window 2 (result) is written back at every point.
-/
import proofs.«413729_j14688788152931_2_alg».proof.Proof.Gen.KernelIdeal.Launch
import proofs.«413729_j14688788152931_2_alg».proof.Proof.Gen.KernelIdeal.Skeleton
import proofs.«413729_j14688788152931_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's two whole-buffer rectangles. -/
abbrev rA : Rect S2048x1024 := Rect.unit (s := S2048x1024) ![0, 0] S2048x1024.size inb_S2048x1024_S2048x1024_0_0
abbrev rW : Rect S1024x1024 := Rect.unit (s := S1024x1024) ![0, 0] S1024x1024.size inb_S1024x1024_S1024x1024_0_0

/-- The result window's staging buffer after the body: its one store, of the payload of the two loads. -/
def out2 (x0 : Vec F S2048x1024 .f32) (x1 : Vec F S1024x1024 .bf16) : Vec F S2048x1024 .bf16 :=
  View.canon [⟨rA, k2_pay1 (View.ld x0 rA) (View.ld x1 rW)⟩]

/-- The one store covers the buffer. -/
theorem cover2 (p0 : Vec F S2048x1024 .bf16) (y : S2048x1024.Idx) :
    ∃ pc ∈ ([⟨rA, p0⟩] : List (View.Piece (Elt F) S2048x1024 .bf16)), y ∈ pc.1.set :=
  View.cover_of_tiled [⟨rA, p0⟩] S2048x1024.size (by rfl) y

set_option maxHeartbeats 1000000 in
/-- The body on whole staging memrefs, the inputs at contents `x0`, `x1` and the result's at anything, runs to the
    continuation with the inputs as they were and the result's at `out2 x0 x1`. -/
theorem sound_kernel (c : Dev nD) (E : Set ℕ) (i : grid2.Coords)
    (arg1 : Memref sig .tc .vmem S2048x1024 .f32) (harg1 : arg1.IsWhole) (arg2 : Memref sig .tc .vmem S1024x1024 .bf16) (harg2 : arg2.IsWhole)
    (arg3 : Memref sig .tc .vmem S2048x1024 .bf16) (harg3 : arg3.IsWhole)
    (x0 : Vec F S2048x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The pipeline's proof data on core `c`: the arrays as the region finds them; after the body each input's buffer at
    its block, the result's at `out2` of the two input blocks; the invariant is the scoped rest and the generator
    register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out2 (iblk V c 0 t) (iblk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = out2 (iblk V c 0 t) (iblk V c 1 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-- What the body is called with at point `t`, the windows one by one, and what it returns. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' memrefs hold their blocks, so `sound_kernel` applies; the invariant and the
    core's `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Lin2

end
-- ==== Proof.KI.AttnDef.lean ====
/-
  The attention kernel's body as mathematics-shaped functions, for either instance.

  `pay` is what the body stores into its output block, as a function of the five things it loads
  (the batch's valid length word and the four input blocks): the generated payload names composed
  in the order the body computes them.

  `headBlk` is one head on a query block: the 256 × 2048 scores (query slice times transposed key
  slice, times 1/8, masked positions replaced by the large negative constant), the shifted softmax
  along a row, and the product with the value slice.  `packBlk` is one pair of neighbouring heads
  (128 feature columns from column `off`): the two head outputs side by side, times the matching
  128 columns of the output weight, transposed.  `attnBlk` adds the eight pairs' contributions,
  in order, onto a zero block.
-/
import proofs.«413729_j14688788152931_2_alg».proof.Proof.Gen.KernelIdeal.Skeleton

noncomputable section

namespace Cert.KernelIdeal.AttnDef

open Cert.KernelIdeal Cert.KernelIdeal.Gen
open Idealize.ShloMosaic Idealize.SL.Sem

variable {F : FTy → Type} [FloatOps F]

/-- What the body stores, from what it loads: the generated payloads composed. -/
def pay (v1 : Elt F .i32) (v2 : Vec F S1x256x1024 .bf16) (v4 v6 : Vec F S1x2048x1024 .bf16) (v8 : Vec F S1024x1024 .bf16) :
    FVec F S1x256x1024 .f32 :=
  have v3 := k3_pay2 v2
  have v5 := k3_pay3 v4
  have v7 := k3_pay4 v6
  have v9 := k3_pay5 v8
  have v12 := k3_pay6 (F := F) v1
  have v13 := k3_pay7 (F := F)
  have v36 := k3_pay11 v1 v2 v4 v6
  have v37 := k3_pay12 v2
  have v38 := k3_pay13 v4
  have v39 := k3_pay14 v6
  have v62 := k3_pay15 v9 v12 v13 v36 v37 v38 v39
  have v64 := k3_pay17 v5
  have v65 := k3_pay18 v7
  have v85 := k3_pay19 v3 v5 v7 v12
  have v86 := k3_pay20 v3
  have v111 := k3_pay21 v9 v12 v62 v64 v65 v85 v86
  have v112 := k3_pay22 v3
  have v113 := k3_pay23 v5
  have v114 := k3_pay24 v7
  have v117 := k3_pay25 v7
  have v133 := k3_pay26 v3 v5 v12
  have cst_41 : FVec F S256x64 .f32 := constant S256x64 .f32 0x00000000#32
  have v160 := k3_pay27 v9 v12 v111 v112 v113 v114 v117 v133 cst_41
  have v161 := k3_pay28 v3
  have v162 := k3_pay29 v5
  have v163 := k3_pay30 v7
  have v166 := k3_pay31 v7
  have v181 := k3_pay32 v3 v5 v12
  have v209 := k3_pay33 v9 v12 v160 v161 v162 v163 v166 v181
  have v210 := k3_pay34 v3
  have v211 := k3_pay35 v5
  have v212 := k3_pay36 v7
  have v215 := k3_pay37 v7
  have v226 := k3_pay38 v3 v5 v12
  have v228 := k3_pay39 v3 v5 v12
  have v258 := k3_pay40 v9 v12 v209 v210 v211 v212 v215 v226 v228
  have v259 := k3_pay41 v3
  have v260 := k3_pay42 v5
  have v261 := k3_pay43 v7
  have v264 := k3_pay44 v7
  have v275 := k3_pay45 v3 v5 v12
  have v307 := k3_pay46 v9 v12 v258 v259 v260 v261 v264 v275
  have v308 := k3_pay47 v3
  have v309 := k3_pay48 v5
  have v310 := k3_pay49 v7
  have v313 := k3_pay50 v7
  have v323 := k3_pay51 v3 v5 v12
  have v356 := k3_pay52 v9 v12 v307 v308 v309 v310 v313 v323
  have v357 := k3_pay53 v3
  have v358 := k3_pay54 v5
  have v359 := k3_pay55 v7
  have v362 := k3_pay56 v7
  have v368 := k3_pay57 v3 v5 v12
  have v370 := k3_pay58 v3 v5 v12
  k3_pay1 v9 v12 v356 v357 v358 v359 v362 v368 v370

/-- One head on a query block: scores, shifted softmax, times the value slice. -/
def headBlk (qs : FVec F S256x64 .bf16) (ks vs : FVec F S2048x64 .bf16) (v12 : IVec S256x2048 1) : FVec F S256x64 .f32 :=
  have kt : FVec F S64x2048 .bf16 := transpose S64x2048 [1, 0] ks transposes_S2048x64_p1_0_S64x2048
  have z0 : FVec F S256x2048 .f32 := constant S256x2048 .f32 0x00000000#32
  have qk : FVec F S256x2048 .f32 := matmul dot_S256x64_S64x2048_S256x2048_1_0_0_1_n_n none qs kt z0
  have c8 : F .f32 := Scalar.ofBits .f32 0x3E000000#32
  have b8 : FVec F S256x2048 .f32 := broadcast S256x2048 c8
  have sc : FVec F S256x2048 .f32 := mulf qk b8
  have cn : F .f32 := Scalar.ofBits .f32 0xCE6E6B28#32
  have bn : FVec F S256x2048 .f32 := broadcast S256x2048 cn
  have ms : FVec F S256x2048 .f32 := select v12 bn sc
  have mx : FVec F S256 .f32 := multiReduction .maximumf [1] S256 ms 0xFF800000#32 reduces_S256x2048_S256 (.inl rfl) rfl
  have mx1 : FVec F S256x1 .f32 := shapeCast S256x1 mx shapeCasts_S256_S256x1
  have mxb : FVec F S256x2048 .f32 := broadcastTo S256x2048 mx1 broadcasts_S256x1_S256x2048
  have sh : FVec F S256x2048 .f32 := subf ms mxb
  have ex : FVec F S256x2048 .f32 := exp sh
  have sm : FVec F S256 .f32 := multiReduction .add [1] S256 ex 0x00000000#32 reduces_S256x2048_S256 (.inl rfl) rfl
  have sm1 : FVec F S256x1 .f32 := shapeCast S256x1 sm shapeCasts_S256_S256x1
  have smb : FVec F S256x2048 .f32 := broadcastTo S256x2048 sm1 broadcasts_S256x1_S256x2048
  have pr : FVec F S256x2048 .f32 := divf ex smb
  have prb : FVec F S256x2048 .bf16 := truncf .bf16 pr bitsLt_bf16_f32
  have z1 : FVec F S256x64 .f32 := constant S256x64 .f32 0x00000000#32
  matmul dot_S256x2048_S2048x64_S256x64_1_0_0_1_n_n none prb vs z1

/-- One pair of neighbouring heads (the 128 feature columns from `off`) through the matching columns of the output weight. -/
def packBlk (off : Nat) (hq : S256x1024.Slices ![0, off] S256x128) (hk : S2048x1024.Slices ![0, off] S2048x128)
    (hw : S1024x1024.Slices ![0, off] S1024x128)
    (v3 : FVec F S256x1024 .bf16) (v5 v7 : FVec F S2048x1024 .bf16) (v9 : FVec F S1024x1024 .bf16) (v12 : IVec S256x2048 1) :
    FVec F S256x1024 .f32 :=
  have qp : FVec F S256x128 .bf16 := extractStridedSlice S256x128 ![0, off] v3 hq
  have kp : FVec F S2048x128 .bf16 := extractStridedSlice S2048x128 ![0, off] v5 hk
  have vp : FVec F S2048x128 .bf16 := extractStridedSlice S2048x128 ![0, off] v7 hk
  have o0 : FVec F S256x64 .f32 := headBlk
    (extractStridedSlice S256x64 ![0, 0] qp slices_S256x128_o0_0_S256x64)
    (extractStridedSlice S2048x64 ![0, 0] kp slices_S2048x128_o0_0_S2048x64)
    (extractStridedSlice S2048x64 ![0, 0] vp slices_S2048x128_o0_0_S2048x64) v12
  have o1 : FVec F S256x64 .f32 := headBlk
    (extractStridedSlice S256x64 ![0, 64] qp slices_S256x128_o0_64_S256x64)
    (extractStridedSlice S2048x64 ![0, 64] kp slices_S2048x128_o0_64_S2048x64)
    (extractStridedSlice S2048x64 ![0, 64] vp slices_S2048x128_o0_64_S2048x64) v12
  have cat : FVec F S256x128 .f32 := concatenate S256x128 1 [⟨S256x64, o0⟩, ⟨S256x64, o1⟩] concatenates_S256x64_S256x64_S256x128_d1
  have catb : FVec F S256x128 .bf16 := truncf .bf16 cat bitsLt_bf16_f32
  have ws : FVec F S1024x128 .bf16 := extractStridedSlice S1024x128 ![0, off] v9 hw
  have wt : FVec F S128x1024 .bf16 := transpose S128x1024 [1, 0] ws transposes_S1024x128_p1_0_S128x1024
  have z : FVec F S256x1024 .f32 := constant S256x1024 .f32 0x00000000#32
  matmul dot_S256x128_S128x1024_S256x1024_1_0_0_1_n_n none catb wt z

/-- The mask of a block: key position (lane coordinate) ≥ the valid length word, signed. -/
def maskBlk (v1 : Elt F .i32) : IVec S256x2048 1 :=
  have io : IVec S256x2048 32 := iota .tc S256x2048 32 [1] iota_S256x2048_d1_w32
  have bv : IVec S256x2048 32 := broadcast S256x2048 v1
  cmpi .sge io bv

/-- The eight pairs' contributions added in order onto a zero block, from the 2-D readings of the loaded blocks. -/
def accBlk (v3 : FVec F S256x1024 .bf16) (v5 v7 : FVec F S2048x1024 .bf16) (v9 : FVec F S1024x1024 .bf16) (v12 : IVec S256x2048 1) :
    FVec F S256x1024 .f32 :=
  have c0 : F .f32 := Scalar.ofBits .f32 0x00000000#32
  have a : FVec F S256x1024 .f32 := broadcast S256x1024 c0
  have a0 : FVec F S256x1024 .f32 := addf a (packBlk 0 slices_S256x1024_o0_0_S256x128 slices_S2048x1024_o0_0_S2048x128 slices_S1024x1024_o0_0_S1024x128 v3 v5 v7 v9 v12)
  have a1 : FVec F S256x1024 .f32 := addf a0 (packBlk 128 slices_S256x1024_o0_128_S256x128 slices_S2048x1024_o0_128_S2048x128 slices_S1024x1024_o0_128_S1024x128 v3 v5 v7 v9 v12)
  have a2 : FVec F S256x1024 .f32 := addf a1 (packBlk 256 slices_S256x1024_o0_256_S256x128 slices_S2048x1024_o0_256_S2048x128 slices_S1024x1024_o0_256_S1024x128 v3 v5 v7 v9 v12)
  have a3 : FVec F S256x1024 .f32 := addf a2 (packBlk 384 slices_S256x1024_o0_384_S256x128 slices_S2048x1024_o0_384_S2048x128 slices_S1024x1024_o0_384_S1024x128 v3 v5 v7 v9 v12)
  have a4 : FVec F S256x1024 .f32 := addf a3 (packBlk 512 slices_S256x1024_o0_512_S256x128 slices_S2048x1024_o0_512_S2048x128 slices_S1024x1024_o0_512_S1024x128 v3 v5 v7 v9 v12)
  have a5 : FVec F S256x1024 .f32 := addf a4 (packBlk 640 slices_S256x1024_o0_640_S256x128 slices_S2048x1024_o0_640_S2048x128 slices_S1024x1024_o0_640_S1024x128 v3 v5 v7 v9 v12)
  have a6 : FVec F S256x1024 .f32 := addf a5 (packBlk 768 slices_S256x1024_o0_768_S256x128 slices_S2048x1024_o0_768_S2048x128 slices_S1024x1024_o0_768_S1024x128 v3 v5 v7 v9 v12)
  have a7 : FVec F S256x1024 .f32 := addf a6 (packBlk 896 slices_S256x1024_o0_896_S256x128 slices_S2048x1024_o0_896_S2048x128 slices_S1024x1024_o0_896_S1024x128 v3 v5 v7 v9 v12)
  a7

/-- The body's stored block, restated: the loaded blocks read as 2-D arrays, the mask, the eight pairs, and the block's leading unit axis put back. -/
def attnBlk (v1 : Elt F .i32) (v2 : Vec F S1x256x1024 .bf16) (v4 v6 : Vec F S1x2048x1024 .bf16) (v8 : Vec F S1024x1024 .bf16) :
    FVec F S1x256x1024 .f32 :=
  have v3 : FVec F S256x1024 .bf16 := shapeCast S256x1024 v2 shapeCasts_S1x256x1024_S256x1024
  have v5 : FVec F S2048x1024 .bf16 := shapeCast S2048x1024 v4 shapeCasts_S1x2048x1024_S2048x1024
  have v7 : FVec F S2048x1024 .bf16 := shapeCast S2048x1024 v6 shapeCasts_S1x2048x1024_S2048x1024
  have v9 : FVec F S1024x1024 .bf16 := shapeCast S1024x1024 v8 shapeCasts_S1024x1024_S1024x1024
  shapeCast S1x256x1024 (accBlk v3 v5 v7 v9 (maskBlk v1)) shapeCasts_S256x1024_S1x256x1024

end Cert.KernelIdeal.AttnDef

end
-- ==== Proof.KI.Attn.lean ====
/-
  Region 3 of @main: the attention kernel's pipeline (grid 4 batches × 8 query blocks) with the
  valid-length table prefetched into scalar memory, at the buffer contents `V` the region is entered from.

  At a point (b, qi) the body reads the table's word b, loads the query block (256 rows of batch b),
  the whole keys and values of batch b and the whole output weight, and stores one 256 × 1024 result
  block: the composed payload `AttnDef.pay` of the word and the four loaded blocks.  The table is
  held whole by the region's invariant (the body only reads it); the other four windows are inputs,
  the fifth is written back at every point.
-/
import proofs.«413729_j14688788152931_2_alg».proof.Proof.Gen.KernelIdeal.Launch
import proofs.«413729_j14688788152931_2_alg».proof.Proof.Gen.KernelIdeal.Skeleton
import proofs.«413729_j14688788152931_2_alg».proof.Proof.KI.AttnDef
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen Cert.KernelIdeal.AttnDef
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The table -/

/-- The table's contents when the region is entered (one device: device 0's), and the same on every device. -/
def tbl : pre3.Contents (Elt F) := fun j => V (0 : Dev nD) (pre3.ref j)
theorem V_pre (c : Dev nD) (j : Fin 1) : V c (pre3.ref j) = tbl V j := by
  obtain rfl : c = 0 := Subsingleton.elim _ _; rfl
/-- The contents as admissible contents (the side condition is empty: no index map reads the table), and the pipeline at them. -/
abbrev adm : (pcfg3 (F := F)).Adm := ⟨tbl V, trivial⟩
abbrev cfgM : Pipeline.Cfg sig Λ₀ := cfg3 (adm V)

/-- The table as the body is handed it, its buffer's contents type on core `c`, and the buffer held whole at `f`. -/
abbrev tbM : Memref sig .tc .smem S4 .i32 := Memref.whole main_arg7
abbrev htbM : (tbM).IsWhole := Memref.isWhole_whole _
abbrev TbBuf (c : Dev nD) : Type := Buf (Elt F) (tbM.view.loc (c : Thread nD τ))
abbrev tbPt (c : Dev nD) (f : TbBuf (F := F) c) : sProp 𝕄 :=
  tbM.view.loc (c : Thread nD τ) ↦{fullShare} f

/-- The tables held whole are the one table's buffer. -/
theorem prefHeld_eq (c : Dev nD) (v : pre3.Contents (Elt F)) :
    (Pipeline.prefHeld (Ix := Unit) (Name := ℕ) (U := UR sig nD τ) (Lvl := ℕ) pre3 c (fun _ => fullShare) v : sProp 𝕄) = tbPt c (v 0) := by
  unfold Pipeline.prefHeld
  rw [show (Finset.univ : Finset (Fin 1)) = {(0 : Fin 1)} from by decide, bigSep_singleton]
  rfl

/-- The word of the table the body reads at grid coordinates `i`: the one at the batch coordinate. -/
def word (c : Dev nD) (i : grid3.Coords) (xt : TbBuf (F := F) c) : Elt F .i32 :=
  tbM.view.readAt (Elt F) (Rect.unit (s := S4) (k3_off1 i) S1.size (k3_off1_inb i)).toLoadRect xt (Shape.Idx.first (numel1_S1.symm ▸ Nat.one_pos))

/-! ## The windows' blocks -/

/-- Window `w`'s block at point `t`, read off its array as the region finds it. -/
def iblk (c : Dev nD) (w : Fin (cfgM V).W) (t : Fin (cfgM V).N) : (((cfgM V).win w).xblock ((cfgM V).grid.coords t)).Idx → Elt F ((cfgM V).win w).elt :=
  (((cfgM V).win w).blk t).view.read (Elt F) (V c (Pipeline.arrRef spec3 w))

/-- An input window's current staging buffer holds its block at every point, fetched there or not. -/
theorem before_0_of {c : Dev nD} (dat : Dat τ (Elt F) Unit ℕ (UR sig nD τ) ℕ (cfgM V) c) (hA : dat.A 0 = V c (Pipeline.arrRef spec3 0))
    (hafter : ∀ t, dat.after 0 t = iblk V c 0 t) (t : Fin (cfgM V).N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfgM V) c) (hA : dat.A 1 = V c (Pipeline.arrRef spec3 1))
    (hafter : ∀ t, dat.after 1 t = iblk V c 1 t) (t : Fin (cfgM V).N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfgM V) c) (hA : dat.A 2 = V c (Pipeline.arrRef spec3 2))
    (hafter : ∀ t, dat.after 2 t = iblk V c 2 t) (t : Fin (cfgM V).N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfgM V) c) (hA : dat.A 3 = V c (Pipeline.arrRef spec3 3))
    (hafter : ∀ t, dat.after 3 t = iblk V c 3 t) (t : Fin (cfgM V).N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The body's whole-buffer rectangles. -/
abbrev rQ : Rect S1x256x1024 := Rect.unit (s := S1x256x1024) ![0, 0, 0] S1x256x1024.size inb_S1x256x1024_S1x256x1024_0_0_0
abbrev rK : Rect S1x2048x1024 := Rect.unit (s := S1x2048x1024) ![0, 0, 0] S1x2048x1024.size inb_S1x2048x1024_S1x2048x1024_0_0_0
abbrev rW : Rect S1024x1024 := Rect.unit (s := S1024x1024) ![0, 0] S1024x1024.size inb_S1024x1024_S1024x1024_0_0

/-- The result window's staging buffer after the body: its one store, of the composed payload of the word and the four loads. -/
def out4 (c : Dev nD) (i : grid3.Coords) (xt : TbBuf (F := F) c) (x0 : Vec F S1x256x1024 .bf16) (x1 x2 : Vec F S1x2048x1024 .bf16)
    (x3 : Vec F S1024x1024 .bf16) : Vec F S1x256x1024 .f32 :=
  View.canon [⟨rQ, pay (word c i xt) (View.ld x0 rQ) (View.ld x1 rK) (View.ld x2 rK) (View.ld x3 rW)⟩]

theorem cover4 (p0 : Vec F S1x256x1024 .f32) (y : S1x256x1024.Idx) :
    ∃ pc ∈ ([⟨rQ, p0⟩] : List (View.Piece (Elt F) S1x256x1024 .f32)), y ∈ pc.1.set :=
  View.cover_of_tiled [⟨rQ, p0⟩] S1x256x1024.size (by rfl) y

set_option maxHeartbeats 4000000 in
/-- The body on whole staging memrefs, the four inputs at their contents, the result's at anything, the table held at `xt`,
    runs to the continuation with the inputs and the table as they were and the result's at `out4`. -/
theorem sound_kernel (c : Dev nD) (E : Set ℕ) (i : grid3.Coords)
    (arg3 : Memref sig .tc .vmem S1x256x1024 .bf16) (harg3 : arg3.IsWhole) (arg4 : Memref sig .tc .vmem S1x2048x1024 .bf16) (harg4 : arg4.IsWhole)
    (arg5 : Memref sig .tc .vmem S1x2048x1024 .bf16) (harg5 : arg5.IsWhole) (arg6 : Memref sig .tc .vmem S1024x1024 .bf16) (harg6 : arg6.IsWhole)
    (arg7 : Memref sig .tc .vmem S1x256x1024 .f32) (harg7 : arg7.IsWhole)
    (x0 : Vec F S1x256x1024 .bf16) (x1 x2 : Vec F S1x2048x1024 .bf16) (x3 : Vec F S1024x1024 .bf16) (xt : TbBuf (F := F) c)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ tbPt c xt
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out4 c i xt x0 x1 x2 x3) ∗ tbPt c xt) -∗ K ⟨⟩))
      ⊢ wp frame (wpE (defs₀ (F := F)) Variants.none c none) E
          (cc3__attn_wo_kernel i tbM htbM arg3 harg3 arg4 harg4 arg5 harg5 arg6 harg6 arg7 harg7) K := by
  simp only [cc3__attn_wo_kernel_eq_skeleton]; unfold cc3__attn_wo_kernel_skel
  simp only [k3_part1_eq_skeleton, k3_part2_eq_skeleton, k3_part3_eq_skeleton, k3_part4_eq_skeleton, k3_part5_eq_skeleton,
    k3_part6_eq_skeleton, k3_part7_eq_skeleton, k3_part8_eq_skeleton]
  unfold owns
  iintro ⟨⟨%f0, %hf0, H0⟩, ⟨%f1, %hf1, H1⟩, ⟨%f2, %hf2, H2⟩, ⟨%f3, %hf3, H3⟩, ⟨%d4, %f4, -, H4⟩, HT, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 _)
  iexact HT

/-! ## The pipeline's proof data -/

/-- The proof data on core `c`: the arrays as the region finds them; after the body each input's buffer at its block, the
    result's at `out4` of the table and the four input blocks; the invariant is the scoped rest, the generator
    register and the table held whole; nothing owed; full shares. -/
def dat (c : Dev nD) : Dat τ (Elt F) Unit ℕ (UR sig nD τ) ℕ (cfgM V) c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 c (grid3.coords t) (tbl V 0) (iblk V c 0 t) (iblk V c 1 t) (iblk V c 2 t) (iblk V c 3 t)
  Φ _ := iprop(Pipeline.ΦA spec3 c ∗ tbPt c (tbl V 0))
  q _ := fullShare
  owed _ := 0

theorem A_eq (c : Dev nD) (w : Fin (cfgM V).W) : (dat V c).A w = V c (Pipeline.arrRef spec3 w) := by
  dsimp only [dat]

theorem after_0 (c : Dev nD) (t : Fin (cfgM V).N) : (dat V c).after 0 t = iblk V c 0 t := by dsimp only [dat]; try rfl
theorem after_1 (c : Dev nD) (t : Fin (cfgM V).N) : (dat V c).after 1 t = iblk V c 1 t := by dsimp only [dat]; try rfl
theorem after_2 (c : Dev nD) (t : Fin (cfgM V).N) : (dat V c).after 2 t = iblk V c 2 t := by dsimp only [dat]; try rfl
theorem after_3 (c : Dev nD) (t : Fin (cfgM V).N) : (dat V c).after 3 t = iblk V c 3 t := by dsimp only [dat]; try rfl
theorem after_4 (c : Dev nD) (t : Fin (cfgM V).N) :
    (dat V c).after 4 t = out4 c (grid3.coords t) (tbl V 0) (iblk V c 0 t) (iblk V c 1 t) (iblk V c 2 t) (iblk V c 3 t) := by
  dsimp only [dat]; try rfl

theorem before_0 (c : Dev nD) (t : Fin (cfgM V).N) (d) : (dat V c).before 0 t d = iblk V c 0 t :=
  before_0_of V (dat V c) (A_eq V c 0) (after_0 V c) t d
theorem before_1 (c : Dev nD) (t : Fin (cfgM V).N) (d) : (dat V c).before 1 t d = iblk V c 1 t :=
  before_1_of V (dat V c) (A_eq V c 1) (after_1 V c) t d
theorem before_2 (c : Dev nD) (t : Fin (cfgM V).N) (d) : (dat V c).before 2 t d = iblk V c 2 t :=
  before_2_of V (dat V c) (A_eq V c 2) (after_2 V c) t d
theorem before_3 (c : Dev nD) (t : Fin (cfgM V).N) (d) : (dat V c).before 3 t d = iblk V c 3 t :=
  before_3_of V (dat V c) (A_eq V c 3) (after_3 V c) t d

/-! ## The body obligation, at a generic point -/

/-- Each window's current staging memref at point `t`, spelled as the pipeline passes it, and the body as the pipeline calls it there. -/
abbrev ms0 (t : Fin (cfgM V).N) : Memref sig .tc .vmem S1x256x1024 .bf16 := spec3_0.stage ((cfgM V).slots t 0)
abbrev hs0 (t : Fin (cfgM V).N) : (ms0 V t).IsWhole := hstage3_0 (((cfgM V).slots t 0).cast nbuf3_0)
abbrev ms1 (t : Fin (cfgM V).N) : Memref sig .tc .vmem S1x2048x1024 .bf16 := spec3_1.stage ((cfgM V).slots t 1)
abbrev hs1 (t : Fin (cfgM V).N) : (ms1 V t).IsWhole := hstage3_1 (((cfgM V).slots t 1).cast nbuf3_1)
abbrev ms2 (t : Fin (cfgM V).N) : Memref sig .tc .vmem S1x2048x1024 .bf16 := spec3_2.stage ((cfgM V).slots t 2)
abbrev hs2 (t : Fin (cfgM V).N) : (ms2 V t).IsWhole := hstage3_2 (((cfgM V).slots t 2).cast nbuf3_2)
abbrev ms3 (t : Fin (cfgM V).N) : Memref sig .tc .vmem S1024x1024 .bf16 := spec3_3.stage ((cfgM V).slots t 3)
abbrev hs3 (t : Fin (cfgM V).N) : (ms3 V t).IsWhole := hstage3_3 (((cfgM V).slots t 3).cast nbuf3_3)
abbrev ms4 (t : Fin (cfgM V).N) : Memref sig .tc .vmem S1x256x1024 .f32 := spec3_4.stage ((cfgM V).slots t 4)
abbrev hs4 (t : Fin (cfgM V).N) : (ms4 V t).IsWhole := hstage3_4 (((cfgM V).slots t 4).cast nbuf3_4)
abbrev bodyAt (t : Fin (cfgM V).N) : Prog (TpuEff nD τ sig (Elt F) Λ₀ .tc) PUnit :=
  cc3__attn_wo_kernel (grid3.coords t) (Memref.whole main_arg7) (Memref.isWhole_whole _) (ms0 V t) (hs0 V t) (ms1 V t) (hs1 V t)
    (ms2 V t) (hs2 V t) (ms3 V t) (hs3 V t) (ms4 V t) (hs4 V t)

def bodyPre (c : Dev nD) (t : Fin (cfgM V).N) : sProp 𝕄 :=
  iprop((dat V c).Φ t.castSucc ∗ (dat V c).owesAt () t.castSucc
    ∗ (∃ d, owns (c : Thread nD τ) (ms0 V t) fullShare ((dat V c).before 0 t d))
    ∗ (∃ d, owns (c : Thread nD τ) (ms1 V t) fullShare ((dat V c).before 1 t d))
    ∗ (∃ d, owns (c : Thread nD τ) (ms2 V t) fullShare ((dat V c).before 2 t d))
    ∗ (∃ d, owns (c : Thread nD τ) (ms3 V t) fullShare ((dat V c).before 3 t d))
    ∗ (∃ d, owns (c : Thread nD τ) (ms4 V t) fullShare ((dat V c).before 4 t d)))
def bodyPost (c : Dev nD) (t : Fin (cfgM V).N) : sProp 𝕄 :=
  iprop((dat V c).Φ t.succ ∗ (dat V c).owesAt () t.succ
    ∗ owns (c : Thread nD τ) (ms0 V t) fullShare ((dat V c).after 0 t)
    ∗ owns (c : Thread nD τ) (ms1 V t) fullShare ((dat V c).after 1 t)
    ∗ owns (c : Thread nD τ) (ms2 V t) fullShare ((dat V c).after 2 t)
    ∗ owns (c : Thread nD τ) (ms3 V t) fullShare ((dat V c).after 3 t)
    ∗ owns (c : Thread nD τ) (ms4 V t) fullShare ((dat V c).after 4 t))

/-- The body at any point: the inputs' memrefs hold their blocks and the invariant holds the table, so `sound_kernel` applies;
    the rest of the invariant and the core's `owes` pass through unread. -/
theorem sound_body (c : Dev nD) (t : Fin (cfgM V).N) :
    bodyPre V c t ⊢ wp frame (wpE (defs₀ (F := F)) Variants.none c none) Set.univ (bodyAt V t) (fun _ => bodyPost V c t) := by
  unfold bodyPre bodyPost bodyAt
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  rw [show (dat V c).Φ t.castSucc = iprop(Pipeline.ΦA spec3 c ∗ tbPt c (tbl V 0)) from rfl]
  iintro ⟨⟨HΦ, HT⟩, Ho, ⟨%d0, H0⟩, ⟨%d1, H1⟩, ⟨%d2, H2⟩, ⟨%d3, H3⟩, ⟨%d4, H4⟩⟩
  iapply (sound_kernel c Set.univ (grid3.coords t) _ _ _ _ _ _ _ _ _ _ (iblk V c 0 t) (iblk V c 1 t) (iblk V c 2 t) (iblk V c 3 t) (tbl V 0) _)
  isplitl [H0]; · iexact H0
  isplitl [H1]; · iexact H1
  isplitl [H2]; · iexact H2
  isplitl [H3]; · iexact H3
  isplitl [H4]; · iexists _; iexact H4
  isplitl [HT]; · iexact HT
  iintro ⟨H0, H1, H2, H3, H4, HT⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W3, bigSep_W3]
  exact sound_body V c t

end Cert.KernelIdeal.Attn

end
-- ==== Proof.KI.Run.lean ====
/-
  The launch of @main as eight segments — four stretches of host operations and four kernel regions — and
  what the run leaves in memory.

  The buffer contents at each boundary are a fold from the launch memory: a host stretch replaces the
  contents by those after its operations; a region replaces each of its windows' arrays by what its
  pipeline leaves there (an input as entered, the result with every grid point's write-back folded in) and
  leaves every other buffer alone.  Each region is entered with every unscoped buffer at the boundary's
  contents beside the generator register at some state and nothing owed, and is left the same way at the
  next boundary's contents.  The last region also prefetches the valid-length table: the table's buffer is
  taken out of the buffers that bypass the region, held by the region's invariant while it runs, and put
  back unchanged at the exit.

  Read against a final state, the last boundary's contents give: the result buffer holds what the last
  region's write-backs leave, and every argument holds what it held at launch (no host operation writes an
  argument and no region has one as a window's array).
-/
import proofs.«413729_j14688788152931_2_alg».proof.Proof.KI.Lin0
import proofs.«413729_j14688788152931_2_alg».proof.Proof.KI.Lin1
import proofs.«413729_j14688788152931_2_alg».proof.Proof.KI.Lin2
import proofs.«413729_j14688788152931_2_alg».proof.Proof.KI.Attn
import proofs.«413729_j14688788152931_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After `hostOps0`: what region 0 is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit: its windows' arrays at what the pipeline leaves (an input as entered, the result with every
    point's write-back folded in), every other buffer as entered. -/
def W2 (c : Dev nD) : Valuation τ sig (Elt F) :=
  Pipeline.withArrays spec0 c (W1 m ρ c) fun w => (Lin0.dat (V1 m ρ) c).arrAt w cfg0.N
theorem W2_arr (c : Dev nD) (w : Fin cfg0.W) :
    W2 m ρ c (Proc.devRef .tc (Pipeline.arrRef spec0 w)) = (Lin0.dat (V1 m ρ) c).arrAt w cfg0.N := by
  unfold W2; exact Pipeline.withArrays_arr spec0 winFacts0.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (Lin0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`: what region 1 is entered from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- At region 1's exit: its windows' arrays at what the pipeline leaves (an input as entered, the result with every
    point's write-back folded in), every other buffer as entered. -/
def W4 (c : Dev nD) : Valuation τ sig (Elt F) :=
  Pipeline.withArrays spec1 c (W3 m ρ c) fun w => (Lin1.dat (V3 m ρ) c).arrAt w cfg1.N
theorem W4_arr (c : Dev nD) (w : Fin cfg1.W) :
    W4 m ρ c (Proc.devRef .tc (Pipeline.arrRef spec1 w)) = (Lin1.dat (V3 m ρ) c).arrAt w cfg1.N := by
  unfold W4; exact Pipeline.withArrays_arr spec1 winFacts1.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (Lin1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`: what region 2 is entered from. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- At region 2's exit: its windows' arrays at what the pipeline leaves (an input as entered, the result with every
    point's write-back folded in), every other buffer as entered. -/
def W6 (c : Dev nD) : Valuation τ sig (Elt F) :=
  Pipeline.withArrays spec2 c (W5 m ρ c) fun w => (Lin2.dat (V5 m ρ) c).arrAt w cfg2.N
theorem W6_arr (c : Dev nD) (w : Fin cfg2.W) :
    W6 m ρ c (Proc.devRef .tc (Pipeline.arrRef spec2 w)) = (Lin2.dat (V5 m ρ) c).arrAt w cfg2.N := by
  unfold W6; exact Pipeline.withArrays_arr spec2 winFacts2.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
theorem hF2 (c : Dev nD) (w : Fin cfg2.W) : (Lin2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`: what region 3 is entered from. -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- At region 3's exit: its windows' arrays at what the pipeline leaves, every other buffer as entered. -/
def W8 (c : Dev nD) : Valuation τ sig (Elt F) :=
  Pipeline.withArrays spec3 c (W7 m ρ c) fun w => (Attn.dat (V7 m ρ) c).arrAt w (Attn.cfgM (V7 m ρ)).N
theorem W8_arr (c : Dev nD) (w : Fin (Attn.cfgM (V7 m ρ)).W) :
    W8 m ρ c (Proc.devRef .tc (Pipeline.arrRef spec3 w)) = (Attn.dat (V7 m ρ) c).arrAt w (Attn.cfgM (V7 m ρ)).N := by
  unfold W8; exact Pipeline.withArrays_arr spec3 winFacts3.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references. -/
abbrev V8 : (c : Dev nD) → (b : Ref sig .tc) → Buf (Elt F) ((c : Thread nD τ).loc b) := fun c b => W8 m ρ c b
theorem hF3 (c : Dev nD) (w : Fin (Attn.cfgM (V7 m ρ)).W) :
    (Attn.dat (V7 m ρ) c).arrAt w (Attn.cfgM (V7 m ρ)).N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- What region 3's write-backs leave in the result buffer. -/
def res (c : Dev nD) := (Attn.dat (V7 m ρ) c).arrAt 4 (Attn.cfgM (V7 m ρ)).N

/-- The last boundary's contents at the result buffer: window 4's array. -/
theorem W8_res (c : Dev nD) : W8 m ρ c (Proc.devRef .tc main_v13) = res m ρ c := W8_arr m ρ c 4

/-! ## The arguments end as launched -/

/-- A buffer that no host operation writes and that is no window's array of any region holds at the last
    boundary what it held at launch. -/
theorem W8_bypass (c : Dev nD) (b : Ref sig .tc)
    (h0 : b ∉ hostOps0_W) (a0 : ∀ w, Pipeline.arrRef spec0 w ≠ b)
    (h1 : b ∉ hostOps1_W) (a1 : ∀ w, Pipeline.arrRef spec1 w ≠ b)
    (h2 : b ∉ hostOps2_W) (a2 : ∀ w, Pipeline.arrRef spec2 w ≠ b)
    (h3 : b ∉ hostOps3_W) (a3 : ∀ w, Pipeline.arrRef spec3 w ≠ b) :
    W8 m ρ c (Proc.devRef .tc b) = m ((c : Thread nD τ).loc b) :=
  calc W8 m ρ c (Proc.devRef .tc b)
    _ = W7 m ρ c (Proc.devRef .tc b) := W8_of_ne m ρ c b a3
    _ = W6 m ρ c (Proc.devRef .tc b) := StableHlo.after_of_writes_sub hostOps3 _ hostOps3_writes h3
    _ = W5 m ρ c (Proc.devRef .tc b) := W6_of_ne m ρ c b a2
    _ = W4 m ρ c (Proc.devRef .tc b) := StableHlo.after_of_writes_sub hostOps2 _ hostOps2_writes h2
    _ = W3 m ρ c (Proc.devRef .tc b) := W4_of_ne m ρ c b a1
    _ = W2 m ρ c (Proc.devRef .tc b) := StableHlo.after_of_writes_sub hostOps1 _ hostOps1_writes h1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl
theorem W8_main_arg0 (c : Dev nD) : W8 m ρ c (Proc.devRef .tc main_arg0) = m ((c : Thread nD τ).loc main_arg0) :=
  W8_bypass m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_bypass m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_bypass m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_bypass m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_bypass m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_bypass m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_bypass m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_bypass m ρ c main_arg7 (by decide) (by decide) (by decide) (by decide) (by decide) (by decide) (by decide) (by decide)

/-! ## The proof data family and the thread state -/

/-- The prefetched tables' admissible contents: the three linear regions have no table; the last region's table is
    what its buffer holds when that region is entered. -/
abbrev adm : (p : Fin 4) → (pcfgs (F := F) p).Adm
  | ⟨0, _⟩ => cfg0.toPCfg_adm
  | ⟨1, _⟩ => cfg1.toPCfg_adm
  | ⟨2, _⟩ => cfg2.toPCfg_adm
  | ⟨3, _⟩ => Attn.adm (V7 m ρ)
  | ⟨_ + 4, h⟩ => absurd h (Nat.not_lt.2 (Nat.le_add_left _ _))
/-- Every pipeline's proof data, each at its region's entry contents. -/
def pdats : (p : Fin 4) → (c : Dev nD) → Dat τ (Elt F) Unit ℕ (UR sig nD τ) ℕ (Pipeline.pin (pcfgs (F := F)) (adm m ρ) p) c
  | ⟨0, _⟩ => fun c => Lin0.dat (V1 m ρ) c
  | ⟨1, _⟩ => fun c => Lin1.dat (V3 m ρ) c
  | ⟨2, _⟩ => fun c => Lin2.dat (V5 m ρ) c
  | ⟨3, _⟩ => fun c => Attn.dat (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 (a linear projection) over the thread state: entered with every unscoped buffer at `W1`, left with
    them at `W2`.  Its windows' arrays are split out of the unscoped buffers and put back at their exit contents; the
    generator register goes into the region's invariant and comes back; nothing is owed. -/
def reg0 : Pipeline.RegionSeg (pcfgs (F := F)) (adm m ρ) (pdats m ρ) () defs₀ 𝒱₀ L lv 0 where
  win := winFacts0.to₀
  block_pos := block_pos0
  stage_whole := stage_whole0
  K := PEmpty
  osem k := k.elim
  ho := Pipeline.OwnSemFacts.none _
  hbody c := (Lin0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) (adm m ρ) (pdats m ρ) winFacts0 arr_whole0 c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m ρ) (Ix := Unit) (Name := ℕ) (U := UR sig nD τ) (Lvl := ℕ)
      winFacts0 arr_whole0 c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (a linear projection) over the thread state: entered with every unscoped buffer at `W3`, left with
    them at `W4`.  Its windows' arrays are split out of the unscoped buffers and put back at their exit contents; the
    generator register goes into the region's invariant and comes back; nothing is owed. -/
def reg1 : Pipeline.RegionSeg (pcfgs (F := F)) (adm m ρ) (pdats m ρ) () defs₀ 𝒱₀ L lv 1 where
  win := winFacts1.to₀
  block_pos := block_pos1
  stage_whole := stage_whole1
  K := PEmpty
  osem k := k.elim
  ho := Pipeline.OwnSemFacts.none _
  hbody c := (Lin1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) (adm m ρ) (pdats m ρ) winFacts1 arr_whole1 c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ) (Ix := Unit) (Name := ℕ) (U := UR sig nD τ) (Lvl := ℕ)
      winFacts1 arr_whole1 c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (a linear projection) over the thread state: entered with every unscoped buffer at `W5`, left with
    them at `W6`.  Its windows' arrays are split out of the unscoped buffers and put back at their exit contents; the
    generator register goes into the region's invariant and comes back; nothing is owed. -/
def reg2 : Pipeline.RegionSeg (pcfgs (F := F)) (adm m ρ) (pdats m ρ) () defs₀ 𝒱₀ L lv 2 where
  win := winFacts2.to₀
  block_pos := block_pos2
  stage_whole := stage_whole2
  K := PEmpty
  osem k := k.elim
  ho := Pipeline.OwnSemFacts.none _
  hbody c := (Lin2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) (adm m ρ) (pdats m ρ) winFacts2 arr_whole2 c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m ρ) (Ix := Unit) (Name := ℕ) (U := UR sig nD τ) (Lvl := ℕ)
      winFacts2 arr_whole2 c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The table's words read off region 3's entry contents on core `c` are the table the region's proof data name. -/
theorem tbl_eq (c : Dev nD) : (fun k => V7 m ρ c (pre3.ref k)) = Attn.tbl (V7 m ρ) := funext (Attn.V_pre (V7 m ρ) c)

set_option backward.isDefEq.respectTransparency.types false in
/-- Region 3 (attention and output projection) over the thread state: entered with every unscoped buffer at `W7`,
    left with them at `W8`.  Besides the windows' arrays, the table's buffer is split out of the unscoped buffers: it is
    held by the region's invariant and handed back at the exit, where it rejoins the buffers that bypassed the region. -/
def reg3 : Pipeline.RegionSeg (pcfgs (F := F)) (adm m ρ) (pdats m ρ) () defs₀ 𝒱₀ L lv 3 where
  win := winFacts3.to₀
  block_pos := block_pos3
  stage_whole := stage_whole3
  K := PEmpty
  osem k := k.elim
  ho := Pipeline.OwnSemFacts.none _
  hbody c := (Attn.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre3 c (fun _ => fullShare) (Attn.tbl (V7 m ρ)))
  Z c := Pipeline.unscopedRestP (Ix := Unit) (Name := ℕ) (U := UR sig nD τ) (Lvl := ℕ) pre3 spec3 c (V7 m ρ c)
  hentry c := by
    rw [Pipeline.ownSems0_none]
    have hsplit : (unscopedBufs c (V7 m ρ c) : sProp 𝕄)
        ⊢ iprop((pdats m ρ 3 c).arrays ((pdats m ρ 3 c).arrAt · 0)
            ∗ Pipeline.unscopedRest (Ix := Unit) (Name := ℕ) (U := UR sig nD τ) (Lvl := ℕ) spec3 c (V7 m ρ c)) :=
      Pipeline.arrays_of_unscopedBufs (p := 3) (pcfgs (F := F)) (adm m ρ) (pdats m ρ) winFacts3 arr_whole3 c
        ((pdats m ρ 3 c).share_full fun _ => rfl) (V7 m ρ c) fun _ => rfl
    rw [Pipeline.unscopedBufs_held, Pipeline.unscopedRest_split preFacts3 c (V7 m ρ c), tbl_eq m ρ c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = iprop(Pipeline.ΦA spec3 c ∗ Attn.tbPt c (Attn.tbl (V7 m ρ) 0)) from rfl,
      ← Attn.prefHeld_eq c (Attn.tbl (V7 m ρ))]; unfold Pipeline.ΦA
    iintro ⟨Hp, Ht, Hr⟩
    isplitl [Hr Hp]
    · isplitl [Hr]; · iexact Hr
      iexact Hp
    iexact Ht
  hout c := by
    rw [Pipeline.ownSems0_none, show (pdats m ρ 3 c).Φ (Fin.last _) = iprop(Pipeline.ΦA spec3 c ∗ Attn.tbPt c (Attn.tbl (V7 m ρ) 0)) from rfl,
      ← Attn.prefHeld_eq c (Attn.tbl (V7 m ρ))]; unfold Pipeline.ΦA
    iintro ⟨⟨Hr, Hp⟩, Ht⟩
    isplitl [Hp Ht]
    · isplitl [Hp]; · iexact Hp
      iexact Ht
    isplitr; · iempintro
    iexact Hr
  hexit c := by
    have hjoin : iprop((pdats m ρ 3 c).arrays ((pdats m ρ 3 c).arrAt · (Attn.cfgM (V7 m ρ)).N)
          ∗ Pipeline.unscopedRest (Ix := Unit) (Name := ℕ) (U := UR sig nD τ) (Lvl := ℕ) spec3 c (V7 m ρ c))
        ⊢ (unscopedBufs c (V8 m ρ c) : sProp 𝕄) :=
      Pipeline.unscopedBufs_of_arrays (p := 3) (pcfgs (F := F)) (adm m ρ) (Ix := Unit) (Name := ℕ) (U := UR sig nD τ) (Lvl := ℕ)
        winFacts3 arr_whole3 c (pdats m ρ) ((pdats m ρ 3 c).share_full fun _ => rfl)
        (V7 m ρ c) (V8 m ρ c) ((pdats m ρ 3 c).arrAt · (Attn.cfgM (V7 m ρ)).N) (hF3 m ρ c) (hrest3 m ρ c)
    rw [Pipeline.unscopedBufs_held, Pipeline.unscopedRest_split preFacts3 c (V7 m ρ c), tbl_eq m ρ c] at hjoin
    iintro ⟨Ha, HO, ⟨Hp, Ht⟩, Hrest⟩
    imodintro
    isplitl [Ha Hrest Hp Ht]
    · isplitl [Ha Hrest Ht]
      · iapply hjoin
        isplitl [Ha]; · iexact Ha
        isplitl [Ht]; · iexact Ht
        iexact Hrest
      iexact Hp
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) (adm m ρ) (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main on the TensorCores terminates without a
    fault, and in every final state the result buffer holds the last boundary's contents and every argument holds what
    it held at launch. -/
theorem run_main : θ_run defs (onTc (τ := τ) (main (F := F))) ⟨m, fun _ => 0, ρ⟩ (fun r => ∀ c : Dev nD,
      r.2.mem ((c.tc : Thread nD τ).loc main_v13) = W8 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v13 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

/-- info: 'Cert.KernelIdeal.Run.run_main' depends on axioms: [propext, Classical.choice, Quot.sound] -/
#guard_msgs in #print axioms run_main

end Cert.KernelIdeal.Run

end
-- ==== Proof.KI.HostVals.lean ====
/-
  What @main's host stretches write, as functions of the buffers they read, for any contents `W` the
  stretch starts from: the four weights converted to the narrower float format, the three activations
  reshaped to matrices of their rows, and the three projections reshaped back to [batch, position, feature].
-/
import proofs.«413729_j14688788152931_2_alg».proof.Proof.Gen.KernelIdeal.Launch
import Idealize.ShloMosaic.Lib.StableHlo.Run

noncomputable section

namespace Cert.KernelIdeal.HostVals

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

theorem ops0_v0 : StableHlo.after hostOps0 W (Proc.devRef .tc main_v0) = truncf .bf16 (W (Proc.devRef .tc main_arg3)) bitsLt_bf16_f32 := by
  after_results <;> rfl
theorem ops0_v1 : StableHlo.after hostOps0 W (Proc.devRef .tc main_v1) = truncf .bf16 (W (Proc.devRef .tc main_arg4)) bitsLt_bf16_f32 := by
  after_results <;> rfl
theorem ops0_v2 : StableHlo.after hostOps0 W (Proc.devRef .tc main_v2) = truncf .bf16 (W (Proc.devRef .tc main_arg5)) bitsLt_bf16_f32 := by
  after_results <;> rfl
theorem ops0_v3 : StableHlo.after hostOps0 W (Proc.devRef .tc main_v3) = truncf .bf16 (W (Proc.devRef .tc main_arg6)) bitsLt_bf16_f32 := by
  after_results <;> rfl
theorem ops0_v4 : StableHlo.after hostOps0 W (Proc.devRef .tc main_v4) = shapeCast S8192x1024 (W (Proc.devRef .tc main_arg0)) shapeCasts_S4x2048x1024_S8192x1024 := by
  after_results <;> rfl
theorem ops1_v6 : StableHlo.after hostOps1 W (Proc.devRef .tc main_v6) = shapeCast S8192x1024 (W (Proc.devRef .tc main_arg1)) shapeCasts_S4x2048x1024_S8192x1024 := by
  after_results <;> rfl
theorem ops2_v8 : StableHlo.after hostOps2 W (Proc.devRef .tc main_v8) = shapeCast S8192x1024 (W (Proc.devRef .tc main_arg2)) shapeCasts_S4x2048x1024_S8192x1024 := by
  after_results <;> rfl
theorem ops3_v10 : StableHlo.after hostOps3 W (Proc.devRef .tc main_v10) = shapeCast S4x2048x1024 (W (Proc.devRef .tc main_v5)) shapeCasts_S8192x1024_S4x2048x1024 := by
  after_results <;> rfl
theorem ops3_v11 : StableHlo.after hostOps3 W (Proc.devRef .tc main_v11) = shapeCast S4x2048x1024 (W (Proc.devRef .tc main_v7)) shapeCasts_S8192x1024_S4x2048x1024 := by
  after_results <;> rfl
theorem ops3_v12 : StableHlo.after hostOps3 W (Proc.devRef .tc main_v12) = shapeCast S4x2048x1024 (W (Proc.devRef .tc main_v9)) shapeCasts_S8192x1024_S4x2048x1024 := by
  after_results <;> rfl

end Cert.KernelIdeal.HostVals

end
-- ==== Proof.LinPay.lean ====
/-
  The three linear-projection kernels' stored value, read at one index.

  Each kernel stores, over a 2048 × 1024 block of activations `x` and the whole 1024 × 1024 weight `w`,
  the product of `x` with the transpose of `w`: entry (r, o) is the sum over d of x(r, d) · w(o, d).
  At the ideal values the two format narrowings are the identity, the two same-shape casts are the
  identity, the transpose swaps the two coordinates of the weight, and the matrix product into the zero
  accumulator is the plain sum over the one contracted axis.
-/
import proofs.«413729_j14688788152931_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LinPay

open Cert.KernelIdeal Cert.KernelIdeal.Gen Idealize.ShloMosaic Idealize.ShloMosaic.ValueIdx

/-- The left operand's row coordinate is the output's row. -/
theorem lhs_lin_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
/-- The left operand's column coordinate is the contraction position. -/
theorem lhs_lin_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
/-- The right operand's row coordinate is the contraction position. -/
theorem rhs_lin_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
/-- The right operand's column coordinate is the output's column. -/
theorem rhs_lin_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The product of a 2048 × 1024 matrix with a 1024 × 1024 matrix into the zero accumulator, at (r, o):
    the sum over the shared axis of left (r, d) times right (d, o). -/
theorem matmul_lin_apply (a : FVec Ideal S2048x1024 .bf16) (b : FVec Ideal S1024x1024 .bf16) (r : Fin 2048) (o : Fin 1024) :
    matmul (F := Ideal) dot_S2048x1024_S1024x1024_S2048x1024_1_0_0_1_n_n none a b (constant (F := Ideal) S2048x1024 .f32 0x00000000#32) (ix2 r o)
      = ∑ d : Fin 1024, a (ix2 r d) * b (ix2 d o) := by
  refine (Ideal.matmul_constant_zero_apply dot_S2048x1024_S1024x1024_S2048x1024_1_0_0_1_n_n none a b (ix2 r o)).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r o) ((contrEquiv1 dot_S2048x1024_S1024x1024_S2048x1024_1_0_0_1_n_n 1024 rfl rfl).symm k) = ix2 r k := funext fun c => Fin.ext (by
    match c with
    | ⟨0, _⟩ => exact lhs_lin_0 _ _
    | ⟨1, _⟩ => exact (lhs_lin_1 _ _).trans hk)
  have er : dot_S2048x1024_S1024x1024_S2048x1024_1_0_0_1_n_n.rhsIdx (ix2 r o) ((contrEquiv1 dot_S2048x1024_S1024x1024_S2048x1024_1_0_0_1_n_n 1024 rfl rfl).symm k) = ix2 k o := funext fun c => Fin.ext (by
    match c with
    | ⟨0, _⟩ => exact (rhs_lin_0 _ _).trans hk
    | ⟨1, _⟩ => exact rhs_lin_1 _ _)
  rw [el, er]

/-- The first kernel's stored value at (r, o): row r of the activations against row o of the weight. -/
theorem k0_pay1_apply (x : Vec Ideal S2048x1024 .f32) (w : Vec Ideal S1024x1024 .bf16) (r : Fin 2048) (o : Fin 1024) :
    k0_pay1 (F := Ideal) x w (ix2 r o) = ∑ d : Fin 1024, x (ix2 r d) * w (ix2 o d) := by
  unfold k0_pay1
  rw [truncf_apply]
  refine (matmul_lin_apply _ _ r o).trans ?_
  refine Finset.sum_congr rfl fun d _ => ?_
  rw [truncf_apply, shapeCast_self, shapeCast_self]
  refine congrArg (x (ix2 r d) * ·) ?_
  exact transpose_ix2_apply w transposes_S1024x1024_p1_0_S1024x1024 d o

/-- The second and third kernels compute the same function of their two operands. -/
theorem k1_pay1_eq : @k1_pay1 = @k0_pay1 := rfl
theorem k2_pay1_eq : @k2_pay1 = @k0_pay1 := rfl

theorem k1_pay1_apply (x : Vec Ideal S2048x1024 .f32) (w : Vec Ideal S1024x1024 .bf16) (r : Fin 2048) (o : Fin 1024) :
    k1_pay1 (F := Ideal) x w (ix2 r o) = ∑ d : Fin 1024, x (ix2 r d) * w (ix2 o d) :=
  k0_pay1_apply x w r o

theorem k2_pay1_apply (x : Vec Ideal S2048x1024 .f32) (w : Vec Ideal S1024x1024 .bf16) (r : Fin 2048) (o : Fin 1024) :
    k2_pay1 (F := Ideal) x w (ix2 r o) = ∑ d : Fin 1024, x (ix2 r d) * w (ix2 o d) :=
  k0_pay1_apply x w r o

end Cert.LinPay
-- ==== Proof.KI.LinVal0.lean ====
/-
  Region 0 (the first linear projection), from blocks to the array.

  Each of the four grid points writes back rows 2048·t … 2048·t + 2047 of the result, and what it writes
  is that block of ONE function of the two operand arrays as the region finds them: entry (r, o) is the
  sum over d of activations (r, d) times weight (o, d).  The four row blocks tile the result, so after the
  last write-back the result array is that function.
-/
import proofs.«413729_j14688788152931_2_alg».proof.Proof.KI.Lin0
import proofs.«413729_j14688788152931_2_alg».proof.Proof.LinPay
import Idealize.ShloMosaic.Lib.Pipeline.Value
import Idealize.ShloMosaic.Lib.ValueIdx

noncomputable section

open scoped BigOperators

namespace Cert.KernelIdeal.LinVal0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's rectangles start at the origin. -/
theorem origin : (![0, 0] : Fin 2 → Nat) = fun _ => 0 := funext fun a => by fin_cases a <;> rfl

/-- The product: entry (r, o) is row r of the left array against row o of the right array. -/
abbrev rowsTimesRows (X : S8192x1024.Idx → EReal) (W : S1024x1024.Idx → EReal) : S8192x1024.Idx → EReal :=
  fun j => ∑ d : Fin 1024, X (ix2 (j 0) d) * W (ix2 (j 1) d)

/-- The product at (r, o), written out. -/
theorem rowsTimesRows_apply (X : S8192x1024.Idx → EReal) (W : S1024x1024.Idx → EReal) (r : Fin 8192) (o : Fin 1024) :
    rowsTimesRows X W (ix2 r o) = ∑ d : Fin 1024, X (ix2 r d) * W (ix2 o d) := rfl

/-- The stored block at any index of the block: row against row of the two loaded blocks. -/
theorem stored_at (x : Vec Ideal S2048x1024 .f32) (w : Vec Ideal S1024x1024 .bf16) (y : S2048x1024.Idx) :
    k0_pay1 (F := Ideal) x w y = ∑ d : Fin 1024, x (ix2 (y 0) d) * w (ix2 (y 1) d) := by
  obtain ⟨r, o, rfl⟩ : ∃ (r : Fin 2048) (o : Fin 1024), y = ix2 r o := ⟨y 0, y 1, eq_ix2 y⟩
  exact Cert.LinPay.k0_pay1_apply x w r o

/-- The printed index maps over the grid: the activations' and the result's row block is the point's
    number, every other block index is zero. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every point writes its result block back. -/
theorem always_written : ∀ t : Fin cfg0.N, (cfg0.win 2).flush t = true :=
  (by decide +kernel : ∀ t : Fin grid0.N, win0_2.flush t = true)

/-- WHAT POINT `t` WRITES BACK is block `t` of the product of the two operand arrays as the region finds them:
    the activations' block sits at the same rows as the result's, the weight's block is the whole weight. -/
theorem block_written (c : Dev nD) (t : Fin cfg0.N) :
    (Lin0.dat V c).flushed 2 t = ((cfg0.win 2).blk t).view.read (Elt Ideal) (rowsTimesRows (V c main_v4) (V c main_v0)) := by
  show (cfg0.win 2).cut (grid0.coords t) ((Lin0.dat V c).after 2 t) = _
  rw [Lin0.after_2]
  unfold Lin0.out2
  rw [View.canon_unit_zero origin]
  simp only [View.ld_unit_zero (S := S2048x1024) origin, View.ld_unit_zero (S := S1024x1024) origin]
  funext j
  show k0_pay1 (F := Ideal) (Lin0.iblk V c 0 t) (Lin0.iblk V c 1 t) ((cfg0.win 2).xinj (grid0.coords t) j)
    = rowsTimesRows (V c main_v4) (V c main_v0) (((cfg0.win 2).blk t).view.emb j)
  refine (stored_at _ _ _).trans ?_
  refine Finset.sum_congr rfl fun d _ => ?_
  obtain ⟨e0, e1, e2, e3, e4, e5⟩ := block_indices t
  have hl : Lin0.iblk V c 0 t (ix2 (((cfg0.win 2).xinj (grid0.coords t) j) 0) d)
      = V c main_v4 (ix2 ((((cfg0.win 2).blk t).view.emb j) 0) d) := by
    show V c main_v4 (((cfg0.win 0).blk t).view.emb _) = _
    refine congrArg (V c main_v4) (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 1024 + 1 * d.val = d.val; omega
  have hr : Lin0.iblk V c 1 t (ix2 (((cfg0.win 2).xinj (grid0.coords t) j) 1) d)
      = V c main_v0 (ix2 ((((cfg0.win 2).blk t).view.emb j) 1) d) := by
    show V c main_v0 (((cfg0.win 1).blk t).view.emb _) = _
    refine congrArg (V c main_v0) (funext fun a => Fin.ext ?_)
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 1024 + 1 * d.val = d.val; omega
  rw [hl, hr]

/-- An index of the result is in point `t`'s block iff each coordinate is in the block's range on its axis. -/
theorem mem_block (t : Fin cfg0.N) (i : S8192x1024.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v5).slice (win0_2.rect t)).set ↔ _
  rw [View.set_slice_whole, Rect.mem_set_unit]
  exact Iff.rfl

/-- The four row blocks tile the result: row r is in the block of point r / 2048. -/
theorem covered (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  obtain ⟨t, ht⟩ : ∃ t : Fin cfg0.N, t.val = (i 0).val / 2048 :=
    ⟨⟨(i 0).val / 2048, by rw [show cfg0.N = 4 from by decide]; omega⟩, rfl⟩
  obtain ⟨-, -, -, -, e4, e5⟩ := block_indices t
  refine ⟨t, always_written t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- THE RESULT ARRAY after the region: entry (r, o) is row r of the activations against row o of the weight. -/
theorem final (c : Dev nD) :
    (Lin0.dat V c).arrAt 2 cfg0.N
      = rowsTimesRows (V c main_v4) (V c main_v0) :=
  (Lin0.dat V c).arrAt_eq_of_cover 2 (rowsTimesRows (V c main_v4) (V c main_v0)) (fun t _ => block_written V c t) covered

end Cert.KernelIdeal.LinVal0
-- ==== Proof.KI.LinVal1.lean ====
/-
  Region 1 (the second linear projection), from blocks to the array.

  Each of the four grid points writes back rows 2048·t … 2048·t + 2047 of the result, and what it writes
  is that block of ONE function of the two operand arrays as the region finds them: entry (r, o) is the
  sum over d of activations (r, d) times weight (o, d).  The four row blocks tile the result, so after the
  last write-back the result array is that function.
-/
import proofs.«413729_j14688788152931_2_alg».proof.Proof.KI.Lin1
import proofs.«413729_j14688788152931_2_alg».proof.Proof.LinPay
import Idealize.ShloMosaic.Lib.Pipeline.Value
import Idealize.ShloMosaic.Lib.ValueIdx

noncomputable section

open scoped BigOperators

namespace Cert.KernelIdeal.LinVal1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's rectangles start at the origin. -/
theorem origin : (![0, 0] : Fin 2 → Nat) = fun _ => 0 := funext fun a => by fin_cases a <;> rfl

/-- The product: entry (r, o) is row r of the left array against row o of the right array. -/
abbrev rowsTimesRows (X : S8192x1024.Idx → EReal) (W : S1024x1024.Idx → EReal) : S8192x1024.Idx → EReal :=
  fun j => ∑ d : Fin 1024, X (ix2 (j 0) d) * W (ix2 (j 1) d)

/-- The product at (r, o), written out. -/
theorem rowsTimesRows_apply (X : S8192x1024.Idx → EReal) (W : S1024x1024.Idx → EReal) (r : Fin 8192) (o : Fin 1024) :
    rowsTimesRows X W (ix2 r o) = ∑ d : Fin 1024, X (ix2 r d) * W (ix2 o d) := rfl

/-- The stored block at any index of the block: row against row of the two loaded blocks. -/
theorem stored_at (x : Vec Ideal S2048x1024 .f32) (w : Vec Ideal S1024x1024 .bf16) (y : S2048x1024.Idx) :
    k1_pay1 (F := Ideal) x w y = ∑ d : Fin 1024, x (ix2 (y 0) d) * w (ix2 (y 1) d) := by
  obtain ⟨r, o, rfl⟩ : ∃ (r : Fin 2048) (o : Fin 1024), y = ix2 r o := ⟨y 0, y 1, eq_ix2 y⟩
  exact Cert.LinPay.k1_pay1_apply x w r o

/-- The printed index maps over the grid: the activations' and the result's row block is the point's
    number, every other block index is zero. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every point writes its result block back. -/
theorem always_written : ∀ t : Fin cfg1.N, (cfg1.win 2).flush t = true :=
  (by decide +kernel : ∀ t : Fin grid1.N, win1_2.flush t = true)

/-- WHAT POINT `t` WRITES BACK is block `t` of the product of the two operand arrays as the region finds them:
    the activations' block sits at the same rows as the result's, the weight's block is the whole weight. -/
theorem block_written (c : Dev nD) (t : Fin cfg1.N) :
    (Lin1.dat V c).flushed 2 t = ((cfg1.win 2).blk t).view.read (Elt Ideal) (rowsTimesRows (V c main_v6) (V c main_v1)) := by
  show (cfg1.win 2).cut (grid1.coords t) ((Lin1.dat V c).after 2 t) = _
  rw [Lin1.after_2]
  unfold Lin1.out2
  rw [View.canon_unit_zero origin]
  simp only [View.ld_unit_zero (S := S2048x1024) origin, View.ld_unit_zero (S := S1024x1024) origin]
  funext j
  show k1_pay1 (F := Ideal) (Lin1.iblk V c 0 t) (Lin1.iblk V c 1 t) ((cfg1.win 2).xinj (grid1.coords t) j)
    = rowsTimesRows (V c main_v6) (V c main_v1) (((cfg1.win 2).blk t).view.emb j)
  refine (stored_at _ _ _).trans ?_
  refine Finset.sum_congr rfl fun d _ => ?_
  obtain ⟨e0, e1, e2, e3, e4, e5⟩ := block_indices t
  have hl : Lin1.iblk V c 0 t (ix2 (((cfg1.win 2).xinj (grid1.coords t) j) 0) d)
      = V c main_v6 (ix2 ((((cfg1.win 2).blk t).view.emb j) 0) d) := by
    show V c main_v6 (((cfg1.win 0).blk t).view.emb _) = _
    refine congrArg (V c main_v6) (funext fun a => Fin.ext ?_)
    match a with
    | ⟨0, _⟩ => show win1_0.index t (0 : Fin 2) * 2048 + 1 * (j 0).val = win1_2.index t (0 : Fin 2) * 2048 + 1 * (j 0).val; omega
    | ⟨1, _⟩ => show win1_0.index t (1 : Fin 2) * 1024 + 1 * d.val = d.val; omega
  have hr : Lin1.iblk V c 1 t (ix2 (((cfg1.win 2).xinj (grid1.coords t) j) 1) d)
      = V c main_v1 (ix2 ((((cfg1.win 2).blk t).view.emb j) 1) d) := by
    show V c main_v1 (((cfg1.win 1).blk t).view.emb _) = _
    refine congrArg (V c main_v1) (funext fun a => Fin.ext ?_)
    match a with
    | ⟨0, _⟩ => show win1_1.index t (0 : Fin 2) * 1024 + 1 * (j 1).val = win1_2.index t (1 : Fin 2) * 1024 + 1 * (j 1).val; omega
    | ⟨1, _⟩ => show win1_1.index t (1 : Fin 2) * 1024 + 1 * d.val = d.val; omega
  rw [hl, hr]

/-- An index of the result is in point `t`'s block iff each coordinate is in the block's range on its axis. -/
theorem mem_block (t : Fin cfg1.N) (i : S8192x1024.Idx) :
    i ∈ ((cfg1.win 2).blk t).view.set ↔ ∀ a : Fin 2, win1_2.index t a * S2048x1024.size a ≤ (i a).val ∧ (i a).val < win1_2.index t a * S2048x1024.size a + S2048x1024.size a := by
  show i ∈ ((View.whole main_v7).slice (win1_2.rect t)).set ↔ _
  rw [View.set_slice_whole, Rect.mem_set_unit]
  exact Iff.rfl

/-- The four row blocks tile the result: row r is in the block of point r / 2048. -/
theorem covered (i : S8192x1024.Idx) : ∃ t : Fin cfg1.N, (cfg1.win 2).flush t = true ∧ i ∈ ((cfg1.win 2).blk t).view.set := by
  have h0 : (i 0).val < 8192 := (i 0).isLt
  have h1 : (i 1).val < 1024 := (i 1).isLt
  obtain ⟨t, ht⟩ : ∃ t : Fin cfg1.N, t.val = (i 0).val / 2048 :=
    ⟨⟨(i 0).val / 2048, by rw [show cfg1.N = 4 from by decide]; omega⟩, rfl⟩
  obtain ⟨-, -, -, -, e4, e5⟩ := block_indices t
  refine ⟨t, always_written t, ?_⟩
  rw [mem_block]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 1024 ≤ (i 1).val ∧ (i 1).val < win1_2.index t (1 : Fin 2) * 1024 + 1024; omega

/-- THE RESULT ARRAY after the region: entry (r, o) is row r of the activations against row o of the weight. -/
theorem final (c : Dev nD) :
    (Lin1.dat V c).arrAt 2 cfg1.N
      = rowsTimesRows (V c main_v6) (V c main_v1) :=
  (Lin1.dat V c).arrAt_eq_of_cover 2 (rowsTimesRows (V c main_v6) (V c main_v1)) (fun t _ => block_written V c t) covered

end Cert.KernelIdeal.LinVal1
-- ==== Proof.KI.LinVal2.lean ====
/-
  Region 2 (the third linear projection), from blocks to the array.

  Each of the four grid points writes back rows 2048·t … 2048·t + 2047 of the result, and what it writes
  is that block of ONE function of the two operand arrays as the region finds them: entry (r, o) is the
  sum over d of activations (r, d) times weight (o, d).  The four row blocks tile the result, so after the
  last write-back the result array is that function.
-/
import proofs.«413729_j14688788152931_2_alg».proof.Proof.KI.Lin2
import proofs.«413729_j14688788152931_2_alg».proof.Proof.LinPay
import Idealize.ShloMosaic.Lib.Pipeline.Value
import Idealize.ShloMosaic.Lib.ValueIdx

noncomputable section

open scoped BigOperators

namespace Cert.KernelIdeal.LinVal2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's rectangles start at the origin. -/
theorem origin : (![0, 0] : Fin 2 → Nat) = fun _ => 0 := funext fun a => by fin_cases a <;> rfl

/-- The product: entry (r, o) is row r of the left array against row o of the right array. -/
abbrev rowsTimesRows (X : S8192x1024.Idx → EReal) (W : S1024x1024.Idx → EReal) : S8192x1024.Idx → EReal :=
  fun j => ∑ d : Fin 1024, X (ix2 (j 0) d) * W (ix2 (j 1) d)

/-- The product at (r, o), written out. -/
theorem rowsTimesRows_apply (X : S8192x1024.Idx → EReal) (W : S1024x1024.Idx → EReal) (r : Fin 8192) (o : Fin 1024) :
    rowsTimesRows X W (ix2 r o) = ∑ d : Fin 1024, X (ix2 r d) * W (ix2 o d) := rfl

/-- The stored block at any index of the block: row against row of the two loaded blocks. -/
theorem stored_at (x : Vec Ideal S2048x1024 .f32) (w : Vec Ideal S1024x1024 .bf16) (y : S2048x1024.Idx) :
    k2_pay1 (F := Ideal) x w y = ∑ d : Fin 1024, x (ix2 (y 0) d) * w (ix2 (y 1) d) := by
  obtain ⟨r, o, rfl⟩ : ∃ (r : Fin 2048) (o : Fin 1024), y = ix2 r o := ⟨y 0, y 1, eq_ix2 y⟩
  exact Cert.LinPay.k2_pay1_apply x w r o

/-- The printed index maps over the grid: the activations' and the result's row block is the point's
    number, every other block index is zero. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every point writes its result block back. -/
theorem always_written : ∀ t : Fin cfg2.N, (cfg2.win 2).flush t = true :=
  (by decide +kernel : ∀ t : Fin grid2.N, win2_2.flush t = true)

/-- WHAT POINT `t` WRITES BACK is block `t` of the product of the two operand arrays as the region finds them:
    the activations' block sits at the same rows as the result's, the weight's block is the whole weight. -/
theorem block_written (c : Dev nD) (t : Fin cfg2.N) :
    (Lin2.dat V c).flushed 2 t = ((cfg2.win 2).blk t).view.read (Elt Ideal) (rowsTimesRows (V c main_v8) (V c main_v2)) := by
  show (cfg2.win 2).cut (grid2.coords t) ((Lin2.dat V c).after 2 t) = _
  rw [Lin2.after_2]
  unfold Lin2.out2
  rw [View.canon_unit_zero origin]
  simp only [View.ld_unit_zero (S := S2048x1024) origin, View.ld_unit_zero (S := S1024x1024) origin]
  funext j
  show k2_pay1 (F := Ideal) (Lin2.iblk V c 0 t) (Lin2.iblk V c 1 t) ((cfg2.win 2).xinj (grid2.coords t) j)
    = rowsTimesRows (V c main_v8) (V c main_v2) (((cfg2.win 2).blk t).view.emb j)
  refine (stored_at _ _ _).trans ?_
  refine Finset.sum_congr rfl fun d _ => ?_
  obtain ⟨e0, e1, e2, e3, e4, e5⟩ := block_indices t
  have hl : Lin2.iblk V c 0 t (ix2 (((cfg2.win 2).xinj (grid2.coords t) j) 0) d)
      = V c main_v8 (ix2 ((((cfg2.win 2).blk t).view.emb j) 0) d) := by
    show V c main_v8 (((cfg2.win 0).blk t).view.emb _) = _
    refine congrArg (V c main_v8) (funext fun a => Fin.ext ?_)
    match a with
    | ⟨0, _⟩ => show win2_0.index t (0 : Fin 2) * 2048 + 1 * (j 0).val = win2_2.index t (0 : Fin 2) * 2048 + 1 * (j 0).val; omega
    | ⟨1, _⟩ => show win2_0.index t (1 : Fin 2) * 1024 + 1 * d.val = d.val; omega
  have hr : Lin2.iblk V c 1 t (ix2 (((cfg2.win 2).xinj (grid2.coords t) j) 1) d)
      = V c main_v2 (ix2 ((((cfg2.win 2).blk t).view.emb j) 1) d) := by
    show V c main_v2 (((cfg2.win 1).blk t).view.emb _) = _
    refine congrArg (V c main_v2) (funext fun a => Fin.ext ?_)
    match a with
    | ⟨0, _⟩ => show win2_1.index t (0 : Fin 2) * 1024 + 1 * (j 1).val = win2_2.index t (1 : Fin 2) * 1024 + 1 * (j 1).val; omega
    | ⟨1, _⟩ => show win2_1.index t (1 : Fin 2) * 1024 + 1 * d.val = d.val; omega
  rw [hl, hr]

/-- An index of the result is in point `t`'s block iff each coordinate is in the block's range on its axis. -/
theorem mem_block (t : Fin cfg2.N) (i : S8192x1024.Idx) :
    i ∈ ((cfg2.win 2).blk t).view.set ↔ ∀ a : Fin 2, win2_2.index t a * S2048x1024.size a ≤ (i a).val ∧ (i a).val < win2_2.index t a * S2048x1024.size a + S2048x1024.size a := by
  show i ∈ ((View.whole main_v9).slice (win2_2.rect t)).set ↔ _
  rw [View.set_slice_whole, Rect.mem_set_unit]
  exact Iff.rfl

/-- The four row blocks tile the result: row r is in the block of point r / 2048. -/
theorem covered (i : S8192x1024.Idx) : ∃ t : Fin cfg2.N, (cfg2.win 2).flush t = true ∧ i ∈ ((cfg2.win 2).blk t).view.set := by
  have h0 : (i 0).val < 8192 := (i 0).isLt
  have h1 : (i 1).val < 1024 := (i 1).isLt
  obtain ⟨t, ht⟩ : ∃ t : Fin cfg2.N, t.val = (i 0).val / 2048 :=
    ⟨⟨(i 0).val / 2048, by rw [show cfg2.N = 4 from by decide]; omega⟩, rfl⟩
  obtain ⟨-, -, -, -, e4, e5⟩ := block_indices t
  refine ⟨t, always_written t, ?_⟩
  rw [mem_block]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 1024 ≤ (i 1).val ∧ (i 1).val < win2_2.index t (1 : Fin 2) * 1024 + 1024; omega

/-- THE RESULT ARRAY after the region: entry (r, o) is row r of the activations against row o of the weight. -/
theorem final (c : Dev nD) :
    (Lin2.dat V c).arrAt 2 cfg2.N
      = rowsTimesRows (V c main_v8) (V c main_v2) :=
  (Lin2.dat V c).arrAt_eq_of_cover 2 (rowsTimesRows (V c main_v8) (V c main_v2)) (fun t _ => block_written V c t) covered

end Cert.KernelIdeal.LinVal2
-- ==== Proof.KI.PayEq.lean ====
/-
  The attention kernel's stored block, written as the generated payloads composed, is the
  mathematics-shaped restatement: the same straight-line sequence of operations, once cut into
  consecutive pieces and once regrouped by pair of heads and by head.  No arithmetic is involved:
  both sides unfold to the same expression over the loaded blocks, and the shape facts are proofs.
-/
import proofs.«413729_j14688788152931_2_alg».proof.Proof.KI.AttnDef

noncomputable section

namespace Cert.KernelIdeal.AttnDef

open Cert.KernelIdeal Cert.KernelIdeal.Gen
open Idealize.ShloMosaic Idealize.SL.Sem

variable {F : FTy → Type} [FloatOps F]

set_option maxRecDepth 65536 in
set_option maxHeartbeats 4000000 in
/-- The composed payloads and the regrouped restatement are the same expression: every local name
on either side stands for one operation applied to earlier names, and substituting the names
away yields, on both sides, the eight pairs of heads (feature columns from 0, 128, …, 896, each
pair's two heads at columns 0 and 64 inside it) added in order onto the zero block, then the
leading unit axis put back. -/
theorem pay_eq (v1 : Elt F .i32) (v2 : Vec F S1x256x1024 .bf16) (v4 v6 : Vec F S1x2048x1024 .bf16)
    (v8 : Vec F S1024x1024 .bf16) :
    pay v1 v2 v4 v6 v8 = attnBlk v1 v2 v4 v6 v8 := rfl

end Cert.KernelIdeal.AttnDef

end
-- ==== Proof.KI.AttnReads.lean ====
/-
  The attention region's input blocks and its table word, read where the point's rectangle says.

  The grid is 4 batches × 8 query blocks in row-major order: point t is batch t / 8, query block t % 8.
  The query window's block at t is the 256 rows 256·(t % 8) … of batch t / 8; the key and value
  windows' blocks are all 2048 rows of that batch; the output weight's block is the whole weight;
  the table word read is the valid length of that batch.
-/
import proofs.«413729_j14688788152931_2_alg».proof.Proof.KI.Attn
import Idealize.ShloMosaic.Lib.Pipeline.Value
import Idealize.ShloMosaic.Lib.ValueIdx

set_option maxRecDepth 16384

noncomputable section

namespace Cert.KernelIdeal.AttnReads

open Cert.KernelIdeal Cert.KernelIdeal.Gen Idealize.ShloMosaic Idealize.ShloMosaic.ValueIdx
open Idealize.ShloMosaic.TcCoe

/-- The batch of grid point t, and the array row of row s of t's query block. -/
def bOf (t : Fin 32) : Fin 4 := ⟨t.val / 8, by omega⟩
def rowOf (t : Fin 32) (s : Fin 256) : Fin 2048 := ⟨256 * (t.val % 8) + s.val, by omega⟩

variable (V : (c : Dev nD) → (b : Ref sig .tc) → Buf (Elt Ideal) ((c : Thread nD τ).loc b))

/-- The index maps' values at a point, decided over the grid. -/
private theorem idx_facts : ∀ t : Fin grid3.N,
    (cc3_transform_0 (grid3.coords t) 0 = t.val / 8 ∧ cc3_transform_0 (grid3.coords t) 1 = t.val % 8
      ∧ cc3_transform_0 (grid3.coords t) 2 = 0)
    ∧ (cc3_transform_1 (grid3.coords t) 0 = t.val / 8 ∧ cc3_transform_1 (grid3.coords t) 1 = 0
      ∧ cc3_transform_1 (grid3.coords t) 2 = 0)
    ∧ (cc3_transform_2 (grid3.coords t) 0 = t.val / 8 ∧ cc3_transform_2 (grid3.coords t) 1 = 0
      ∧ cc3_transform_2 (grid3.coords t) 2 = 0)
    ∧ (cc3_transform_3 (grid3.coords t) 0 = 0 ∧ cc3_transform_3 (grid3.coords t) 1 = 0)
    ∧ k3_off1 (grid3.coords t) 0 = t.val / 8 := by
  decide +kernel

private theorem read_q_at (a : (pcfg3 (F := Ideal)).Adm) (A : S4x2048x1024.Idx → EReal) (t : Fin (cfg3 a).N)
    (s : Fin 256) (cc : Fin 1024) :
    (((cfg3 a).win 0).blk t).view.read (Elt Ideal) A (ValueIdx.ix3 (0 : Fin 1) s cc)
      = A (ValueIdx.ix3 (bOf t) (rowOf t s) cc) := by
  show A ((((cfg3 a).win 0).blk t).view.emb (ValueIdx.ix3 (0 : Fin 1) s cc)) = _
  obtain ⟨⟨e0, e1, e2⟩, -⟩ := idx_facts t
  refine congrArg A (funext fun ax => Fin.ext ?_)
  match ax with
  | ⟨0, _⟩ => show cc3_transform_0 (grid3.coords t) 0 * 1 + 1 * 0 = t.val / 8; omega
  | ⟨1, _⟩ => show cc3_transform_0 (grid3.coords t) 1 * 256 + 1 * s.val = 256 * (t.val % 8) + s.val; omega
  | ⟨2, _⟩ => show cc3_transform_0 (grid3.coords t) 2 * 1024 + 1 * cc.val = cc.val; omega

/-- Row s of the query block at point t is row 256·(t % 8) + s of batch t / 8. -/
theorem read_q (c : Dev nD) (t : Fin (Attn.cfgM V).N) (s : Fin 256) (cc : Fin 1024) :
    Attn.iblk V c 0 t (ValueIdx.ix3 (0 : Fin 1) s cc)
      = (V c main_v10 : S4x2048x1024.Idx → EReal) (ValueIdx.ix3 (bOf t) (rowOf t s) cc) :=
  read_q_at (Attn.adm V) (V c main_v10) t s cc

private theorem read_k_at (a : (pcfg3 (F := Ideal)).Adm) (A : S4x2048x1024.Idx → EReal) (t : Fin (cfg3 a).N)
    (tt : Fin 2048) (cc : Fin 1024) :
    (((cfg3 a).win 1).blk t).view.read (Elt Ideal) A (ValueIdx.ix3 (0 : Fin 1) tt cc)
      = A (ValueIdx.ix3 (bOf t) tt cc) := by
  show A ((((cfg3 a).win 1).blk t).view.emb (ValueIdx.ix3 (0 : Fin 1) tt cc)) = _
  obtain ⟨e0, e1, e2⟩ := (idx_facts t).2.1
  refine congrArg A (funext fun ax => Fin.ext ?_)
  match ax with
  | ⟨0, _⟩ => show cc3_transform_1 (grid3.coords t) 0 * 1 + 1 * 0 = t.val / 8; omega
  | ⟨1, _⟩ => show cc3_transform_1 (grid3.coords t) 1 * 2048 + 1 * tt.val = tt.val; omega
  | ⟨2, _⟩ => show cc3_transform_1 (grid3.coords t) 2 * 1024 + 1 * cc.val = cc.val; omega

/-- The key block at point t is all the rows of batch t / 8. -/
theorem read_k (c : Dev nD) (t : Fin (Attn.cfgM V).N) (tt : Fin 2048) (cc : Fin 1024) :
    Attn.iblk V c 1 t (ValueIdx.ix3 (0 : Fin 1) tt cc)
      = (V c main_v11 : S4x2048x1024.Idx → EReal) (ValueIdx.ix3 (bOf t) tt cc) :=
  read_k_at (Attn.adm V) (V c main_v11) t tt cc

private theorem read_v_at (a : (pcfg3 (F := Ideal)).Adm) (A : S4x2048x1024.Idx → EReal) (t : Fin (cfg3 a).N)
    (tt : Fin 2048) (cc : Fin 1024) :
    (((cfg3 a).win 2).blk t).view.read (Elt Ideal) A (ValueIdx.ix3 (0 : Fin 1) tt cc)
      = A (ValueIdx.ix3 (bOf t) tt cc) := by
  show A ((((cfg3 a).win 2).blk t).view.emb (ValueIdx.ix3 (0 : Fin 1) tt cc)) = _
  obtain ⟨e0, e1, e2⟩ := (idx_facts t).2.2.1
  refine congrArg A (funext fun ax => Fin.ext ?_)
  match ax with
  | ⟨0, _⟩ => show cc3_transform_2 (grid3.coords t) 0 * 1 + 1 * 0 = t.val / 8; omega
  | ⟨1, _⟩ => show cc3_transform_2 (grid3.coords t) 1 * 2048 + 1 * tt.val = tt.val; omega
  | ⟨2, _⟩ => show cc3_transform_2 (grid3.coords t) 2 * 1024 + 1 * cc.val = cc.val; omega

/-- The value block at point t is all the rows of batch t / 8. -/
theorem read_v (c : Dev nD) (t : Fin (Attn.cfgM V).N) (tt : Fin 2048) (cc : Fin 1024) :
    Attn.iblk V c 2 t (ValueIdx.ix3 (0 : Fin 1) tt cc)
      = (V c main_v12 : S4x2048x1024.Idx → EReal) (ValueIdx.ix3 (bOf t) tt cc) :=
  read_v_at (Attn.adm V) (V c main_v12) t tt cc

private theorem read_wo_at (a : (pcfg3 (F := Ideal)).Adm) (A : S1024x1024.Idx → EReal) (t : Fin (cfg3 a).N)
    (o cc : Fin 1024) :
    (((cfg3 a).win 3).blk t).view.read (Elt Ideal) A (ix2 o cc) = A (ix2 o cc) := by
  show A ((((cfg3 a).win 3).blk t).view.emb (ix2 o cc)) = _
  obtain ⟨e0, e1⟩ := (idx_facts t).2.2.2.1
  refine congrArg A (funext fun ax => Fin.ext ?_)
  match ax with
  | ⟨0, _⟩ => show cc3_transform_3 (grid3.coords t) 0 * 1024 + 1 * o.val = o.val; omega
  | ⟨1, _⟩ => show cc3_transform_3 (grid3.coords t) 1 * 1024 + 1 * cc.val = cc.val; omega

/-- The output weight's block is the whole weight at every point. -/
theorem read_wo (c : Dev nD) (t : Fin (Attn.cfgM V).N) (o cc : Fin 1024) :
    Attn.iblk V c 3 t (ix2 o cc) = (V c main_v3 : S1024x1024.Idx → EReal) (ix2 o cc) :=
  read_wo_at (Attn.adm V) (V c main_v3) t o cc

/-- The table word read at point t is the valid length of batch t / 8. -/
theorem read_word (c : Dev nD) (t : Fin (Attn.cfgM V).N) :
    Attn.word c (grid3.coords t) (Attn.tbl V 0) = (V c main_arg7 : S4.Idx → BitVec 32) (ix1 (bOf t)) := by
  obtain rfl : c = 0 := Subsingleton.elim _ _
  have e := (idx_facts t).2.2.2.2
  unfold Attn.word Attn.tbl
  show (V 0 main_arg7 : S4.Idx → BitVec 32) _ = _
  refine congrArg (V 0 main_arg7 : S4.Idx → BitVec 32) (funext fun ax => Fin.ext ?_)
  match ax with
  | ⟨0, _⟩ => show k3_off1 (grid3.coords t) 0 + 1 * 0 = t.val / 8; omega

end Cert.KernelIdeal.AttnReads

end
-- ==== Proof.Spec.lean ====
/-
  The function both programs compute, index by index, over the extended reals.

  Multi-head attention with a valid-length key mask.  For activations x (batch b, position s, feature d)
  and a square weight w, the projection is  y[b,s,o] = Σ_d x[b,s,d] · w[o,d].  With q, k, v the three
  projections, head h owns the 64 features 64h … 64h+63.  Its score of a query row against key t is the
  dot product of the two 64-wide feature slices times 1/8, replaced by the large negative constant
  where the key is masked (t ≥ valid_len[b]).  A row of scores becomes probabilities by the shifted
  softmax (subtract the row maximum, exponentiate, divide by the row sum).  The head's output is the
  probability-weighted sum of its value slices; the heads are laid side by side again (feature c
  belongs to head c / 64, lane c % 64) and projected by the output weight.

  Everything from the scores on depends on ONE query row, all keys and values of its batch, the
  batch's mask and the output weight: that core is stated over plain accessor functions (`attnR`),
  so that a 4-D layout and a 2-D block layout can both be read into it.
-/
import Idealize.ShloMosaic.PureOps.Ideal
import Idealize.ShloMosaic.Lib.ValueIdx

noncomputable section

namespace Cert.Spec

open Idealize.ShloMosaic Idealize.ShloMosaic.ValueIdx

/-- Activations [4, 2048, 1024], a square weight [1024, 1024], the four valid lengths. -/
abbrev Act : Type := (⟨3, ![4, 2048, 1024]⟩ : Shape).Idx → EReal
abbrev Wt : Type := (⟨2, ![1024, 1024]⟩ : Shape).Idx → EReal
abbrev Lens : Type := (⟨1, ![4]⟩ : Shape).Idx → BitVec 32

/-- Feature column of head `h`, lane `d`; the head and the lane of a feature column. -/
def col (h : Fin 16) (d : Fin 64) : Fin 1024 := ⟨64 * h.val + d.val, by omega⟩
def headOf (c : Fin 1024) : Fin 16 := ⟨c.val / 64, by omega⟩
def laneOf (c : Fin 1024) : Fin 64 := ⟨c.val % 64, by omega⟩

theorem col_headOf_laneOf (c : Fin 1024) : col (headOf c) (laneOf c) = c := by
  apply Fin.ext; simp only [col, headOf, laneOf]; omega

/-- The fill value of masked scores and the score scale 1/8, as the binary words both programs carry. -/
def negBig : EReal := Ideal.ofBits .f32 0xCE6E6B28#32
def eighth : EReal := Ideal.ofBits .f32 0x3E000000#32

/-! ## One query row -/

section Row

variable (qrow : Fin 1024 → EReal) (K Vv : Fin 2048 → Fin 1024 → EReal) (mk : Fin 2048 → BitVec 1)

/-- The masked, scaled score of the row against key `t` in head `h`. -/
def scoreR (h : Fin 16) (t : Fin 2048) : EReal :=
  Scalar.select (mk t) negBig ((∑ d : Fin 64, qrow (col h d) * K t (col h d)) * eighth)

/-- The maximum of a row of scores, folded from -∞. -/
def rowMax (f : Fin 2048 → EReal) : EReal := (Finset.univ : Finset (Fin 2048)).fold max ⊥ f

/-- The shifted exponential, the probability, a head's output lane, the merged feature. -/
def expoR (h : Fin 16) (t : Fin 2048) : EReal :=
  Ideal.exp (scoreR qrow K mk h t - rowMax (fun t' => scoreR qrow K mk h t'))
def probR (h : Fin 16) (t : Fin 2048) : EReal :=
  Ideal.div (expoR qrow K mk h t) (∑ t' : Fin 2048, expoR qrow K mk h t')
def headOutR (h : Fin 16) (d : Fin 64) : EReal :=
  ∑ t : Fin 2048, probR qrow K mk h t * Vv t (col h d)
def mergedR (c : Fin 1024) : EReal := headOutR qrow K Vv mk (headOf c) (laneOf c)

/-- The row's result at output feature `o`: the merged heads through the output weight. -/
def attnR (wo : Fin 1024 → Fin 1024 → EReal) (o : Fin 1024) : EReal :=
  ∑ c : Fin 1024, mergedR qrow K Vv mk c * wo o c

end Row

/-! ## The arrays -/

/-- One entry of a projection: Σ_d x[b,s,d] · w[o,d]; the projection as an array. -/
def projAt (x : Act) (w : Wt) (b : Fin 4) (s : Fin 2048) (o : Fin 1024) : EReal :=
  ∑ d : Fin 1024, x (ix3 b s d) * w (ix2 o d)
def proj (x : Act) (w : Wt) : Act := fun i => projAt x w (i 0) (i 1) (i 2)

/-- Key position `t` is masked for batch `b` when t ≥ valid_len[b] (signed 32-bit compare). -/
def masked (vl : Lens) (b : Fin 4) (t : Fin 2048) : BitVec 1 :=
  IntOp.cmpi .sge (BitVec.ofNat 32 t.val) (vl (ix1 b))

/-- One entry of attention over already projected q, k, v; and the array. -/
def attnAt (q k v : Act) (wo : Wt) (vl : Lens) (b : Fin 4) (s : Fin 2048) (o : Fin 1024) : EReal :=
  attnR (fun c => q (ix3 b s c)) (fun t c => k (ix3 b t c)) (fun t c => v (ix3 b t c)) (masked vl b)
    (fun o' c => wo (ix2 o' c)) o
def attn (q k v : Act) (wo : Wt) (vl : Lens) : Act := fun i => attnAt q k v wo vl (i 0) (i 1) (i 2)

/-- The whole function of the eight arguments. -/
def G (x0 x1 x2 : Act) (wq wk wv wo : Wt) (vl : Lens) : Act :=
  attn (proj x0 wq) (proj x1 wk) (proj x2 wv) wo vl

end Cert.Spec

end
-- ==== Proof.LibBlockSum.lean ====
/- Sums over consecutive blocks, and a running sum as a finite sum.

   A sum over B blocks of R consecutive positions each is the sum over all B · R positions; a sequence that starts at
   `0 + c 0` and adds `c (n + 1)` at each step is, after step n, the sum of `c` over the first n + 1 steps. Both hold in
   any commutative additive monoid (the extended reals are one: regrouping a sum needs no finiteness). -/
import Mathlib.Algebra.BigOperators.Group.Finset.Basic
import Mathlib.Algebra.BigOperators.Fin
import Mathlib.Data.Fintype.BigOperators

namespace Cert.BlockSum

open scoped BigOperators

/-- Position `r` of block `t`, among all `N = B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- The sum over the blocks of the sums over a block's positions is the sum over all positions. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

/-- The block that holds position `n`, and `n`'s place in it. -/
theorem pos_div_mod {B R N : Nat} (hN : B * R = N) (hR : 0 < R) (n : Fin N) :
    ∃ (t : Fin B) (r : Fin R), n = pos hN t r ∧ t.val = n.val / R ∧ r.val = n.val % R := by
  have hn : n.val / R < B := by
    rw [Nat.div_lt_iff_lt_mul hR, hN]
    exact n.isLt
  refine ⟨⟨n.val / R, hn⟩, ⟨n.val % R, Nat.mod_lt _ hR⟩, ?_, rfl, rfl⟩
  apply Fin.ext
  show n.val = R * (n.val / R) + n.val % R
  exact (Nat.div_add_mod n.val R).symm

/-- A running sum from `0 + c 0`, adding `c (n + 1)` at step n + 1, is the sum over the first n + 1 steps. -/
theorem running_sum {M : Type*} [AddCommMonoid M] (c acc : ℕ → M) (h0 : acc 0 = 0 + c 0)
    (hs : ∀ n, acc (n + 1) = acc n + c (n + 1)) (n : ℕ) : acc n = ∑ t ∈ Finset.range (n + 1), c t := by
  induction n with
  | zero =>
    show acc 0 = ∑ t ∈ Finset.range 1, c t
    rw [h0, zero_add, Finset.sum_range_one]
  | succ n ih => rw [hs, ih, Finset.sum_range_succ c (n + 1)]

/-- The same sum over `Fin`: the first B steps as a sum over `Fin B`. -/
theorem sum_range_eq_sum_fin {M : Type*} [AddCommMonoid M] (B : ℕ) (c : ℕ → M) :
    ∑ t ∈ Finset.range B, c t = ∑ t : Fin B, c t.val :=
  Finset.sum_range c

end Cert.BlockSum
-- ==== Proof.BlkVal.lean ====
/-
  The restated attention block, read at one index, is the specification's per-row core.

  Bottom up: each matrix product into a zero block is a finite sum over the contracted coordinate;
  a row maximum and a row sum, put back over the row, are the fold and the sum over the row's
  coordinates; so one head on a block is the probability-weighted sum of its value slice, a pair of
  heads through its 128 weight columns is a 128-term sum, the eight pairs added onto zero are the
  1024-term sum over all feature columns, and the unit leading axis only renames indices.
-/
import proofs.«413729_j14688788152931_2_alg».proof.Proof.Spec
import proofs.«413729_j14688788152931_2_alg».proof.Proof.KI.AttnDef
import proofs.«413729_j14688788152931_2_alg».proof.Proof.LibBlockSum
import Idealize.ShloMosaic.Lib.ValueIdx
import Idealize.ShloMosaic.Lib.ValueLayout
import Idealize.ShloMosaic.Lib.Pipeline.Value
import Idealize.ShloMosaic.PureOps.Ideal.Laws

noncomputable section

namespace Cert.BlkVal

open Cert.KernelIdeal Cert.KernelIdeal.Gen Cert.KernelIdeal.AttnDef Cert.Spec
open Idealize.ShloMosaic Idealize.ShloMosaic.ValueIdx Idealize.SL.Sem

/-! ## The three matrix products at an index -/

theorem lhs_qk_0 (i : S256x2048.Idx) (q : dot_S256x64_S64x2048_S256x2048_1_0_0_1_n_n.contr.Idx) :
    (dot_S256x64_S64x2048_S256x2048_1_0_0_1_n_n.lhsIdx i q 0).val = (i 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
theorem lhs_qk_1 (i : S256x2048.Idx) (q : dot_S256x64_S64x2048_S256x2048_1_0_0_1_n_n.contr.Idx) :
    (dot_S256x64_S64x2048_S256x2048_1_0_0_1_n_n.lhsIdx i q 1).val = (q ⟨0, by decide⟩).val :=
  dot_S256x64_S64x2048_S256x2048_1_0_0_1_n_n.lhsIdx_val_of_single rfl i q
theorem rhs_qk_0 (i : S256x2048.Idx) (q : dot_S256x64_S64x2048_S256x2048_1_0_0_1_n_n.contr.Idx) :
    (dot_S256x64_S64x2048_S256x2048_1_0_0_1_n_n.rhsIdx i q 0).val = (q ⟨0, by decide⟩).val :=
  dot_S256x64_S64x2048_S256x2048_1_0_0_1_n_n.rhsIdx_val_of_single rfl i q
theorem rhs_qk_1 (i : S256x2048.Idx) (q : dot_S256x64_S64x2048_S256x2048_1_0_0_1_n_n.contr.Idx) :
    (dot_S256x64_S64x2048_S256x2048_1_0_0_1_n_n.rhsIdx i q 1).val = (i 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

/-- This product into the zero block, read at (p, r): the sum over the 64 contracted coordinates. -/
theorem mm_qk_apply {φ₁ φ₂ : FTy} (a : FVec Ideal S256x64 φ₁) (b : FVec Ideal S64x2048 φ₂) (p : Fin 256) (r : Fin 2048) :
    matmul dot_S256x64_S64x2048_S256x2048_1_0_0_1_n_n none a b (constant (F := Ideal) S256x2048 .f32 0x00000000#32) (ix2 p r)
      = ∑ c : Fin 64, a (ix2 p c) * b (ix2 c r) := by
  simp only [matmul]
  rw [Ideal.matmul_constant_zero_apply, ← Equiv.sum_comp (contrEquiv1 dot_S256x64_S64x2048_S256x2048_1_0_0_1_n_n 64 rfl rfl).symm]
  refine Finset.sum_congr rfl fun c _ => ?_
  have hc := contrEquiv1_symm_val dot_S256x64_S64x2048_S256x2048_1_0_0_1_n_n 64 rfl rfl c
  have el : dot_S256x64_S64x2048_S256x2048_1_0_0_1_n_n.lhsIdx (ix2 p r) ((contrEquiv1 dot_S256x64_S64x2048_S256x2048_1_0_0_1_n_n 64 rfl rfl).symm c) = ix2 p c := funext fun a => Fin.ext (by
    match a with
    | ⟨0, _⟩ => exact lhs_qk_0 _ _
    | ⟨1, _⟩ => exact (lhs_qk_1 _ _).trans hc)
  have er : dot_S256x64_S64x2048_S256x2048_1_0_0_1_n_n.rhsIdx (ix2 p r) ((contrEquiv1 dot_S256x64_S64x2048_S256x2048_1_0_0_1_n_n 64 rfl rfl).symm c) = ix2 c r := funext fun a => Fin.ext (by
    match a with
    | ⟨0, _⟩ => exact (rhs_qk_0 _ _).trans hc
    | ⟨1, _⟩ => exact rhs_qk_1 _ _)
  rw [el, er]

theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- This product into the zero block, read at (p, r): the sum over the 2048 contracted coordinates. -/
theorem mm_pv_apply {φ₁ φ₂ : FTy} (a : FVec Ideal S256x2048 φ₁) (b : FVec Ideal S2048x64 φ₂) (p : Fin 256) (r : Fin 64) :
    matmul dot_S256x2048_S2048x64_S256x64_1_0_0_1_n_n none a b (constant (F := Ideal) S256x64 .f32 0x00000000#32) (ix2 p r)
      = ∑ c : Fin 2048, a (ix2 p c) * b (ix2 c r) := by
  simp only [matmul]
  rw [Ideal.matmul_constant_zero_apply, ← Equiv.sum_comp (contrEquiv1 dot_S256x2048_S2048x64_S256x64_1_0_0_1_n_n 2048 rfl rfl).symm]
  refine Finset.sum_congr rfl fun c _ => ?_
  have hc := contrEquiv1_symm_val dot_S256x2048_S2048x64_S256x64_1_0_0_1_n_n 2048 rfl rfl c
  have el : dot_S256x2048_S2048x64_S256x64_1_0_0_1_n_n.lhsIdx (ix2 p r) ((contrEquiv1 dot_S256x2048_S2048x64_S256x64_1_0_0_1_n_n 2048 rfl rfl).symm c) = ix2 p c := funext fun a => Fin.ext (by
    match a with
    | ⟨0, _⟩ => exact lhs_pv_0 _ _
    | ⟨1, _⟩ => exact (lhs_pv_1 _ _).trans hc)
  have er : dot_S256x2048_S2048x64_S256x64_1_0_0_1_n_n.rhsIdx (ix2 p r) ((contrEquiv1 dot_S256x2048_S2048x64_S256x64_1_0_0_1_n_n 2048 rfl rfl).symm c) = ix2 c r := funext fun a => Fin.ext (by
    match a with
    | ⟨0, _⟩ => exact (rhs_pv_0 _ _).trans hc
    | ⟨1, _⟩ => exact rhs_pv_1 _ _)
  rw [el, er]

theorem lhs_ow_0 (i : S256x1024.Idx) (q : dot_S256x128_S128x1024_S256x1024_1_0_0_1_n_n.contr.Idx) :
    (dot_S256x128_S128x1024_S256x1024_1_0_0_1_n_n.lhsIdx i q 0).val = (i 0).val := by
  unfold DotDims.lhsIdx
  rw [dif_neg (show ¬(0 : Fin S256x128.rank) ∈ dot_S256x128_S128x1024_S256x1024_1_0_0_1_n_n.lhsBatch by decide), dif_pos (show (0 : Fin S256x128.rank) ∈ dot_S256x128_S128x1024_S256x1024_1_0_0_1_n_n.lhsNonContracting by decide)]
  rfl
theorem lhs_ow_1 (i : S256x1024.Idx) (q : dot_S256x128_S128x1024_S256x1024_1_0_0_1_n_n.contr.Idx) :
    (dot_S256x128_S128x1024_S256x1024_1_0_0_1_n_n.lhsIdx i q 1).val = (q ⟨0, by decide⟩).val :=
  dot_S256x128_S128x1024_S256x1024_1_0_0_1_n_n.lhsIdx_val_of_single rfl i q
theorem rhs_ow_0 (i : S256x1024.Idx) (q : dot_S256x128_S128x1024_S256x1024_1_0_0_1_n_n.contr.Idx) :
    (dot_S256x128_S128x1024_S256x1024_1_0_0_1_n_n.rhsIdx i q 0).val = (q ⟨0, by decide⟩).val :=
  dot_S256x128_S128x1024_S256x1024_1_0_0_1_n_n.rhsIdx_val_of_single rfl i q
theorem rhs_ow_1 (i : S256x1024.Idx) (q : dot_S256x128_S128x1024_S256x1024_1_0_0_1_n_n.contr.Idx) :
    (dot_S256x128_S128x1024_S256x1024_1_0_0_1_n_n.rhsIdx i q 1).val = (i 1).val := by
  unfold DotDims.rhsIdx
  rw [dif_neg (show ¬(1 : Fin S128x1024.rank) ∈ dot_S256x128_S128x1024_S256x1024_1_0_0_1_n_n.rhsBatch by decide), dif_pos (show (1 : Fin S128x1024.rank) ∈ dot_S256x128_S128x1024_S256x1024_1_0_0_1_n_n.rhsNonContracting by decide)]
  rfl

/-- This product into the zero block, read at (p, r): the sum over the 128 contracted coordinates. -/
theorem mm_ow_apply {φ₁ φ₂ : FTy} (a : FVec Ideal S256x128 φ₁) (b : FVec Ideal S128x1024 φ₂) (p : Fin 256) (r : Fin 1024) :
    matmul dot_S256x128_S128x1024_S256x1024_1_0_0_1_n_n none a b (constant (F := Ideal) S256x1024 .f32 0x00000000#32) (ix2 p r)
      = ∑ c : Fin 128, a (ix2 p c) * b (ix2 c r) := by
  simp only [matmul]
  rw [Ideal.matmul_constant_zero_apply, ← Equiv.sum_comp (contrEquiv1 dot_S256x128_S128x1024_S256x1024_1_0_0_1_n_n 128 rfl rfl).symm]
  refine Finset.sum_congr rfl fun c _ => ?_
  have hc := contrEquiv1_symm_val dot_S256x128_S128x1024_S256x1024_1_0_0_1_n_n 128 rfl rfl c
  have el : dot_S256x128_S128x1024_S256x1024_1_0_0_1_n_n.lhsIdx (ix2 p r) ((contrEquiv1 dot_S256x128_S128x1024_S256x1024_1_0_0_1_n_n 128 rfl rfl).symm c) = ix2 p c := funext fun a => Fin.ext (by
    match a with
    | ⟨0, _⟩ => exact lhs_ow_0 _ _
    | ⟨1, _⟩ => exact (lhs_ow_1 _ _).trans hc)
  have er : dot_S256x128_S128x1024_S256x1024_1_0_0_1_n_n.rhsIdx (ix2 p r) ((contrEquiv1 dot_S256x128_S128x1024_S256x1024_1_0_0_1_n_n 128 rfl rfl).symm c) = ix2 c r := funext fun a => Fin.ext (by
    match a with
    | ⟨0, _⟩ => exact (rhs_ow_0 _ _).trans hc
    | ⟨1, _⟩ => exact rhs_ow_1 _ _)
  rw [el, er]

/-! ## Row reductions, put back over the row -/

/-- The word the row maximum folds from is -∞. -/
theorem negInf_word : Ideal.ofBits .f32 0xFF800000#32 = ⊥ := by simp [Ideal.ofBits, Ideal.ieee]

/-- A row index with the lane coordinate put back in is the pair (row, lane). -/
theorem lift_row (s : Fin 256) (t : Fin 2048) : reduces_S256x2048_S256.lift (ix1 s) t = ix2 s t := by
  funext a
  match a with
  | ⟨0, _⟩ => exact Fin.ext rfl
  | ⟨1, _⟩ => exact Fin.ext rfl

/-- The maximum along a row is the fold of max from -∞ over the row's 2048 entries. -/
theorem rowmax_read (x : FVec Ideal S256x2048 .f32) (hφ : FKind.Formats .f32)
    (hacc : (0xFF800000#32 : BitVec 32) = 0xFF800000#32) (s : Fin 256) :
    multiReduction .maximumf [1] S256 x 0xFF800000#32 reduces_S256x2048_S256 hφ hacc (ix1 s)
      = rowMax (fun t => x (ix2 s t)) := by
  refine (Ideal.multiReduction_maximumf_single x 0xFF800000#32 reduces_S256x2048_S256 hφ hacc (ix1 s)).trans ?_
  show (Finset.univ : Finset (Fin 2048)).fold max (Ideal.ofBits .f32 0xFF800000#32) (x ∘ reduces_S256x2048_S256.lift (ix1 s)) = _
  rw [negInf_word]
  unfold rowMax
  congr 1
  funext t
  exact congrArg x (lift_row s t)

/-- The sum along a row is the sum of the row's 2048 entries. -/
theorem rowsum_read (x : FVec Ideal S256x2048 .f32) (hφ : FKind.Formats .f32)
    (hacc : (0x00000000#32 : BitVec 32) = 0x00000000#32) (s : Fin 256) :
    multiReduction .add [1] S256 x 0x00000000#32 reduces_S256x2048_S256 hφ hacc (ix1 s)
      = ∑ t : Fin 2048, x (ix2 s t) := by
  refine (Ideal.multiReduction_add_single x 0x00000000#32 reduces_S256x2048_S256 hφ hacc (ix1 s)).trans ?_
  show ∑ t : Fin 2048, x (reduces_S256x2048_S256.lift (ix1 s) t) = _
  exact Finset.sum_congr rfl fun t _ => congrArg x (lift_row s t)

/-- A per-row value written as a column and spread over the row reads, at (row, lane), the row's value. -/
theorem col_spread_read (v : FVec Ideal S256 .f32) (s : Fin 256) (t : Fin 2048) :
    broadcastTo S256x2048 (shapeCast S256x1 v shapeCasts_S256_S256x1) broadcasts_S256x1_S256x2048 (ix2 s t) = v (ix1 s) := by
  refine (broadcastTo_apply _ broadcasts_S256x1_S256x2048 (ix2 s t) (ix2 s (0 : Fin 1)) fun ax => ?_).trans ?_
  · match ax with
    | ⟨0, _⟩ => rfl
    | ⟨1, _⟩ => rfl
  · exact shapeCast_apply v shapeCasts_S256_S256x1 _ _ (by
      rw [Shape.rowMajor_val_one, Shape.rowMajor_val_two]
      show s.val = s.val * 1 + 0
      omega)

/-- The shifted softmax of a row of 2048 extended reals, at one lane. -/
def smx (x : Fin 2048 → EReal) (t : Fin 2048) : EReal :=
  Ideal.div (Ideal.exp (x t - rowMax x)) (∑ t' : Fin 2048, Ideal.exp (x t' - rowMax x))

/-- The block's softmax chain (row maximum, shift, exponential, row sum, quotient) at (row, lane). -/
theorem softmax_read (x : FVec Ideal S256x2048 .f32) (hφ hφ' : FKind.Formats .f32)
    (hm : (0xFF800000#32 : BitVec 32) = 0xFF800000#32) (hz : (0x00000000#32 : BitVec 32) = 0x00000000#32)
    (s : Fin 256) (t : Fin 2048) :
    divf
      (exp (subf x (broadcastTo S256x2048 (shapeCast S256x1
        (multiReduction .maximumf [1] S256 x 0xFF800000#32 reduces_S256x2048_S256 hφ hm) shapeCasts_S256_S256x1) broadcasts_S256x1_S256x2048)))
      (broadcastTo S256x2048 (shapeCast S256x1
        (multiReduction .add [1] S256
          (exp (subf x (broadcastTo S256x2048 (shapeCast S256x1
            (multiReduction .maximumf [1] S256 x 0xFF800000#32 reduces_S256x2048_S256 hφ hm) shapeCasts_S256_S256x1) broadcasts_S256x1_S256x2048)))
          0x00000000#32 reduces_S256x2048_S256 hφ' hz) shapeCasts_S256_S256x1) broadcasts_S256x1_S256x2048)
      (ix2 s t)
      = smx (fun t' => x (ix2 s t')) t := by
  have hsh : ∀ t' : Fin 2048,
      exp (subf x (broadcastTo S256x2048 (shapeCast S256x1
        (multiReduction .maximumf [1] S256 x 0xFF800000#32 reduces_S256x2048_S256 hφ hm) shapeCasts_S256_S256x1) broadcasts_S256x1_S256x2048)) (ix2 s t')
        = Ideal.exp (x (ix2 s t') - rowMax (fun t'' => x (ix2 s t''))) := fun t' => by
    show Ideal.exp (x (ix2 s t') - _) = _
    rw [col_spread_read, rowmax_read]
  show Ideal.div _ _ = _
  rw [hsh t, col_spread_read, rowsum_read]
  unfold smx
  exact congrArg (Ideal.div _) (Finset.sum_congr rfl fun t' _ => hsh t')

/-! ## One head on a block -/

/-- One head at (row, lane): the softmax of the row of masked scaled scores, weighted over the value slice. -/
theorem headBlk_apply (qs : FVec Ideal S256x64 .bf16) (ks vs : FVec Ideal S2048x64 .bf16) (mk : IVec S256x2048 1)
    (s : Fin 256) (d : Fin 64) :
    headBlk (F := Ideal) qs ks vs mk (ix2 s d)
      = ∑ t : Fin 2048,
          smx (fun t' => Scalar.select (mk (ix2 s t')) negBig ((∑ d' : Fin 64, qs (ix2 s d') * ks (ix2 t' d')) * eighth)) t
            * vs (ix2 t d) := by
  unfold headBlk
  refine (mm_pv_apply _ _ s d).trans ?_
  refine Finset.sum_congr rfl fun t _ => ?_
  refine congrArg (· * vs (ix2 t d)) ?_
  refine (softmax_read _ _ _ _ _ s t).trans ?_
  refine congrArg (fun f => smx f t) (funext fun t' => ?_)
  show Scalar.select (mk (ix2 s t')) (Ideal.ofBits .f32 0xCE6E6B28#32) (_ * Ideal.ofBits .f32 0x3E000000#32) = _
  unfold negBig eighth
  refine congrArg (fun z => Scalar.select (mk (ix2 s t')) (Ideal.ofBits .f32 0xCE6E6B28#32) (z * Ideal.ofBits .f32 0x3E000000#32)) ?_
  refine (mm_qk_apply _ _ s t').trans ?_
  exact Finset.sum_congr rfl fun d' _ => congrArg (qs (ix2 s d') * ·) (transpose_ix2_apply ks _ d' t')

/-! ## A head on the 64-wide slices of a pair -/

/-- A 64-wide slice of a 128-wide slice of a 1024-wide array reads the array at the summed offsets. -/
theorem slice_slice_read {n : Nat} {φ : FTy} (X : FVec Ideal ⟨2, ![n, 1024]⟩ φ) (off o2 : Nat)
    (h1 : (⟨2, ![n, 1024]⟩ : Shape).Slices ![0, off] ⟨2, ![n, 128]⟩)
    (h2 : (⟨2, ![n, 128]⟩ : Shape).Slices ![0, o2] ⟨2, ![n, 64]⟩)
    (a : Fin n) (d : Fin 64) (c : Fin 1024) (hc : c.val = off + o2 + d.val) :
    extractStridedSlice ⟨2, ![n, 64]⟩ ![0, o2] (extractStridedSlice ⟨2, ![n, 128]⟩ ![0, off] X h1) h2 (ix2 a d) = X (ix2 a c) := by
  refine (slice2_axis1_eq o2 _ h2 a d).trans ?_
  exact slice2_axis1_apply off X h1 a _ c (by show c.val = off + (o2 + d.val); omega)

/-- The row's softmax over a head's scores is the specification's probability. -/
theorem smx_scoreR (qrow : Fin 1024 → EReal) (K : Fin 2048 → Fin 1024 → EReal) (mk : Fin 2048 → BitVec 1) (h : Fin 16) (t : Fin 2048) :
    smx (scoreR qrow K mk h) t = probR qrow K mk h t := rfl

/-- One head on the slices at columns off + o2 … off + o2 + 63 of the three blocks is head (off + o2)/64 of the row. -/
theorem head_slice_apply (off o2 : Nat)
    (hq1 : S256x1024.Slices ![0, off] S256x128) (hk1 : S2048x1024.Slices ![0, off] S2048x128)
    (hq2 : S256x128.Slices ![0, o2] S256x64) (hk2 : S2048x128.Slices ![0, o2] S2048x64)
    (v3 : FVec Ideal S256x1024 .bf16) (v5 v7 : FVec Ideal S2048x1024 .bf16) (mk : IVec S256x2048 1)
    (h : Fin 16) (hh : 64 * h.val = off + o2) (s : Fin 256) (d : Fin 64) :
    headBlk (F := Ideal)
        (extractStridedSlice S256x64 ![0, o2] (extractStridedSlice S256x128 ![0, off] v3 hq1) hq2)
        (extractStridedSlice S2048x64 ![0, o2] (extractStridedSlice S2048x128 ![0, off] v5 hk1) hk2)
        (extractStridedSlice S2048x64 ![0, o2] (extractStridedSlice S2048x128 ![0, off] v7 hk1) hk2) mk (ix2 s d)
      = headOutR (fun c => v3 (ix2 s c)) (fun t c => v5 (ix2 t c)) (fun t c => v7 (ix2 t c)) (fun t => mk (ix2 s t)) h d := by
  refine (headBlk_apply _ _ _ mk s d).trans ?_
  unfold headOutR
  refine Finset.sum_congr rfl fun t _ => ?_
  rw [← smx_scoreR]
  have hcol : ∀ d' : Fin 64, (col h d').val = off + o2 + d'.val := fun d' => by
    show 64 * h.val + d'.val = _
    omega
  refine congrArg₂ (fun f a => smx f t * a) (funext fun t' => ?_) (slice_slice_read v7 off o2 hk1 hk2 t d _ (hcol d))
  unfold scoreR
  refine congrArg (fun z => Scalar.select (mk (ix2 s t')) negBig (z * eighth)) ?_
  exact Finset.sum_congr rfl fun d' _ =>
    congrArg₂ (· * ·) (slice_slice_read v3 off o2 hq1 hq2 s d' _ (hcol d')) (slice_slice_read v5 off o2 hk1 hk2 t' d' _ (hcol d'))

/-! ## A pair of heads through its 128 weight columns -/

/-- One pair at (row, output feature): the 128-term sum, over the pair's feature columns, of the merged heads
    times the output weight. -/
theorem packBlk_apply (off : Nat) (hoff : off + 128 ≤ 1024) (hal : off % 128 = 0)
    (hq : S256x1024.Slices ![0, off] S256x128) (hk : S2048x1024.Slices ![0, off] S2048x128)
    (hw : S1024x1024.Slices ![0, off] S1024x128)
    (v3 : FVec Ideal S256x1024 .bf16) (v5 v7 : FVec Ideal S2048x1024 .bf16) (v9 : FVec Ideal S1024x1024 .bf16)
    (mk : IVec S256x2048 1) (s : Fin 256) (o : Fin 1024) :
    packBlk (F := Ideal) off hq hk hw v3 v5 v7 v9 mk (ix2 s o)
      = ∑ j : Fin 128,
          mergedR (fun c => v3 (ix2 s c)) (fun t c => v5 (ix2 t c)) (fun t c => v7 (ix2 t c)) (fun t => mk (ix2 s t))
              ⟨off + j.val, by omega⟩
            * v9 (ix2 o ⟨off + j.val, by omega⟩) := by
  unfold packBlk
  refine (mm_ow_apply _ _ s o).trans ?_
  refine Finset.sum_congr rfl fun j _ => ?_
  refine congrArg₂ (· * ·) ?_ ?_
  · unfold mergedR
    by_cases hj : j.val < 64
    · refine (concatenate_pair_apply_left (t := S256x128) (s₁ := S256x64) (s₂ := S256x64) 1 _ _ concatenates_S256x64_S256x64_S256x128_d1 (ix2 s j) rfl (ix2 s (⟨j.val, hj⟩ : Fin 64)) (fun b => by
        match b with
        | ⟨0, _⟩ => rfl
        | ⟨1, _⟩ => rfl)).trans ?_
      refine (head_slice_apply off 0 hq hk _ _ v3 v5 v7 mk (headOf ⟨off + j.val, by omega⟩)
        (by simp only [headOf]; omega) s (⟨j.val, hj⟩ : Fin 64)).trans ?_
      exact congrArg (headOutR _ _ _ _ _) (Fin.ext (by simp only [laneOf]; omega))
    · refine (concatenate_pair_apply_right (t := S256x128) (s₁ := S256x64) (s₂ := S256x64) 1 _ _ concatenates_S256x64_S256x64_S256x128_d1 (ix2 s j) rfl rfl (ix2 s (⟨j.val - 64, by omega⟩ : Fin 64)) (fun b => by
        match b with
        | ⟨0, _⟩ => exact fun _ => rfl
        | ⟨1, _⟩ => exact fun hne => absurd (Fin.ext rfl) hne) (by
          show (j.val - 64) + 64 = j.val
          omega)).trans ?_
      refine (head_slice_apply off 64 hq hk _ _ v3 v5 v7 mk (headOf ⟨off + j.val, by omega⟩)
        (by simp only [headOf]; omega) s (⟨j.val - 64, by omega⟩ : Fin 64)).trans ?_
      exact congrArg (headOutR _ _ _ _ _) (Fin.ext (by simp only [laneOf]; omega))
  · refine (transpose_ix2_apply _ _ j o).trans ?_
    exact slice2_axis1_apply off v9 hw o j _ rfl

/-! ## The eight pairs added onto zero -/

/-- A sum over 1024 feature columns is the sum of its eight consecutive blocks of 128. -/
theorem sum_eight_blocks (f : Fin 1024 → EReal) :
    (∑ j : Fin 128, f ⟨0 + j.val, by omega⟩)
      + (∑ j : Fin 128, f ⟨128 + j.val, by omega⟩)
      + (∑ j : Fin 128, f ⟨256 + j.val, by omega⟩)
      + (∑ j : Fin 128, f ⟨384 + j.val, by omega⟩)
      + (∑ j : Fin 128, f ⟨512 + j.val, by omega⟩)
      + (∑ j : Fin 128, f ⟨640 + j.val, by omega⟩)
      + (∑ j : Fin 128, f ⟨768 + j.val, by omega⟩)
      + (∑ j : Fin 128, f ⟨896 + j.val, by omega⟩)
      = ∑ c : Fin 1024, f c := by
  rw [← Cert.BlockSum.sum_blocks (B := 8) (R := 128) (by decide : 8 * 128 = 1024) f, Fin.sum_univ_eight]
  rfl

/-- The eight pairs added in order onto the zero block, at (row, output feature): the specification's row core over
    the block's own row, keys, values, mask and output weight. -/
theorem accBlk_apply (v3 : FVec Ideal S256x1024 .bf16) (v5 v7 : FVec Ideal S2048x1024 .bf16) (v9 : FVec Ideal S1024x1024 .bf16)
    (mk : IVec S256x2048 1) (s : Fin 256) (o : Fin 1024) :
    accBlk (F := Ideal) v3 v5 v7 v9 mk (ix2 s o)
      = attnR (fun c => v3 (ix2 s c)) (fun t c => v5 (ix2 t c)) (fun t c => v7 (ix2 t c)) (fun t => mk (ix2 s t))
          (fun o' c => v9 (ix2 o' c)) o := by
  unfold accBlk
  show Ideal.ofBits .f32 0x00000000#32
      + packBlk 0 slices_S256x1024_o0_0_S256x128 slices_S2048x1024_o0_0_S2048x128 slices_S1024x1024_o0_0_S1024x128 v3 v5 v7 v9 mk (ix2 s o)
      + packBlk 128 slices_S256x1024_o0_128_S256x128 slices_S2048x1024_o0_128_S2048x128 slices_S1024x1024_o0_128_S1024x128 v3 v5 v7 v9 mk (ix2 s o)
      + packBlk 256 slices_S256x1024_o0_256_S256x128 slices_S2048x1024_o0_256_S2048x128 slices_S1024x1024_o0_256_S1024x128 v3 v5 v7 v9 mk (ix2 s o)
      + packBlk 384 slices_S256x1024_o0_384_S256x128 slices_S2048x1024_o0_384_S2048x128 slices_S1024x1024_o0_384_S1024x128 v3 v5 v7 v9 mk (ix2 s o)
      + packBlk 512 slices_S256x1024_o0_512_S256x128 slices_S2048x1024_o0_512_S2048x128 slices_S1024x1024_o0_512_S1024x128 v3 v5 v7 v9 mk (ix2 s o)
      + packBlk 640 slices_S256x1024_o0_640_S256x128 slices_S2048x1024_o0_640_S2048x128 slices_S1024x1024_o0_640_S1024x128 v3 v5 v7 v9 mk (ix2 s o)
      + packBlk 768 slices_S256x1024_o0_768_S256x128 slices_S2048x1024_o0_768_S2048x128 slices_S1024x1024_o0_768_S1024x128 v3 v5 v7 v9 mk (ix2 s o)
      + packBlk 896 slices_S256x1024_o0_896_S256x128 slices_S2048x1024_o0_896_S2048x128 slices_S1024x1024_o0_896_S1024x128 v3 v5 v7 v9 mk (ix2 s o) = _
  rw [Ideal.ofBits_zero_f32, zero_add,
    packBlk_apply 0 (by decide) (by decide),
    packBlk_apply 128 (by decide) (by decide),
    packBlk_apply 256 (by decide) (by decide),
    packBlk_apply 384 (by decide) (by decide),
    packBlk_apply 512 (by decide) (by decide),
    packBlk_apply 640 (by decide) (by decide),
    packBlk_apply 768 (by decide) (by decide),
    packBlk_apply 896 (by decide) (by decide)]
  unfold attnR
  exact sum_eight_blocks (fun c => mergedR (fun c => v3 (ix2 s c)) (fun t c => v5 (ix2 t c)) (fun t c => v7 (ix2 t c))
    (fun t => mk (ix2 s t)) c * v9 (ix2 o c))

/-! ## The block with its unit leading axis -/

/-- The block's mask at (row, key position): the position, as a 32-bit word, compared signed with the valid length. -/
theorem maskBlk_apply (v1 : BitVec 32) (s : Fin 256) (t : Fin 2048) :
    maskBlk (F := Ideal) v1 (ix2 s t) = IntOp.cmpi .sge (BitVec.ofNat 32 t.val) v1 := by
  unfold maskBlk
  show IntOp.cmpi .sge (iota .tc S256x2048 32 [1] iota_S256x2048_d1_w32 (ix2 s t)) v1 = _
  rw [iota_single_apply]

/-- The restated block at (0, row, output feature) is the specification's row core over the loaded blocks read
    with their unit leading axis. -/
theorem attnBlk_apply (v1 : Elt Ideal .i32) (v2 : Vec Ideal S1x256x1024 .bf16) (v4 v6 : Vec Ideal S1x2048x1024 .bf16)
    (v8 : Vec Ideal S1024x1024 .bf16) (s : Fin 256) (o : Fin 1024) :
    attnBlk (F := Ideal) v1 v2 v4 v6 v8 (ix3 (0 : Fin 1) s o)
      = attnR (fun c => v2 (ix3 (0 : Fin 1) s c)) (fun t c => v4 (ix3 (0 : Fin 1) t c)) (fun t c => v6 (ix3 (0 : Fin 1) t c))
          (fun t => IntOp.cmpi .sge (BitVec.ofNat 32 t.val) v1) (fun o' c => v8 (ix2 o' c)) o := by
  unfold attnBlk
  refine (shapeCast_ab_1ab_apply _ shapeCasts_S256x1024_S1x256x1024 (0 : Fin 1) s o).trans ?_
  refine (accBlk_apply _ _ _ _ _ s o).trans ?_
  have e3 : (fun c : Fin 1024 => shapeCast S256x1024 v2 shapeCasts_S1x256x1024_S256x1024 (ix2 s c)) = fun c => v2 (ix3 (0 : Fin 1) s c) :=
    funext fun c => shapeCast_1ab_ab_apply v2 _ s c
  have e5 : (fun (t : Fin 2048) (c : Fin 1024) => shapeCast S2048x1024 v4 shapeCasts_S1x2048x1024_S2048x1024 (ix2 t c)) = fun t c => v4 (ix3 (0 : Fin 1) t c) :=
    funext fun t => funext fun c => shapeCast_1ab_ab_apply v4 _ t c
  have e7 : (fun (t : Fin 2048) (c : Fin 1024) => shapeCast S2048x1024 v6 shapeCasts_S1x2048x1024_S2048x1024 (ix2 t c)) = fun t c => v6 (ix3 (0 : Fin 1) t c) :=
    funext fun t => funext fun c => shapeCast_1ab_ab_apply v6 _ t c
  have e9 : (fun (o' : Fin 1024) (c : Fin 1024) => shapeCast S1024x1024 v8 shapeCasts_S1024x1024_S1024x1024 (ix2 o' c)) = fun o' c => v8 (ix2 o' c) :=
    funext fun o' => funext fun c => congrFun (shapeCast_self v8 _) (ix2 o' c)
  have em : (fun t : Fin 2048 => maskBlk (F := Ideal) v1 (ix2 s t)) = fun t => IntOp.cmpi .sge (BitVec.ofNat 32 t.val) v1 :=
    funext fun t => maskBlk_apply v1 s t
  rw [e3, e5, e7, e9, em]

end Cert.BlkVal

end
-- ==== Proof.KI.AttnVal.lean ====
/-
  Region 3's result array, entry by entry.

  The grid is 4 batches × 8 query blocks, row-major: point t has batch t / 8 and query block t % 8.  The result
  window's block at t is rows 256·(t % 8) … 256·(t % 8) + 255 of batch t / 8, all 1024 features.  What the point
  writes back there is the block function of the batch's valid-length word, the query block, the batch's keys and
  values and the output weight; read at an entry of the block, with every input block read where its own rectangle
  places it in its array, that is the specification's attention at the entry's place in the array.  Every row of
  every batch lies in exactly the block of point (batch, row / 256), and every point writes back, so the array
  ends holding the specification's attention of the arrays the region was entered with.
-/
import proofs.«413729_j14688788152931_2_alg».proof.Proof.KI.Attn
import proofs.«413729_j14688788152931_2_alg».proof.Proof.KI.PayEq
import proofs.«413729_j14688788152931_2_alg».proof.Proof.KI.AttnReads
import proofs.«413729_j14688788152931_2_alg».proof.Proof.BlkVal
import proofs.«413729_j14688788152931_2_alg».proof.Proof.Spec
import Idealize.ShloMosaic.Lib.Pipeline.Value
import Idealize.ShloMosaic.Lib.ValueIdx

set_option maxRecDepth 16384

noncomputable section

namespace Cert.KernelIdeal.AttnVal

open Cert.KernelIdeal Cert.KernelIdeal.Gen Cert.KernelIdeal.AttnDef Cert.KernelIdeal.AttnReads Cert.Spec
open Idealize.ShloMosaic Idealize.ShloMosaic.TcCoe Idealize.SL.Sem
open Idealize.ShloMosaic.Pipeline (Dat)

/-! ## The grid -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The result window's block index at point t is (t / 8, t % 8, 0), over the 32 points. -/
theorem result_index : ∀ t : Fin grid3.N, cc3_transform_4 (grid3.coords t) = ![t.val / 8, t.val % 8, 0] := by
  decide +kernel

theorem points (a : (pcfg3 (F := Ideal)).Adm) : (cfg3 a).N = 32 := N_3

/-- Consecutive points have different result blocks (or the point is the last). -/
theorem next_differs : ∀ t : Fin grid3.N, (decide (t.val + 1 = grid3.N) || decide (∃ h : t.val + 1 < grid3.N,
    cc3_transform_4 (grid3.coords ⟨t.val + 1, h⟩) ≠ cc3_transform_4 (grid3.coords t))) = true := by decide +kernel

/-- So the result window is written back at every point, whatever the table holds. -/
theorem written (a : (pcfg3 (F := Ideal)).Adm) (t : Fin (cfg3 a).N) : ((cfg3 a).win 4).flush t = true := next_differs t

/-- An index of the result array is in point t's block iff each coordinate is in the block's range on its axis. -/
theorem mem_block (a : (pcfg3 (F := Ideal)).Adm) (t : Fin (cfg3 a).N) (i : S4x2048x1024.Idx) :
    i ∈ (((cfg3 a).win 4).blk t).view.set ↔ ∀ ax : Fin 3, cc3_transform_4 (grid3.coords t) ax * S1x256x1024.size ax ≤ (i ax).val
      ∧ (i ax).val < cc3_transform_4 (grid3.coords t) ax * S1x256x1024.size ax + S1x256x1024.size ax := by
  have h : (((cfg3 a).win 4).blk t).view.set = (((cfg3 a).win 4).rect t).set := View.set_slice_whole main_v13 _
  rw [h]
  exact Rect.mem_set_unit

/-- Entry (0, s, o) of point t's result block sits at (t / 8, 256·(t % 8) + s, o) of the result array:
    on each axis, block index × block size + the coordinate inside the block. -/
theorem place (a : (pcfg3 (F := Ideal)).Adm) (t : Fin (cfg3 a).N) (s : Fin 256) (o : Fin 1024) :
    (((cfg3 a).win 4).blk t).view.emb (ValueIdx.ix3 (0 : Fin 1) s o) = ValueIdx.ix3 (bOf t) (rowOf t s) o := by
  have e := result_index t
  funext ax; apply Fin.ext
  match ax with
  | ⟨0, _⟩ => show cc3_transform_4 (grid3.coords t) (0 : Fin 3) * 1 + 1 * 0 = t.val / 8; rw [e]; show t.val / 8 * 1 + 1 * 0 = _; omega
  | ⟨1, _⟩ => show cc3_transform_4 (grid3.coords t) (1 : Fin 3) * 256 + 1 * s.val = 256 * (t.val % 8) + s.val; rw [e]; show t.val % 8 * 256 + 1 * s.val = _; omega
  | ⟨2, _⟩ => show cc3_transform_4 (grid3.coords t) (2 : Fin 3) * 1024 + 1 * o.val = o.val; rw [e]; show 0 * 1024 + 1 * o.val = _; omega

/-! ## What a point writes back -/

variable (V : (c : Dev nD) → (b : Ref sig .tc) → Buf (Elt Ideal) ((c : Thread nD τ).loc b)) (c : Dev nD)

/-- The specification's attention of the arrays the region is entered with, as contents of the result array. -/
abbrev G : Buf (Elt Ideal) ((((Attn.cfgM V).win 4).arr.view.loc (c : Thread nD τ))) :=
  Cert.Spec.attn (V c main_v10) (V c main_v11) (V c main_v12) (V c main_v3) (V c main_arg7)

/-- The body's one store through the whole result buffer, of the payload of four whole-buffer loads, leaves the
    block function of the word and the four buffers. -/
theorem stored (i : grid3.Coords) (xt : Attn.TbBuf (F := Ideal) c) (x0 : Vec Ideal S1x256x1024 .bf16) (x1 x2 : Vec Ideal S1x2048x1024 .bf16)
    (x3 : Vec Ideal S1024x1024 .bf16) :
    Attn.out4 c i xt x0 x1 x2 x3 = attnBlk (Attn.word c i xt) x0 x1 x2 x3 := by
  unfold Attn.out4
  rw [View.canon_unit_zero zeros3, View.ld_unit_zero (S := S1x256x1024) zeros3, View.ld_unit_zero (S := S1x2048x1024) zeros3,
    View.ld_unit_zero (S := S1x2048x1024) zeros3, View.ld_unit_zero (S := S1024x1024) zeros2, pay_eq]

/-- One row's attention depends on its five accessor functions only through their values. -/
theorem attnR_congr {q q' : Fin 1024 → EReal} {K K' W W' : Fin 2048 → Fin 1024 → EReal} {mk mk' : Fin 2048 → BitVec 1}
    {wo wo' : Fin 1024 → Fin 1024 → EReal} (hq : ∀ cc, q cc = q' cc) (hK : ∀ tt cc, K tt cc = K' tt cc) (hW : ∀ tt cc, W tt cc = W' tt cc)
    (hm : ∀ tt, mk tt = mk' tt) (hw : ∀ o cc, wo o cc = wo' o cc) (o : Fin 1024) :
    attnR q K W mk wo o = attnR q' K' W' mk' wo' o := by
  obtain rfl : q = q' := funext hq
  obtain rfl : K = K' := funext fun tt => funext (hK tt)
  obtain rfl : W = W' := funext fun tt => funext (hW tt)
  obtain rfl : mk = mk' := funext hm
  obtain rfl : wo = wo' := funext fun o => funext (hw o)
  rfl

/-- WHAT POINT t WRITES BACK is block t of the specification's attention: at entry (0, s, o) the block function
    is one row's attention of the blocks' accessors; the query block's row s is row 256·(t % 8) + s of batch t / 8,
    the keys, values and mask word are the batch's, the weight is the whole weight; and the entry's place in the
    array is (t / 8, 256·(t % 8) + s, o), where the specification reads the same row's attention. -/
theorem flushed_eq (t : Fin (Attn.cfgM V).N) :
    (Attn.dat V c).flushed 4 t = (((Attn.cfgM V).win 4).blk t).view.read (Elt Ideal) (G V c) := by
  show ((Attn.cfgM V).win 4).cut (grid3.coords t) ((Attn.dat V c).after 4 t) = _
  have h : (Attn.dat V c).after 4 t = attnBlk (Attn.word c (grid3.coords t) (Attn.tbl V 0)) (Attn.iblk V c 0 t) (Attn.iblk V c 1 t)
      (Attn.iblk V c 2 t) (Attn.iblk V c 3 t) :=
    (Attn.after_4 V c t).trans (stored c _ _ _ _ _ _)
  rw [h]
  refine funext fun (j : S1x256x1024.Idx) => ?_
  obtain ⟨s, o, rfl⟩ : ∃ (s : Fin 256) (o : Fin 1024), j = ValueIdx.ix3 (0 : Fin 1) s o :=
    ⟨j 1, j 2, by rw [ValueIdx.eq_ix3 j]; exact congrArg (fun z : Fin 1 => ValueIdx.ix3 z (j 1) (j 2)) (Subsingleton.elim (α := Fin 1) (j 0) 0)⟩
  show attnBlk (F := Ideal) _ _ _ _ _ (ValueIdx.ix3 (0 : Fin 1) s o) = G V c ((((Attn.cfgM V).win 4).blk t).view.emb (ValueIdx.ix3 (0 : Fin 1) s o))
  rw [place (Attn.adm V) t s o]
  refine (Cert.BlkVal.attnBlk_apply _ _ _ _ _ s o).trans ?_
  show _ = attnR (fun cc => (V c main_v10 : S4x2048x1024.Idx → EReal) (ValueIdx.ix3 (bOf t) (rowOf t s) cc))
      (fun tt cc => (V c main_v11 : S4x2048x1024.Idx → EReal) (ValueIdx.ix3 (bOf t) tt cc))
      (fun tt cc => (V c main_v12 : S4x2048x1024.Idx → EReal) (ValueIdx.ix3 (bOf t) tt cc))
      (Spec.masked (V c main_arg7) (bOf t))
      (fun o' cc => (V c main_v3 : S1024x1024.Idx → EReal) (ValueIdx.ix2 o' cc)) o
  exact attnR_congr (read_q V c t s) (read_k V c t) (read_v V c t)
    (fun tt => congrArg (IntOp.cmpi .sge (BitVec.ofNat 32 tt.val)) (read_word V c t)) (read_wo V c t) o

/-! ## The whole array -/

/-- Row s' of batch b lies in the block of point (b, s' / 256), which writes back. -/
theorem cover (a : (pcfg3 (F := Ideal)).Adm) (i : S4x2048x1024.Idx) :
    ∃ t : Fin (cfg3 a).N, ((cfg3 a).win 4).flush t = true ∧ i ∈ (((cfg3 a).win 4).blk t).view.set := by
  have h0 : (i 0).val < 4 := (i 0).isLt
  have h1 : (i 1).val < 2048 := (i 1).isLt
  have h2 : (i 2).val < 1024 := (i 2).isLt
  have hN : grid3.N = 32 := N_3
  have hN' : (cfg3 a).N = 32 := N_3
  refine ⟨⟨8 * (i 0).val + (i 1).val / 256, by omega⟩, written a _, ?_⟩
  rw [mem_block]
  have e := result_index ⟨8 * (i 0).val + (i 1).val / 256, by omega⟩
  rw [e]
  intro ax
  match ax with
  | ⟨0, _⟩ => show (8 * (i 0).val + (i 1).val / 256) / 8 * 1 ≤ (i 0).val ∧ (i 0).val < (8 * (i 0).val + (i 1).val / 256) / 8 * 1 + 1; omega
  | ⟨1, _⟩ => show (8 * (i 0).val + (i 1).val / 256) % 8 * 256 ≤ (i 1).val ∧ (i 1).val < (8 * (i 0).val + (i 1).val / 256) % 8 * 256 + 256; omega
  | ⟨2, _⟩ => show 0 * 1024 ≤ (i 2).val ∧ (i 2).val < 0 * 1024 + 1024; omega

/-- WHAT REGION 3's WRITE-BACKS LEAVE in the result array is the specification's attention of the region's entry
    arrays, entry by entry. -/
theorem final :
    (Attn.dat V c).arrAt 4 (Attn.cfgM V).N = Cert.Spec.attn (V c main_v10) (V c main_v11) (V c main_v12) (V c main_v3) (V c main_arg7) :=
  (Attn.dat V c).arrAt_eq_of_cover 4 (G V c) (fun t _ => flushed_eq V c t) (cover (Attn.adm V))

end Cert.KernelIdeal.AttnVal

end
-- ==== Proof.LibReshapeRows.lean ====
/-
  A rank-3 array [m, a, b] reshaped to the rank-2 array [m·a, b] of its rows, and back, read at one index.

  The row-major position of (k, i, j) in [m, a, b] is (k·a + i)·b + j, which is the position of row k·a + i,
  column j of [m·a, b]: so the reshaped matrix at (r, j) is the array at (r / a, r % a, j), and the
  array reshaped back at (k, i, j) is the matrix at (k·a + i, j).
-/
import Idealize.ShloMosaic.Lib.ValueLayout

namespace Idealize.ShloMosaic.ValueIdx

open Idealize.ShloMosaic

variable {α : Type}

/-- The rows of an `[m, a, b]` array as an `[n, b]` matrix (n = m·a): entry (r, j) is the array's entry (r / a, r % a, j). -/
theorem shapeCast_mab_rows_apply {m a b n : ℕ} (x : (⟨3, ![m, a, b]⟩ : Shape).Idx → α)
    (h : (⟨3, ![m, a, b]⟩ : Shape).ShapeCasts ⟨2, ![n, b]⟩) (k : Fin m) (i : Fin a) (r : Fin n) (j : Fin b)
    (hr : r.val = k.val * a + i.val) :
    shapeCast ⟨2, ![n, b]⟩ x h (ix2 r j) = x (ix3 k i j) :=
  shapeCast_apply x h _ _ (by
    rw [Shape.rowMajor_val_three, Shape.rowMajor_val_two]
    show (k.val * a + i.val) * b + j.val = r.val * b + j.val
    rw [hr])

/-- An `[n, b]` matrix (n = m·a) as an `[m, a, b]` array: entry (k, i, j) is the matrix's entry (k·a + i, j). -/
theorem shapeCast_rows_mab_apply {m a b n : ℕ} (x : (⟨2, ![n, b]⟩ : Shape).Idx → α)
    (h : (⟨2, ![n, b]⟩ : Shape).ShapeCasts ⟨3, ![m, a, b]⟩) (k : Fin m) (i : Fin a) (r : Fin n) (j : Fin b)
    (hr : r.val = k.val * a + i.val) :
    shapeCast ⟨3, ![m, a, b]⟩ x h (ix3 k i j) = x (ix2 r j) :=
  shapeCast_apply x h _ _ (by
    rw [Shape.rowMajor_val_three, Shape.rowMajor_val_two]
    show r.val * b + j.val = (k.val * a + i.val) * b + j.val
    rw [hr])

end Idealize.ShloMosaic.ValueIdx
-- ==== Proof.ProjVal.lean ====
/-
  The projection, computed through the matrix of rows.

  The activations [4, 2048, 1024] are reshaped to the matrix [8192, 1024] whose row 2048·b + s is the
  activation row (b, s); each row is contracted with a row of the weight; the products' matrix is
  reshaped back to [4, 2048, 1024].  Entry (b, s, o) of the result is Σ_d x[b,s,d] · w[o,d], the
  specification's projection.  A narrowing format change is the identity on the extended reals.
-/
import proofs.«413729_j14688788152931_2_alg».proof.Proof.Spec
import proofs.«413729_j14688788152931_2_alg».proof.Proof.LibReshapeRows
import proofs.«413729_j14688788152931_2_alg».proof.Proof.Gen.KernelIdeal
import Idealize.ShloMosaic.Lib.ValueIdx

noncomputable section

namespace Cert.ProjVal

open Cert.KernelIdeal Cert.KernelIdeal.Gen Cert.Spec Idealize.ShloMosaic Idealize.ShloMosaic.ValueIdx

/-- Row 2048·b + s of the matrix of rows. -/
private abbrev rowIx (b : Fin 4) (s : Fin 2048) : Fin 8192 := ⟨b.val * 2048 + s.val, by omega⟩

/-- The matrix of row products, reshaped back, is the projection. -/
theorem proj_eq (x : S4x2048x1024.Idx → EReal) (w : S1024x1024.Idx → EReal) (P : S8192x1024.Idx → EReal)
    (hP : P = fun j => ∑ d : Fin 1024,
      (shapeCast S8192x1024 x shapeCasts_S4x2048x1024_S8192x1024) (ix2 (j 0) d) * w (ix2 (j 1) d)) :
    shapeCast S4x2048x1024 P shapeCasts_S8192x1024_S4x2048x1024 = Cert.Spec.proj x w := by
  subst hP
  funext i
  obtain ⟨b, s, o, rfl⟩ : ∃ (b : Fin 4) (s : Fin 2048) (o : Fin 1024), i = ix3 b s o :=
    ⟨i 0, i 1, i 2, eq_ix3 i⟩
  refine (shapeCast_rows_mab_apply _ shapeCasts_S8192x1024_S4x2048x1024 b s (rowIx b s) o rfl).trans ?_
  show ∑ d : Fin 1024,
      (shapeCast S8192x1024 x shapeCasts_S4x2048x1024_S8192x1024) (ix2 (rowIx b s) d) * w (ix2 o d)
    = ∑ d : Fin 1024, x (ix3 b s d) * w (ix2 o d)
  refine Finset.sum_congr rfl fun d _ => ?_
  rw [shapeCast_mab_rows_apply x shapeCasts_S4x2048x1024_S8192x1024 b s (rowIx b s) d rfl]

/-- Narrowing the weight's format changes nothing on the extended reals. -/
theorem truncf_id (w : FVec Ideal S1024x1024 .f32) :
    (truncf .bf16 w bitsLt_bf16_f32 : FVec Ideal S1024x1024 .bf16) = w :=
  funext fun i => truncf_apply w bitsLt_bf16_f32 i

end Cert.ProjVal

end
-- ==== Proof.KI.Chain.lean ====
/-
  The result buffer of the idealized kernel program, read back through @main to the launch memory.

  Region 3 leaves in the result the specification's attention of its entry arrays (the three
  projections reshaped to [batch, position, feature], the converted output weight, the valid lengths).
  Each projection is what a linear region left, reshaped back; a linear region's result is the row
  matrix of the reshaped activations times the converted weight, transposed; the reshapes and the
  format conversions are host operations of the stretches between the regions, and no later item
  overwrites what an earlier one wrote.  Read entry by entry, the three projections are the
  specification's, and the whole is its function `G` of the eight arguments.
-/
import proofs.«413729_j14688788152931_2_alg».proof.Proof.KI.Run
import proofs.«413729_j14688788152931_2_alg».proof.Proof.KI.HostVals
import proofs.«413729_j14688788152931_2_alg».proof.Proof.KI.LinVal0
import proofs.«413729_j14688788152931_2_alg».proof.Proof.KI.LinVal1
import proofs.«413729_j14688788152931_2_alg».proof.Proof.KI.LinVal2
import proofs.«413729_j14688788152931_2_alg».proof.Proof.KI.AttnVal
import proofs.«413729_j14688788152931_2_alg».proof.Proof.ProjVal
import proofs.«413729_j14688788152931_2_alg».proof.Proof.Spec
import proofs.«413729_j14688788152931_2_alg».proof.Proof.Gen.KernelIdeal.Regions

noncomputable section

namespace Cert.KernelIdeal.Chain

open Cert.KernelIdeal Cert.KernelIdeal.Gen Cert.KernelIdeal.Run
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## A buffer an item does not write keeps its contents -/

theorem s1 (c : Dev nD) (b : Ref sig .tc) (h : b ∉ hostOps0_W) : W1 m ρ c (Proc.devRef .tc b) = W0 m ρ c (Proc.devRef .tc b) :=
  StableHlo.after_of_writes_sub hostOps0 _ hostOps0_writes h
theorem s3 (c : Dev nD) (b : Ref sig .tc) (h : b ∉ hostOps1_W) : W3 m ρ c (Proc.devRef .tc b) = W2 m ρ c (Proc.devRef .tc b) :=
  StableHlo.after_of_writes_sub hostOps1 _ hostOps1_writes h
theorem s5 (c : Dev nD) (b : Ref sig .tc) (h : b ∉ hostOps2_W) : W5 m ρ c (Proc.devRef .tc b) = W4 m ρ c (Proc.devRef .tc b) :=
  StableHlo.after_of_writes_sub hostOps2 _ hostOps2_writes h
theorem s7 (c : Dev nD) (b : Ref sig .tc) (h : b ∉ hostOps3_W) : W7 m ρ c (Proc.devRef .tc b) = W6 m ρ c (Proc.devRef .tc b) :=
  StableHlo.after_of_writes_sub hostOps3 _ hostOps3_writes h

/-- The launch contents. -/
theorem w0 (c : Dev nD) (b : Ref sig .tc) : W0 m ρ c (Proc.devRef .tc b) = m ((c : Thread nD τ).loc b) := rfl

/-! ## The converted weights (the conversion is the identity on extended reals) and the valid lengths at region 3's entry -/

theorem w1_v0 (c : Dev nD) : W1 m ρ c (Proc.devRef .tc main_v0) = W0 m ρ c (Proc.devRef .tc main_arg3) :=
  (HostVals.ops0_v0 (W0 m ρ c)).trans (ProjVal.truncf_id _)
theorem w1_v1 (c : Dev nD) : W1 m ρ c (Proc.devRef .tc main_v1) = W0 m ρ c (Proc.devRef .tc main_arg4) :=
  (HostVals.ops0_v1 (W0 m ρ c)).trans (ProjVal.truncf_id _)
theorem w1_v2 (c : Dev nD) : W1 m ρ c (Proc.devRef .tc main_v2) = W0 m ρ c (Proc.devRef .tc main_arg5) :=
  (HostVals.ops0_v2 (W0 m ρ c)).trans (ProjVal.truncf_id _)
theorem w1_v3 (c : Dev nD) : W1 m ρ c (Proc.devRef .tc main_v3) = W0 m ρ c (Proc.devRef .tc main_arg6) :=
  (HostVals.ops0_v3 (W0 m ρ c)).trans (ProjVal.truncf_id _)

/-- The output weight at region 3's entry is the argument (the conversion is the identity on extended reals). -/
theorem wo_eq (c : Dev nD) : V7 m ρ c main_v3 = m ((c : Thread nD τ).loc main_arg6) :=
  (s7 m ρ c main_v3 (by decide)).trans <| (W6_of_ne m ρ c main_v3 (by decide)).trans <| (s5 m ρ c main_v3 (by decide)).trans <|
    (W4_of_ne m ρ c main_v3 (by decide)).trans <| (s3 m ρ c main_v3 (by decide)).trans <| (W2_of_ne m ρ c main_v3 (by decide)).trans <|
    (w1_v3 m ρ c).trans (w0 m ρ c main_arg6)

/-- The valid lengths at region 3's entry are the argument. -/
theorem vl_eq (c : Dev nD) : V7 m ρ c main_arg7 = m ((c : Thread nD τ).loc main_arg7) :=
  (s7 m ρ c main_arg7 (by decide)).trans <| (W6_of_ne m ρ c main_arg7 (by decide)).trans <| (s5 m ρ c main_arg7 (by decide)).trans <|
    (W4_of_ne m ρ c main_arg7 (by decide)).trans <| (s3 m ρ c main_arg7 (by decide)).trans <| (W2_of_ne m ρ c main_arg7 (by decide)).trans <|
    (s1 m ρ c main_arg7 (by decide)).trans (w0 m ρ c main_arg7)

/-! ## The three projections -/

/-- Queries: region 0's result, reshaped by the last stretch. -/
theorem q_eq (c : Dev nD) : V7 m ρ c main_v10 = Cert.Spec.proj (m ((c : Thread nD τ).loc main_arg0)) (m ((c : Thread nD τ).loc main_arg3)) := by
  have e5 : W6 m ρ c (Proc.devRef .tc main_v5) = (Lin0.dat (V1 m ρ) c).arrAt 2 cfg0.N :=
    (W6_of_ne m ρ c main_v5 (by decide)).trans <| (s5 m ρ c main_v5 (by decide)).trans <| (W4_of_ne m ρ c main_v5 (by decide)).trans <|
      (s3 m ρ c main_v5 (by decide)).trans (W2_arr m ρ c 2)
  have e4 : V1 m ρ c main_v4 = shapeCast S8192x1024 (W0 m ρ c (Proc.devRef .tc main_arg0)) shapeCasts_S4x2048x1024_S8192x1024 :=
    HostVals.ops0_v4 (W0 m ρ c)
  have e0 : V1 m ρ c main_v0 = W0 m ρ c (Proc.devRef .tc main_arg3) := w1_v0 m ρ c
  refine (HostVals.ops3_v10 (W6 m ρ c)).trans ?_
  rw [e5, LinVal0.final (V1 m ρ) c, e4, e0]
  exact ProjVal.proj_eq _ _ _ rfl

/-- Keys: region 1's result, reshaped by the last stretch. -/
theorem k_eq (c : Dev nD) : V7 m ρ c main_v11 = Cert.Spec.proj (m ((c : Thread nD τ).loc main_arg1)) (m ((c : Thread nD τ).loc main_arg4)) := by
  have e7 : W6 m ρ c (Proc.devRef .tc main_v7) = (Lin1.dat (V3 m ρ) c).arrAt 2 cfg1.N :=
    (W6_of_ne m ρ c main_v7 (by decide)).trans <| (s5 m ρ c main_v7 (by decide)).trans (W4_arr m ρ c 2)
  have ea : W2 m ρ c (Proc.devRef .tc main_arg1) = W0 m ρ c (Proc.devRef .tc main_arg1) :=
    (W2_of_ne m ρ c main_arg1 (by decide)).trans (s1 m ρ c main_arg1 (by decide))
  have e6 : V3 m ρ c main_v6 = shapeCast S8192x1024 (W0 m ρ c (Proc.devRef .tc main_arg1)) shapeCasts_S4x2048x1024_S8192x1024 :=
    (HostVals.ops1_v6 (W2 m ρ c)).trans (by rw [ea])
  have e1 : V3 m ρ c main_v1 = W0 m ρ c (Proc.devRef .tc main_arg4) :=
    (s3 m ρ c main_v1 (by decide)).trans <| (W2_of_ne m ρ c main_v1 (by decide)).trans (w1_v1 m ρ c)
  refine (HostVals.ops3_v11 (W6 m ρ c)).trans ?_
  rw [e7, LinVal1.final (V3 m ρ) c, e6, e1]
  exact ProjVal.proj_eq _ _ _ rfl

/-- Values: region 2's result, reshaped by the last stretch. -/
theorem v_eq (c : Dev nD) : V7 m ρ c main_v12 = Cert.Spec.proj (m ((c : Thread nD τ).loc main_arg2)) (m ((c : Thread nD τ).loc main_arg5)) := by
  have e9 : W6 m ρ c (Proc.devRef .tc main_v9) = (Lin2.dat (V5 m ρ) c).arrAt 2 cfg2.N := W6_arr m ρ c 2
  have ea : W4 m ρ c (Proc.devRef .tc main_arg2) = W0 m ρ c (Proc.devRef .tc main_arg2) :=
    (W4_of_ne m ρ c main_arg2 (by decide)).trans <| (s3 m ρ c main_arg2 (by decide)).trans <| (W2_of_ne m ρ c main_arg2 (by decide)).trans
      (s1 m ρ c main_arg2 (by decide))
  have e8 : V5 m ρ c main_v8 = shapeCast S8192x1024 (W0 m ρ c (Proc.devRef .tc main_arg2)) shapeCasts_S4x2048x1024_S8192x1024 :=
    (HostVals.ops2_v8 (W4 m ρ c)).trans (by rw [ea])
  have e2 : V5 m ρ c main_v2 = W0 m ρ c (Proc.devRef .tc main_arg5) :=
    (s5 m ρ c main_v2 (by decide)).trans <| (W4_of_ne m ρ c main_v2 (by decide)).trans <| (s3 m ρ c main_v2 (by decide)).trans <|
      (W2_of_ne m ρ c main_v2 (by decide)).trans (w1_v2 m ρ c)
  refine (HostVals.ops3_v12 (W6 m ρ c)).trans ?_
  rw [e9, LinVal2.final (V5 m ρ) c, e8, e2]
  exact ProjVal.proj_eq _ _ _ rfl

/-! ## The result -/

/-- What the program leaves in its result buffer is the specification's function of the eight arguments. -/
theorem res_eq (c : Dev nD) :
    W8 m ρ c (Proc.devRef .tc main_v13)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  have h := AttnVal.final (V7 m ρ) c
  rw [q_eq m ρ c, k_eq m ρ c, v_eq m ρ c, wo_eq m ρ c, vl_eq m ρ c] at h
  exact (W8_res m ρ c).trans h

end Cert.KernelIdeal.Chain

end
-- ==== Proof.RefG.lean ====
/-
  The reference program, read entry by entry, computes the specification.

  Each stage of the reference is read at an index given by its coordinates: the three projections in
  their per-head layout, the masked and scaled score, the row maximum, the shifted exponential, the
  probability, a head's output lane, the merged heads, and the output projection.
-/
import proofs.«413729_j14688788152931_2_alg».proof.Proof.Spec
import proofs.«413729_j14688788152931_2_alg».proof.Proof.Gen.ReferenceIdeal.Read
import Idealize.ShloMosaic.PureOps.Reduce
import Idealize.ShloMosaic.PureOps.Ideal.Laws
import Idealize.ShloMosaic.Lib.ValueIdx

noncomputable section

namespace Cert.RefG

open Idealize.ShloMosaic Idealize.ShloMosaic.ValueIdx Cert.Spec Cert.ReferenceIdeal Cert.ReferenceIdeal.Gen
open Cert.ReferenceIdeal.Read

/-! ## The projections in the per-head layout

The reference reshapes a projection [B, S, 1024] to [B, S, 16, 64] and transposes it to [B, 16, S, 64]:
entry (b, h, s, d) of the result is the projection's entry (b, s, 64h + d). -/

/-- The per-head query array at (b, h, s, d). -/
private theorem q_entry (x : Act) (w : Wt) (b : Fin 4) (h : Fin 16) (s : Fin 2048) (d : Fin 64) :
    val_main_v2 (F := Ideal) x w (ix4 b h s d) = projAt x w b s (col h d) := by
  rw [val_main_v2_apply, val_main_v1_apply, val_main_v0_apply]
  unfold projAt
  refine Finset.sum_congr rfl fun k _ => ?_
  have e1 : lidx_main_v0 (idx_main_v1 (idx_main_v2 (ix4 b h s d))) k = ix3 b s k :=
    funext fun a => Fin.ext (by
      match a with
      | ⟨0, _⟩ => show (((b.val * 2048 + s.val) * 16 + h.val) * 64 + d.val) / 2097152 = b.val; omega
      | ⟨1, _⟩ => show (((b.val * 2048 + s.val) * 16 + h.val) * 64 + d.val) / 1024 % 2048 = s.val; omega
      | ⟨2, _⟩ => rfl)
  have e2 : ridx_main_v0 (idx_main_v1 (idx_main_v2 (ix4 b h s d))) k = ix2 (col h d) k :=
    funext fun a => Fin.ext (by
      match a with
      | ⟨0, _⟩ => show (((b.val * 2048 + s.val) * 16 + h.val) * 64 + d.val) % 1024 = 64 * h.val + d.val; omega
      | ⟨1, _⟩ => rfl)
  rw [e1, e2]

/-- The per-head key array at (b, h, t, d). -/
private theorem k_entry (x : Act) (w : Wt) (b : Fin 4) (h : Fin 16) (s : Fin 2048) (d : Fin 64) :
    val_main_v5 (F := Ideal) x w (ix4 b h s d) = projAt x w b s (col h d) := by
  rw [val_main_v5_apply, val_main_v4_apply, val_main_v3_apply]
  unfold projAt
  refine Finset.sum_congr rfl fun k _ => ?_
  have e1 : lidx_main_v3 (idx_main_v4 (idx_main_v5 (ix4 b h s d))) k = ix3 b s k :=
    funext fun a => Fin.ext (by
      match a with
      | ⟨0, _⟩ => show (((b.val * 2048 + s.val) * 16 + h.val) * 64 + d.val) / 2097152 = b.val; omega
      | ⟨1, _⟩ => show (((b.val * 2048 + s.val) * 16 + h.val) * 64 + d.val) / 1024 % 2048 = s.val; omega
      | ⟨2, _⟩ => rfl)
  have e2 : ridx_main_v3 (idx_main_v4 (idx_main_v5 (ix4 b h s d))) k = ix2 (col h d) k :=
    funext fun a => Fin.ext (by
      match a with
      | ⟨0, _⟩ => show (((b.val * 2048 + s.val) * 16 + h.val) * 64 + d.val) % 1024 = 64 * h.val + d.val; omega
      | ⟨1, _⟩ => rfl)
  rw [e1, e2]

/-- The per-head value array at (b, h, t, d). -/
private theorem v_entry (x : Act) (w : Wt) (b : Fin 4) (h : Fin 16) (s : Fin 2048) (d : Fin 64) :
    val_main_v8 (F := Ideal) x w (ix4 b h s d) = projAt x w b s (col h d) := by
  rw [val_main_v8_apply, val_main_v7_apply, val_main_v6_apply]
  unfold projAt
  refine Finset.sum_congr rfl fun k _ => ?_
  have e1 : lidx_main_v6 (idx_main_v7 (idx_main_v8 (ix4 b h s d))) k = ix3 b s k :=
    funext fun a => Fin.ext (by
      match a with
      | ⟨0, _⟩ => show (((b.val * 2048 + s.val) * 16 + h.val) * 64 + d.val) / 2097152 = b.val; omega
      | ⟨1, _⟩ => show (((b.val * 2048 + s.val) * 16 + h.val) * 64 + d.val) / 1024 % 2048 = s.val; omega
      | ⟨2, _⟩ => rfl)
  have e2 : ridx_main_v6 (idx_main_v7 (idx_main_v8 (ix4 b h s d))) k = ix2 (col h d) k :=
    funext fun a => Fin.ext (by
      match a with
      | ⟨0, _⟩ => show (((b.val * 2048 + s.val) * 16 + h.val) * 64 + d.val) % 1024 = 64 * h.val + d.val; omega
      | ⟨1, _⟩ => rfl)
  rw [e1, e2]

/-! ## The accessors of one query row -/

/-- The projected query row (b, s), and a projected array's rows of batch b, as functions of the feature. -/
private abbrev rowOf (x : Act) (w : Wt) (b : Fin 4) (s : Fin 2048) : Fin 1024 → EReal := fun c => proj x w (ix3 b s c)
private abbrev matOf (x : Act) (w : Wt) (b : Fin 4) : Fin 2048 → Fin 1024 → EReal := fun t c => proj x w (ix3 b t c)

private theorem proj_ix3 (x : Act) (w : Wt) (b : Fin 4) (s : Fin 2048) (c : Fin 1024) :
    proj x w (ix3 b s c) = projAt x w b s c := rfl

/-! ## The three small laws over the extended reals -/

/-- The word 0x41000000 is 8 and the word 0x3E000000 is 1/8. -/
private theorem eight_val : Ideal.ofBits .f32 0x41000000#32 = ((8 : ℝ) : EReal) := by
  simp [Ideal.ofBits, Ideal.ieee, -EReal.coe_mul]; norm_num
private theorem eighth_val : eighth = ((1 / 8 : ℝ) : EReal) := by
  unfold eighth; simp [Ideal.ofBits, Ideal.ieee, -EReal.coe_mul]; norm_num

/-- Dividing by 8 is multiplying by 1/8, on every extended real. -/
private theorem div_eight (x : EReal) : Ideal.div x (Ideal.ofBits .f32 0x41000000#32) = x * eighth := by
  rw [eight_val, eighth_val, Ideal.div_coe (by norm_num)]

/-- The word 0xFF800000 is -∞, the bottom of the order. -/
private theorem neg_inf_val : Ideal.ofBits .f32 0xFF800000#32 = (⊥ : EReal) := by
  simp [Ideal.ofBits, Ideal.ieee]

/-- The word 0 is zero. -/
private theorem zero_val : Ideal.ofBits .f32 0x00000000#32 = (0 : EReal) := by
  simp [Ideal.ofBits, Ideal.ieee]

/-! ## The masked, scaled score -/

private theorem score_entry (x0 x1 : Act) (x3 x4 : Wt) (x7 : Lens) (b : Fin 4) (h : Fin 16) (s t : Fin 2048) :
    val_main_v18 (F := Ideal) x0 x1 x3 x4 x7 (ix4 b h s t)
      = scoreR (rowOf x0 x3 b s) (matOf x1 x4 b) (masked x7 b) h t := by
  rw [val_main_v18_apply, val_main_call0_v1_apply, val_main_v17_apply, val_main_v15_apply, val_main_v13_apply,
    val_main_v12_apply, val_main_v16_apply, val_main_v14_apply, val_main_call0_v2_apply, val_main_call0_v0_apply,
    val_main_cst_0_apply, val_main_v11_apply, val_main_v9_apply, val_main_v10_apply, val_main_cst_apply]
  have e14 : idx_main_v14 (idx_main_v16 (idx_main_call0_v1 (ix4 b h s t))) = ix1 b :=
    funext fun a => Fin.ext (by match a with | ⟨0, _⟩ => rfl)
  have hq : ∀ k : Fin 64, lidx_main_v9 (ix4 b h s t) k = ix4 b h s k := fun k =>
    funext fun a => Fin.ext (by match a with | ⟨0, _⟩ => rfl | ⟨1, _⟩ => rfl | ⟨2, _⟩ => rfl | ⟨3, _⟩ => rfl)
  have hk : ∀ k : Fin 64, ridx_main_v9 (ix4 b h s t) k = ix4 b h t k := fun k =>
    funext fun a => Fin.ext (by match a with | ⟨0, _⟩ => rfl | ⟨1, _⟩ => rfl | ⟨2, _⟩ => rfl | ⟨3, _⟩ => rfl)
  rw [e14]
  simp only [hq, hk, q_entry, k_entry]
  unfold scoreR masked
  simp only [proj_ix3]
  show Scalar.select _ negBig (Ideal.div _ (Ideal.ofBits .f32 0x41000000#32)) = _
  rw [div_eight]

/-! ## The row maximum -/

/-- The reference's maximum of -∞ and its reduction over the key axis, at row (b, h, s), is the fold of
    max from -∞ over the row's scores. -/
private theorem rowmax_entry (x0 x1 : Act) (x3 x4 : Wt) (x7 : Lens) (b : Fin 4) (h : Fin 16) (s : Fin 2048) :
    val_main_v21 (F := Ideal) x0 x1 x3 x4 x7 (ix3 b h s)
      = rowMax (fun t => val_main_v18 (F := Ideal) x0 x1 x3 x4 x7 (ix4 b h s t)) := by
  rw [val_main_v21_apply, val_main_v20_apply, val_main_cst_2_apply]
  unfold val_main_v19
  generalize val_main_v18 (F := Ideal) x0 x1 x3 x4 x7 = y
  have hred : S4x16x2048x2048.Reduces [3] S4x16x2048 := by decide
  have key := Host.reduce_eq_fold_single (FloatOps.maximumf (F := Ideal) (φ := .f32)) y
    (val_main_cst_1 (F := Ideal)) reducesTo_S4x16x2048x2048_S4x16x2048_d3 hred h_S_ (ix3 b h s)
  refine (congrArg (FloatOps.maximumf (F := Ideal) (φ := .f32) _) key).trans ?_
  have hl : (y ∘ hred.lift (ix3 b h s)) = fun t : Fin 2048 => y (ix4 b h s t) := funext fun t =>
    congrArg y (funext fun a => Fin.ext (by
      match a with | ⟨0, _⟩ => rfl | ⟨1, _⟩ => rfl | ⟨2, _⟩ => rfl | ⟨3, _⟩ => rfl))
  rw [val_main_cst_1_apply]
  show max (Ideal.ofBits .f32 0xFF800000#32)
    ((Finset.univ : Finset (Fin 2048)).fold max (Ideal.ofBits .f32 0xFF800000#32) (y ∘ hred.lift (ix3 b h s))) = _
  rw [hl, neg_inf_val, max_eq_right bot_le]
  rfl

/-! ## The shifted exponential, the probability, a head's output -/

private theorem expo_entry (x0 x1 : Act) (x3 x4 : Wt) (x7 : Lens) (b : Fin 4) (h : Fin 16) (s t : Fin 2048) :
    val_main_v25 (F := Ideal) x0 x1 x3 x4 x7 (ix4 b h s t)
      = expoR (rowOf x0 x3 b s) (matOf x1 x4 b) (masked x7 b) h t := by
  rw [val_main_v25_apply, val_main_v24_apply, val_main_v23_apply, val_main_v22_apply]
  have e : idx_main_v22 (idx_main_v23 (ix4 b h s t)) = ix3 b h s :=
    funext fun a => Fin.ext (by match a with | ⟨0, _⟩ => rfl | ⟨1, _⟩ => rfl | ⟨2, _⟩ => rfl)
  rw [e, rowmax_entry]
  simp only [score_entry]
  rfl

/-- The reference's row sum starts from the word 0: zero plus the sum is the sum. -/
private theorem prob_entry (x0 x1 : Act) (x3 x4 : Wt) (x7 : Lens) (b : Fin 4) (h : Fin 16) (s t : Fin 2048) :
    val_main_v29 (F := Ideal) x0 x1 x3 x4 x7 (ix4 b h s t)
      = probR (rowOf x0 x3 b s) (matOf x1 x4 b) (masked x7 b) h t := by
  rw [val_main_v29_apply, val_main_v28_apply, val_main_v27_apply]
  have e : idx_main_v27 (idx_main_v28 (ix4 b h s t)) = ix3 b h s :=
    funext fun a => Fin.ext (by match a with | ⟨0, _⟩ => rfl | ⟨1, _⟩ => rfl | ⟨2, _⟩ => rfl)
  rw [e, val_main_v26_apply, val_main_cst_3_apply]
  have hi : ∀ k : Fin 2048, idx_main_v26 (ix3 b h s) k = ix4 b h s k := fun k =>
    funext fun a => Fin.ext (by match a with | ⟨0, _⟩ => rfl | ⟨1, _⟩ => rfl | ⟨2, _⟩ => rfl | ⟨3, _⟩ => rfl)
  simp only [hi, expo_entry]
  show Ideal.div _ (Ideal.ofBits .f32 0x00000000#32 + _) = _
  rw [zero_val, zero_add]
  rfl

private theorem headout_entry (x0 x1 x2 : Act) (x3 x4 x5 : Wt) (x7 : Lens) (b : Fin 4) (h : Fin 16) (s : Fin 2048)
    (d : Fin 64) :
    val_main_v30 (F := Ideal) x0 x1 x2 x3 x4 x5 x7 (ix4 b h s d)
      = headOutR (rowOf x0 x3 b s) (matOf x1 x4 b) (matOf x2 x5 b) (masked x7 b) h d := by
  rw [val_main_v30_apply]
  have hl : ∀ k : Fin 2048, lidx_main_v30 (ix4 b h s d) k = ix4 b h s k := fun k =>
    funext fun a => Fin.ext (by match a with | ⟨0, _⟩ => rfl | ⟨1, _⟩ => rfl | ⟨2, _⟩ => rfl | ⟨3, _⟩ => rfl)
  have hr : ∀ k : Fin 2048, ridx_main_v30 (ix4 b h s d) k = ix4 b h k d := fun k =>
    funext fun a => Fin.ext (by match a with | ⟨0, _⟩ => rfl | ⟨1, _⟩ => rfl | ⟨2, _⟩ => rfl | ⟨3, _⟩ => rfl)
  simp only [hl, hr, prob_entry, v_entry]
  rfl

/-! ## The merged heads and the output projection

The reference transposes [B, 16, S, 64] back to [B, S, 16, 64] and reshapes to [B, S, 1024]: feature c of
the merged array is lane c % 64 of head c / 64. -/

private theorem merged_entry (x0 x1 x2 : Act) (x3 x4 x5 : Wt) (x7 : Lens) (b : Fin 4) (s : Fin 2048) (c : Fin 1024) :
    val_main_v32 (F := Ideal) x0 x1 x2 x3 x4 x5 x7 (ix3 b s c)
      = mergedR (rowOf x0 x3 b s) (matOf x1 x4 b) (matOf x2 x5 b) (masked x7 b) c := by
  rw [val_main_v32_apply, val_main_v31_apply]
  have e : idx_main_v31 (idx_main_v32 (ix3 b s c)) = ix4 b (headOf c) s (laneOf c) :=
    funext fun a => Fin.ext (by
      match a with
      | ⟨0, _⟩ => show ((b.val * 2048 + s.val) * 1024 + c.val) / 2097152 = b.val; omega
      | ⟨1, _⟩ => show ((b.val * 2048 + s.val) * 1024 + c.val) / 64 % 16 = c.val / 64; omega
      | ⟨2, _⟩ => show ((b.val * 2048 + s.val) * 1024 + c.val) / 1024 % 2048 = s.val; omega
      | ⟨3, _⟩ => show ((b.val * 2048 + s.val) * 1024 + c.val) % 64 = c.val % 64; omega)
  rw [e, headout_entry]
  rfl

private theorem result_entry (x0 x1 x2 : Act) (x3 x4 x5 x6 : Wt) (x7 : Lens) (b : Fin 4) (s : Fin 2048) (o : Fin 1024) :
    val_main_v33 (F := Ideal) x0 x1 x2 x3 x4 x5 x6 x7 (ix3 b s o)
      = attnAt (proj x0 x3) (proj x1 x4) (proj x2 x5) x6 x7 b s o := by
  rw [val_main_v33_apply]
  have hl : ∀ k : Fin 1024, lidx_main_v33 (ix3 b s o) k = ix3 b s k := fun k =>
    funext fun a => Fin.ext (by match a with | ⟨0, _⟩ => rfl | ⟨1, _⟩ => rfl | ⟨2, _⟩ => rfl)
  have hr : ∀ k : Fin 1024, ridx_main_v33 (ix3 b s o) k = ix2 o k := fun k =>
    funext fun a => Fin.ext (by match a with | ⟨0, _⟩ => rfl | ⟨1, _⟩ => rfl)
  simp only [hl, hr, merged_entry]
  rfl

/-- The reference program computes the specification. -/
theorem result_eq (x0 x1 x2 : Act) (x3 x4 x5 x6 : Wt) (x7 : Lens) :
    val_main_v33 (F := Ideal) x0 x1 x2 x3 x4 x5 x6 x7 = G x0 x1 x2 x3 x4 x5 x6 x7 := by
  funext i
  obtain ⟨b, s, o, rfl⟩ : ∃ b s o, i = ix3 b s o := ⟨i 0, i 1, i 2, eq_ix3 i⟩
  rw [result_entry]
  rfl

end Cert.RefG

end
-- ==== Proof.lean ====
/-
  Multi-head attention with a valid-length key mask: a Pallas kernel program (three linear projections,
  then attention with the head merge and the output projection fused in) against its plain reference.

  Over the extended reals both programs compute one function `Spec.G` of the eight arguments:
  y[b,s,o] = Σ_c merged[b,s,c] · Wo[o,c], where merged lays the sixteen heads' outputs side by side and
  head h's output is the softmax of its masked, scaled scores times its value slice.  The kernel adds
  the output projection up over eight pairs of heads (128 columns at a time) from a zero block, the
  reference contracts all 1024 columns at once: the same sum regrouped.  The kernel scales the scores by the
  binary word of 1/8, the reference divides by 8: the same on every extended real.  Changes of float
  format are the identity.  No step needs the inputs finite, so the precondition is never opened.

  The three frames: each program runs to its end, faults nowhere and leaves its arguments as launched — for
  the two kernel programs from the launch of their four regions, for the reference from its run.  The
  idealization rewrote no operation, so `preserves` is trivial.
-/
import proofs.«413729_j14688788152931_2_alg».proof.Defs
import proofs.«413729_j14688788152931_2_alg».proof.Proof.Gen.Kernel
import proofs.«413729_j14688788152931_2_alg».proof.Proof.Gen.KernelIdeal
import proofs.«413729_j14688788152931_2_alg».proof.Proof.Gen.ReferenceIdeal
import proofs.«413729_j14688788152931_2_alg».proof.Proof.Gen.Pre_finite_inputs
import proofs.«413729_j14688788152931_2_alg».proof.Proof.Gen.ReferenceIdeal.Run
import proofs.«413729_j14688788152931_2_alg».proof.Proof.Gen.ReferenceIdeal.Read
import proofs.«413729_j14688788152931_2_alg».proof.Proof.K.Run
import proofs.«413729_j14688788152931_2_alg».proof.Proof.KI.Run
import proofs.«413729_j14688788152931_2_alg».proof.Proof.KI.Chain
import proofs.«413729_j14688788152931_2_alg».proof.Proof.RefG
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ =>
  (θ_run Cert.Kernel.defs _ _).mono (fun _ h c => (h c).2) (Cert.Kernel.Run.run_main (F := Bits) m ρ)

/-- The idealized kernel program runs and keeps its arguments. -/
theorem frame_ki : Cert.frame_KernelIdeal := fun m ρ _ =>
  (θ_run Cert.KernelIdeal.defs _ _).mono (fun _ h c => (h c).2) (Cert.KernelIdeal.Run.run_main (F := Ideal) m ρ)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the result at `Spec.G` of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.res_eq m ρ c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, Cert.RefG.result_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
